-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192 : Shape := ⟨1, ![8192]⟩
abbrev S1000x1024 : Shape := ⟨2, ![1000, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1000x1024 : S_.BroadcastsInDim S1000x1024 (![] : Fin 0 → Fin S1000x1024.rank)
  reducesTo_S1000x1024_S_d0_1 : S1000x1024.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x1024 .f32) (main_arg1 : IVec S8192 32) (main_arg2 : FVec F S1000x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1000x1024 .f32 := Host.absf main_arg2
  let main_cst_0 : FVec F S_ .f32 := constant S_ .f32 0x7F800000#32
  let main_v5 : FVec F S1000x1024 .f32 := broadcastInDim S1000x1024 ![] bcast_S_S1000x1024 main_cst_0
  let main_v6 : IVec S1000x1024 1 := cmpf .olt main_v4 main_v5
  let main_c_1 : IVec S_ 1 := constantI S_ 1 1#1
  let main_v7 : IVec S_ 1 := (fun x v => Host.reduce IntOp.andi x v reducesTo_S1000x1024_S_d0_1 h_S_) main_v6 main_c_1
  let main_v8 : IVec S_ 1 := andi main_v3 main_v7
  let main_c_2 : IVec S_ 32 := constantI S_ 32 0#32
  let main_v9 : IVec S8192 32 := broadcastInDim S8192 ![] bcast_S_S8192 main_c_2
  let main_v10 : IVec S8192 1 := cmpi .sge main_arg1 main_v9
  let main_c_3 : IVec S_ 32 := constantI S_ 32 1000#32
  let main_v11 : IVec S8192 32 := broadcastInDim S8192 ![] bcast_S_S8192 main_c_3
  let main_v12 : IVec S8192 1 := cmpi .slt main_arg1 main_v11
  let main_v13 : IVec S8192 1 := andi main_v10 main_v12
  let main_c_4 : IVec S_ 1 := constantI S_ 1 1#1
  let main_v14 : IVec S_ 1 := (fun x v => Host.reduce IntOp.andi x v reducesTo_S8192_S_d0 h_S_) main_v13 main_c_4
  let main_v15 : IVec S_ 1 := andi main_v8 main_v14
  main_v15
-- ==== Kernel.lean ====
abbrev S8192x1024 : Shape := ⟨2, ![8192, 1024]⟩
abbrev S8192 : Shape := ⟨1, ![8192]⟩
abbrev S1000x1024 : Shape := ⟨2, ![1000, 1024]⟩
abbrev S8192x1 : Shape := ⟨2, ![8192, 1]⟩
abbrev S1x8192 : Shape := ⟨2, ![1, 8192]⟩
abbrev S_ : Shape := ⟨0, ![]⟩
abbrev S1000 : Shape := ⟨1, ![1000]⟩
abbrev S1024x1024 : Shape := ⟨2, ![1024, 1024]⟩
abbrev S512x1024 : Shape := ⟨2, ![512, 1024]⟩
abbrev S512x1 : Shape := ⟨2, ![512, 1]⟩
abbrev S512 : Shape := ⟨1, ![512]⟩
abbrev S1x512 : Shape := ⟨2, ![1, 512]⟩
abbrev S512x512 : Shape := ⟨2, ![512, 512]⟩

abbrev nBuf : Space → Nat
  | .hbm => 45
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S1000x1024, .f32⟩
  | .hbm, ⟨3, _⟩ => ⟨S8192x1, .i32⟩
  | .hbm, ⟨4, _⟩ => ⟨S1x8192, .i32⟩
  | .hbm, ⟨5, _⟩ => ⟨S_, .i32⟩
  | .hbm, ⟨6, _⟩ => ⟨S1000, .i32⟩
  | .hbm, ⟨7, _⟩ => ⟨S_, .i32⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S_, .i32⟩
  | .hbm, ⟨12, _⟩ => ⟨S8192, .i32⟩
  | .hbm, ⟨13, _⟩ => ⟨S8192, .i1⟩
  | .hbm, ⟨14, _⟩ => ⟨S_, .i32⟩
  | .hbm, ⟨15, _⟩ => ⟨S8192, .i32⟩
  | .hbm, ⟨16, _⟩ => ⟨S8192, .i32⟩
  | .hbm, ⟨17, _⟩ => ⟨S8192, .i32⟩
  | .hbm, ⟨18, _⟩ => ⟨S8192x1, .i32⟩
  | .hbm, ⟨19, _⟩ => ⟨S_, .i32⟩
  | .hbm, ⟨20, _⟩ => ⟨S8192, .i32⟩
  | .hbm, ⟨21, _⟩ => ⟨S1000, .i32⟩
  | .hbm, ⟨22, _⟩ => ⟨S1000, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .f32⟩
  | .hbm, ⟨30, _⟩ => ⟨S_, .i32⟩
  | .hbm, ⟨31, _⟩ => ⟨S_, .f32⟩
  | .hbm, ⟨32, _⟩ => ⟨S1024x1024, .f32⟩
  | .hbm, ⟨33, _⟩ => ⟨S8192x1, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S8192x1, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1, .i32⟩
  | .local _ .vmem, ⟨3, _⟩ => ⟨S512x1, .i32⟩
  | .local _ .vmem, ⟨4, _⟩ => ⟨S1024x1024, .f32⟩
  | .local _ .vmem, ⟨5, _⟩ => ⟨S512x1, .f32⟩
  | .local _ .vmem, ⟨6, _⟩ => ⟨S512x1, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1, .i32⟩
  | .local _ .vmem, ⟨12, _⟩ => ⟨S512x1, .i32⟩
  | .local _ .vmem, ⟨13, _⟩ => ⟨S1x512, .i32⟩
  | .local _ .vmem, ⟨14, _⟩ => ⟨S1x512, .i32⟩
  | .local _ .vmem, ⟨15, _⟩ => ⟨S512x1, .f32⟩
  | .local _ .vmem, ⟨16, _⟩ => ⟨S512x1, .f32⟩
  | .local _ .vmem, ⟨17, _⟩ => ⟨S512x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_4 : Ref sig .tc := ⟨.hbm, 23, rfl⟩
abbrev main_v13 : Ref sig .tc := ⟨.hbm, 24, rfl⟩
abbrev main_c_5 : Ref sig .tc := ⟨.hbm, 25, rfl⟩
abbrev main_v14 : Ref sig .tc := ⟨.hbm, 26, rfl⟩
abbrev main_c_6 : Ref sig .tc := ⟨.hbm, 27, rfl⟩
abbrev main_v15 : Ref sig .tc := ⟨.hbm, 28, rfl⟩
abbrev main_v16 : Ref sig .tc := ⟨.hbm, 29, rfl⟩
abbrev main_c_7 : Ref sig .tc := ⟨.hbm, 30, rfl⟩
abbrev main_call1_v0 : Ref sig .tc := ⟨.hbm, 31, rfl⟩
abbrev main_v17 : Ref sig .tc := ⟨.hbm, 32, rfl⟩
abbrev main_v18 : Ref sig .tc := ⟨.hbm, 33, rfl⟩
abbrev main_cst : Ref sig .tc := ⟨.hbm, 34, rfl⟩
abbrev main_v19 : Ref sig .tc := ⟨.hbm, 35, rfl⟩
abbrev main_cst_8 : Ref sig .tc := ⟨.hbm, 36, rfl⟩
abbrev main_v20 : Ref sig .tc := ⟨.hbm, 37, rfl⟩
abbrev main_v21 : Ref sig .tc := ⟨.hbm, 38, rfl⟩
abbrev main_cst_9 : Ref sig .tc := ⟨.hbm, 39, rfl⟩
abbrev main_v22 : Ref sig .tc := ⟨.hbm, 40, rfl⟩
abbrev main_v23 : Ref sig .tc := ⟨.hbm, 41, rfl⟩
abbrev main_cst_10 : Ref sig .tc := ⟨.hbm, 42, rfl⟩
abbrev main_v24 : Ref sig .tc := ⟨.hbm, 43, rfl⟩
abbrev main_v25 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v44 : BitVec 1 := Scalar.cmpi .eq arg1 c15_i32
  let v45 : BitVec 32 := Scalar.extui v44
  let c0_i32_20 : BitVec 32 := 0#32
  let v46 : BitVec 1 := Scalar.cmpi .ne v45 c0_i32_20
  v46

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S8192_S8192x1 : S8192.ShapeCasts S8192x1
  shapeCasts_S8192_S1x8192 : S8192.ShapeCasts S1x8192
  bcast_S_S1000 : S_.BroadcastsInDim S1000 (![] : Fin 0 → Fin S1000.rank)
  bcast_S_S8192 : S_.BroadcastsInDim S8192 (![] : Fin 0 → Fin S8192.rank)
  bcast_S8192_S8192x1_0 : S8192.BroadcastsInDim S8192x1 (![0] : Fin 1 → Fin S8192x1.rank)
  reducesTo_S1000_S_d0 : S1000.ReducesTo [0] S_
  h_S_ : 0 < S_.numel
  pads_S1000x1024_S1024x1024_0240_000 : S1000x1024.Pads (![0, 0] : Fin 2 → Nat) ![24, 0] ![0, 0] S1024x1024
  inb_S512x1024_S512x1024_0_0 : ∀ a, (![0, 0] : Fin 2 → Nat) a + S512x1024.size a ≤ S512x1024.size a
  h_S512x1024 : 0 < S512x1024.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  iota_S512x1024_d1_w32 : S512x1024.Iotas .tc 32 [1]
  broadcasts_S512x1_S512x1024 : S512x1.Broadcasts S512x1024
  natLt_1_32 : 1 < 32
  bitsLt_bf16_f32 : FTy.bits .bf16 < FTy.bits .f32
  reduces_S512x1024_S512 : S512x1024.Reduces [1] S512
  shapeCasts_S512_S512x1 : S512.ShapeCasts S512x1
  reducesTo_S8192x1_S_d0_1 : S8192x1.ReducesTo [0, 1] S_
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  reduces_S512x512_S512 : S512x512.Reduces [1] S512
  scatter_S1000_S8192x1_S8192_n_0_0_1_wf : ScatterDims.WF S1000 S8192x1 S8192 [] [0] [0] 1
  dot_S512x1024_S1024x1024_S512x1024_1_0_0_1_n_n_wf : DotDims.WF S512x1024 S1024x1024 S512x1024 [1] [0] [0] [1] [] []
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .i32 = 32 ∨ (Rect.block (s := S8192x1) S512x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x1024.size a
  hwx1_0 : ∀ i : grid1.Coords, EltTy.bits .f32 = 32 ∨ (Rect.block (s := S8192x1024) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S8192x1024.size a
  hwx1_1 : ∀ i : grid1.Coords, EltTy.bits .f32 = 32 ∨ (Rect.block (s := S8192x1024) S512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S8192x1.size a
  hwx1_2 : ∀ i : grid1.Coords, EltTy.bits .i32 = 32 ∨ (Rect.block (s := S8192x1) S512x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x8192.size a
  hwx1_3 : ∀ i : grid1.Coords, EltTy.bits .i32 = 32 ∨ (Rect.block (s := S1x8192) S1x512.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S8192x1.size a
  hwx1_4 : ∀ i : grid1.Coords, EltTy.bits .f32 = 32 ∨ (Rect.block (s := S8192x1) S512x1.size (cc1_transform_4 i) (hinb1_4 i)).WholeWords (EltTy.packing .f32)

variable [Facts₀]

def scatter_S1000_S8192x1_S8192_n_0_0_1 : ScatterDims S1000 S8192x1 S8192 where
  updateWindowDims := []
  insertedWindowDims := [0]
  scatterDimsToOperandDims := [0]
  indexVectorDim := 1
  wf := scatter_S1000_S8192x1_S8192_n_0_0_1_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v21) S512x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8192x1024 : Shape := ⟨2, ![8192, 1024]⟩
abbrev S8192 : Shape := ⟨1, ![8192]⟩
abbrev S1000x1024 : Shape := ⟨2, ![1000, 1024]⟩
abbrev S_ : Shape := ⟨0, ![]⟩
abbrev S8192x1 : Shape := ⟨2, ![8192, 1]⟩
abbrev S1024x8192 : Shape := ⟨2, ![1024, 8192]⟩
abbrev S8192x8192 : Shape := ⟨2, ![8192, 8192]⟩
abbrev S1x8192 : Shape := ⟨2, ![1, 8192]⟩

abbrev nBuf : Space → Nat
  | .hbm => 76
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S1000x1024, .f32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S_, .f32⟩
  | .hbm, ⟨17, _⟩ => ⟨S8192, .f32⟩
  | .hbm, ⟨18, _⟩ => ⟨S8192, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S8192, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S8192, .f32⟩
  | .hbm, ⟨39, _⟩ => ⟨S8192, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S1024x8192, .f32⟩
  | .hbm, ⟨48, _⟩ => ⟨S8192x8192, .f32⟩
  | .hbm, ⟨49, _⟩ => ⟨S8192x1, .i32⟩
  | .hbm, ⟨50, _⟩ => ⟨S1x8192, .i32⟩
  | .hbm, ⟨51, _⟩ => ⟨S8192x8192, .i32⟩
  | .hbm, ⟨52, _⟩ => ⟨S8192x8192, .i32⟩
  | .hbm, ⟨53, _⟩ => ⟨S8192x8192, .i1⟩
  | .hbm, ⟨54, _⟩ => ⟨S_, .f32⟩
  | .hbm, ⟨55, _⟩ => ⟨S8192x8192, .f32⟩
  | .hbm, ⟨56, _⟩ => ⟨S8192x8192, .f32⟩
  | .hbm, ⟨57, _⟩ => ⟨S_, .f32⟩
  | .hbm, ⟨58, _⟩ => ⟨S8192x8192, .f32⟩
  | .hbm, ⟨59, _⟩ => ⟨S8192x8192, .f32⟩
  | .hbm, ⟨60, _⟩ => ⟨S_, .f32⟩
  | .hbm, ⟨61, _⟩ => ⟨S_, .f32⟩
  | .hbm, ⟨62, _⟩ => ⟨S8192x8192, .f32⟩
  | .hbm, ⟨63, _⟩ => ⟨S8192x8192, .f32⟩
  | .hbm, ⟨64, _⟩ => ⟨S8192x8192, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_call2_cst : Ref sig .tc := ⟨.hbm, 57, rfl⟩
abbrev main_call2_v0 : Ref sig .tc := ⟨.hbm, 58, rfl⟩
abbrev main_v38 : Ref sig .tc := ⟨.hbm, 59, rfl⟩
abbrev main_cst_8 : Ref sig .tc := ⟨.hbm, 60, rfl⟩
abbrev main_call3_v0 : Ref sig .tc := ⟨.hbm, 61, rfl⟩
abbrev main_call3_v1 : Ref sig .tc := ⟨.hbm, 62, rfl⟩
abbrev main_v39 : Ref sig .tc := ⟨.hbm, 63, rfl⟩
abbrev main_v40 : Ref sig .tc := ⟨.hbm, 64, rfl⟩
abbrev main_c_9 : Ref sig .tc := ⟨.hbm, 65, rfl⟩
abbrev main_v41 : Ref sig .tc := ⟨.hbm, 66, rfl⟩
abbrev main_c_10 : Ref sig .tc := ⟨.hbm, 67, rfl⟩
abbrev main_v42 : Ref sig .tc := ⟨.hbm, 68, rfl⟩
abbrev main_v43 : Ref sig .tc := ⟨.hbm, 69, rfl⟩
abbrev main_cst_11 : Ref sig .tc := ⟨.hbm, 70, rfl⟩
abbrev main_v44 : Ref sig .tc := ⟨.hbm, 71, rfl⟩
abbrev main_v45 : Ref sig .tc := ⟨.hbm, 72, rfl⟩
abbrev main_cst_12 : Ref sig .tc := ⟨.hbm, 73, rfl⟩
abbrev main_v46 : Ref sig .tc := ⟨.hbm, 74, rfl⟩
abbrev main_v47 : Ref sig .tc := ⟨.hbm, 75, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  reducesTo_S8192x1024_S8192_d1 : S8192x1024.ReducesTo [1] S8192
  h_S_ : 0 < S_.numel
  reducesTo_S8192_S_d0 : S8192.ReducesTo [0] S_
  bcast_S8192x1_S8192x1024_0_1 : S8192x1.BroadcastsInDim S8192x1024 (![0, 1] : Fin 2 → Fin S8192x1024.rank)
  transposes_S8192x1024_S1024x8192_1_0 : S8192x1024.Transposes [1, 0] S1024x8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  natLt_1_32 : 1 < 32
  reducesTo_S8192x8192_S_d0_1 : S8192x8192.ReducesTo [0, 1] S_
  gather_S1000x1024_S8192x1_S8192x1024_1_0_n_n_0_1_11024_wf : GatherDims.WF S1000x1024 S8192x1 S8192x1024 [1] [0] [] [0] [] 1 ![1, 1024]
  dot_S8192x1024_S1024x8192_S8192x8192_1_0_0_1_n_n_wf : DotDims.WF S8192x1024 S1024x8192 S8192x8192 [1] [0] [0] [1] [] []

variable [Facts₀]

def gather_S1000x1024_S8192x1_S8192x1024_1_0_n_n_0_1_11024 : GatherDims S1000x1024 S8192x1 S8192x1024 where
  offsetDims := [1]
  collapsedSliceDims := [0]
  operandBatchingDims := []
  startIndicesBatchingDims := []
  startIndexMap := [0]
  indexVectorDim := 1
  sliceSizes := ![1, 1024]
  wf := gather_S1000x1024_S8192x1_S8192x1024_1_0_n_n_0_1_11024_wf
def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf

class Facts : Prop extends Facts₀ where

variable [Facts]
-- ==== Proof.Spec.lean ====
/-
  The value both programs compute, written once over the extended reals: per sample r a cosine-decayed squared
  distance to the centre row its label picks, averaged over the 8192 samples, plus half the mean over label-mismatched
  pairs (r, s) of the hinge max(1/2 - cos(x_r, x_s), 0), the pair count a 32-bit word read signed.
  Everything is an explicit finite sum over coordinates; no program is imported.
-/
import Idealize.ShloMosaic.PureOps.Ideal
import Idealize.ShloMosaic.Lib.ValueIdx

noncomputable section

open scoped BigOperators

namespace Cert.Spec

open Idealize.ShloMosaic Idealize.ShloMosaic.ValueIdx

/-- A feature or centre row: 1024 extended reals. -/
abbrev Row := Fin 1024 → EReal

/-- The clamp both programs put under a norm, the f32 nearest to 1e-8 (the same word on both sides, never evaluated). -/
def eps : EReal := Ideal.ofBits .f32 0x322BCC77#32
/-- The hinge margin and the weight of the pair term: the f32 word of 1/2. -/
def half : EReal := Ideal.ofBits .f32 0x3F000000#32
/-- The decay rate, the f32 word of 1. -/
def one : EReal := Ideal.ofBits .f32 0x3F800000#32
/-- The sample count as both programs divide by it: the f32 word of 8192. -/
def c8192 : EReal := Ideal.ofBits .f32 0x46000000#32

/-- The Euclidean norm of a row, clamped below by `eps`. -/
def nrm (x : Row) : EReal := max (Ideal.sqrt (∑ d, x d * x d)) eps

/-- Squared distance of `f` to `cb` divided by exp of their clamped cosine similarity. -/
def intraRow (f cb : Row) : EReal :=
  Ideal.div (∑ d, (f d - cb d) * (f d - cb d)) (Ideal.exp (one * Ideal.div (∑ d, f d * cb d) (nrm f * nrm cb)))

/-- The inner product of the two rows each divided, entry by entry, by its clamped norm. -/
def cosRow (x y : Row) : EReal := ∑ d, Ideal.div (x d) (nrm x) * Ideal.div (y d) (nrm y)

/-- The hinge of a pair: max(1/2 - cos, 0) where the labels differ, 0 where they agree. -/
def hinge (x y : Row) (ne : Prop) [Decidable ne] : EReal := if ne then max (half - cosRow x y) 0 else 0

/-- The centre row a label word picks (the word read unsigned, reduced mod 1000 so that the function is total;
    on labels in [0, 1000) it is row `label`). -/
def rowAt (cen : Fin 1000 → Row) (w : BitVec 32) : Row := cen ⟨w.toNat % 1000, Nat.mod_lt _ (by decide)⟩

/-- The centre row a label word picks out of a [1024, 1024] table by a one-hot product: the sum over table rows k of
    [k = label] times the table's row k. -/
def pick (w : BitVec 32) (cp : (⟨2, ![1024, 1024]⟩ : Shape).Idx → EReal) : Row :=
  fun d => ∑ k : Fin 1024, (if BitVec.ofNat 32 k.val = w then (1 : EReal) else 0) * cp (ix2 k d)

/-- The loss: mean of the per-sample terms plus half the pair sum over the pair count (a signed 32-bit word). -/
def total (intra : Fin 8192 → EReal) (adv : Fin 8192 → Fin 8192 → EReal) (np : BitVec 32) : EReal :=
  Ideal.div (∑ r, intra r) c8192 + half * Ideal.div (∑ r, ∑ s, adv r s) (((np.toInt : ℝ)) : EReal)

/-- Row `r` of a [8192, 1024] array. -/
def featRow (f : (⟨2, ![8192, 1024]⟩ : Shape).Idx → EReal) (r : Fin 8192) : Row := fun d => f (ix2 r d)
/-- Row `c` of a [1000, 1024] array. -/
def cenRow (c : (⟨2, ![1000, 1024]⟩ : Shape).Idx → EReal) (k : Fin 1000) : Row := fun d => c (ix2 k d)
/-- Entry `r` of a [8192] word array. -/
def labAt (l : (⟨1, ![8192]⟩ : Shape).Idx → BitVec 32) (r : Fin 8192) : BitVec 32 := l (ix1 r)

/-- The whole value as a function of the three argument arrays and the pair-count word. -/
def loss (f : (⟨2, ![8192, 1024]⟩ : Shape).Idx → EReal) (l : (⟨1, ![8192]⟩ : Shape).Idx → BitVec 32)
    (c : (⟨2, ![1000, 1024]⟩ : Shape).Idx → EReal) (np : BitVec 32) : EReal :=
  total (fun r => intraRow (featRow f r) (rowAt (cenRow c) (labAt l r)))
    (fun r s => hinge (featRow f r) (featRow f s) (labAt l r ≠ labAt l s)) np

/-- The label range the claim is stated under: every label, read signed, lies in [0, 1000). -/
def InRange (l : (⟨1, ![8192]⟩ : Shape).Idx → BitVec 32) : Prop := ∀ r : Fin 8192, 0 ≤ (labAt l r).toInt ∧ (labAt l r).toInt < 1000

end Cert.Spec

end
-- ==== Proof.PreRange.lean ====
/-
  The label range out of the precondition. The precondition is a conjunction of three "all entries" facts, each a
  reduction by `and` of an array of one-bit words down to a single word; its being 1 makes every conjunct 1. The last
  conjunct is the reduction over the labels of (label ≥ 0 signed) and (label < 1000 signed), so every label, read
  signed, lies in [0, 1000).
-/
import proofs.«417645_j74594991997728_1_alg».proof.Pre_finite_inputs
import proofs.«417645_j74594991997728_1_alg».proof.Proof.Gen.Pre_finite_inputs
import proofs.«417645_j74594991997728_1_alg».proof.Proof.Spec
import Idealize.ShloMosaic.Lib.ReduceAll
import Idealize.ShloMosaic.Lib.StableHlo.Predicate
import Idealize.ShloMosaic.Lib.ValueIdx

namespace Cert.PreRange

open Idealize.ShloMosaic Idealize.ShloMosaic.ValueIdx

/-- A shape of rank zero has exactly one index. -/
instance : Subsingleton Cert.Pre_finite_inputs.S_.Idx := ⟨fun a b => funext fun d => d.elim0⟩

/-- The precondition's last conjunct, read at each label: 0 ≤ label < 1000 as signed words. -/
theorem inRange_of_pre [Cert.Pre_finite_inputs.Facts] {F : FTy → Type} [FloatOps F]
    (f : FVec F Cert.Pre_finite_inputs.S8192x1024 .f32) (l : IVec Cert.Pre_finite_inputs.S8192 32)
    (c : FVec F Cert.Pre_finite_inputs.S1000x1024 .f32)
    (h : Cert.Pre_finite_inputs.fn (F := F) f l c = fun _ => 1#1) : Cert.Spec.InRange l := by
  intro r
  have h0 := congrFun h ValueIdx.ix0
  dsimp only [Cert.Pre_finite_inputs.fn] at h0
  -- the outer conjunction: its right half is the reduction over the labels
  have h1 := (IntOp.andi_eq_one.1 h0).2
  -- every element of the reduced array is 1
  have h2 := Host.reduce_andi_all _ _ _ _ _ h1 (ix1 r)
  -- the element is the conjunction of the two signed comparisons against the constants 0 and 1000
  obtain ⟨hge, hlt⟩ := IntOp.andi_eq_one.1 h2
  have hge' := IntOp.cmpi_sge.1 hge
  have hlt' := IntOp.cmpi_slt.1 hlt
  refine ⟨?_, ?_⟩
  · have e0 : (0#32 : BitVec 32).toInt = 0 := by decide
    exact e0 ▸ hge'
  · have e1 : (1000#32 : BitVec 32).toInt = 1000 := by decide
    exact e1 ▸ hlt'

end Cert.PreRange
-- ==== Proof.Count.lean ====
/-
  The pair count. Both programs count the ordered pairs (r, s) of samples whose labels differ, in 32-bit words:
  one as the double sum of the indicator of "labels differ", the other as 8192 * 8192 minus the sum of the squares of
  the label histogram. This file states the count, reads a scatter-add and the word reductions as finite sums, and
  proves the identity between the two in the commutative ring of 32-bit words, for labels in [0, 1000).
-/
import Idealize.ShloMosaic.PureOps.Reduce
import Idealize.ShloMosaic.Lib.ValueIdx
import Idealize.ShloMosaic.Lib.ValueIdxRank1
import Mathlib.Data.BitVec
import Mathlib.Algebra.BigOperators.Ring.Finset
import Mathlib.Algebra.BigOperators.Fin
import proofs.«417645_j74594991997728_1_alg».proof.Proof.Spec

noncomputable section

open scoped BigOperators

namespace Cert.Count

open Idealize.ShloMosaic Idealize.ShloMosaic.ValueIdx

/-- The number of ordered pairs of samples with different labels, as a sum of 32-bit words. -/
def pairSum (l : (⟨1, ![8192]⟩ : Shape).Idx → BitVec 32) : BitVec 32 :=
  ∑ r : Fin 8192, ∑ s : Fin 8192, (if l (ix1 r) ≠ l (ix1 s) then 1#32 else 0#32)

/-- The pair count both programs divide by: the signed maximum of that sum and 1. -/
def pairWord (l : (⟨1, ![8192]⟩ : Shape).Idx → BitVec 32) : BitVec 32 :=
  IntOp.maxsi (pairSum l) 1#32

/-! ## A left fold of "add at one index" read at an index -/

section Fold
variable {ι κ : Type} [DecidableEq κ]

/-- A left fold whose every step adds a term to the element read leaves there the initial element plus the list sum of
    the terms. -/
theorem foldl_add_read (st : (κ → BitVec 32) → ι → κ → BitVec 32) (c : ι → κ → BitVec 32)
    (h : ∀ r n i, st r n i = r i + c n i) (L : List ι) (x : κ → BitVec 32) (i : κ) :
    (L.foldl st x) i = x i + (L.map fun n => c n i).sum := by
  induction L generalizing x with
  | nil => simp
  | cons a L ih => rw [List.foldl_cons, ih, h, List.map_cons, List.sum_cons, add_assoc]

end Fold

/-! ## A scatter-add of words read at an operand index -/

/-- A scatter whose body adds words leaves at an operand index its element plus the sum of the updates whose
    result index is that index (additions of words commute and associate, so the order of the fold is immaterial). -/
theorem scatter_addi_read {s si u : Shape} (d : ScatterDims s si u) (x : s.Idx → BitVec 32) (idx : IVec si 32)
    (upd : u.Idx → BitVec 32) (i : s.Idx) :
    Host.scatter d IntOp.addi x idx upd i
      = x i + ∑ j : u.Idx, (if d.resultIdx? j idx = some i then upd j else 0) := by
  unfold Host.scatter
  rw [foldl_add_read _ (fun n i => if d.resultIdx? (u.rowMajor.symm n) idx = some i then upd (u.rowMajor.symm n) else 0)]
  · rw [← Fin.sum_univ_def]
    exact congrArg _ (Equiv.sum_comp u.rowMajor.symm fun j => if d.resultIdx? j idx = some i then upd j else 0)
  · intro r n i
    generalize d.resultIdx? (u.rowMajor.symm n) idx = o
    cases o with
    | none => simp
    | some i0 =>
      show (if i = i0 then IntOp.addi (r i0) (upd (u.rowMajor.symm n)) else r i) = _
      by_cases e : i = i0
      · subst e; rw [if_pos rfl, if_pos rfl]; rfl
      · rw [if_neg e, if_neg (fun h => e (Option.some.inj h).symm), add_zero]

/-! ## The histogram's scatter: one scalar index per update, into the one operand axis -/

/-- Dimension numbers of a scatter of 8192 scalar updates into a [1000] operand at indices held in a [8192, 1] array. -/
abbrev binDims (wf : ScatterDims.WF ⟨1, ![1000]⟩ ⟨2, ![8192, 1]⟩ ⟨1, ![8192]⟩ [] [0] [0] 1) :
    ScatterDims ⟨1, ![1000]⟩ ⟨2, ![8192, 1]⟩ ⟨1, ![8192]⟩ := ⟨[], [0], [0], 1, wf⟩

theorem binDims_siIdx (wf : ScatterDims.WF ⟨1, ![1000]⟩ ⟨2, ![8192, 1]⟩ ⟨1, ![8192]⟩ [] [0] [0] 1)
    (j : (⟨1, ![8192]⟩ : Shape).Idx) (c : Fin (binDims wf).scatterDimsToOperandDims.length) :
    (binDims wf).siIdx j c = ix2 (j 0) 0 := by
  funext b
  match b with
  | ⟨0, _⟩ =>
    apply Fin.ext
    unfold ScatterDims.siIdx
    rw [dif_neg (show ¬ (0 : Nat) = 1 by decide)]
    rfl
  | ⟨1, _⟩ =>
    apply Fin.ext
    unfold ScatterDims.siIdx
    rw [dif_pos (by rfl)]
    show c.val = 0
    have h : c.val < 1 := c.isLt
    omega

theorem binDims_start (wf : ScatterDims.WF ⟨1, ![1000]⟩ ⟨2, ![8192, 1]⟩ ⟨1, ![8192]⟩ [] [0] [0] 1)
    (j : (⟨1, ![8192]⟩ : Shape).Idx) (idx : IVec ⟨2, ![8192, 1]⟩ 32) (a : Fin 1) :
    (binDims wf).start j idx a = (idx (ix2 (j 0) 0)).toInt := by
  unfold ScatterDims.start
  rw [dif_pos (show a ∈ (binDims wf).scatterDimsToOperandDims by
    show a ∈ [(0 : Fin 1)]; simp; exact Subsingleton.elim _ _)]
  exact congrArg (fun k => (idx k).toInt) (binDims_siIdx wf j _)

theorem binDims_window (wf : ScatterDims.WF ⟨1, ![1000]⟩ ⟨2, ![8192, 1]⟩ ⟨1, ![8192]⟩ [] [0] [0] 1)
    (j : (⟨1, ![8192]⟩ : Shape).Idx) (a : Fin 1) : (binDims wf).window j a = 0 := by
  unfold ScatterDims.window
  rw [dif_neg]
  show ¬ a ∈ ((⟨1, ![1000]⟩ : Shape).kept [0])
  have : a = 0 := Subsingleton.elim _ _
  subst this
  decide

/-- An update of the histogram's scatter lands at operand index c exactly when its scatter index, read signed, is c. -/
theorem binDims_resultIdx_eq_some_iff (wf : ScatterDims.WF ⟨1, ![1000]⟩ ⟨2, ![8192, 1]⟩ ⟨1, ![8192]⟩ [] [0] [0] 1)
    (j : (⟨1, ![8192]⟩ : Shape).Idx) (idx : IVec ⟨2, ![8192, 1]⟩ 32) (c : Fin 1000) :
    (binDims wf).resultIdx? j idx = some (ix1 c) ↔ (idx (ix2 (j 0) 0)).toInt = (c.val : Int) := by
  have key : ∀ a : Fin 1, (binDims wf).start j idx a + ((binDims wf).window j a : Int) = (idx (ix2 (j 0) 0)).toInt :=
    fun a => by rw [binDims_start, binDims_window]; simp
  have hc : (c.val : Int) < 1000 := by have := c.isLt; omega
  unfold ScatterDims.resultIdx?
  constructor
  · intro h
    split at h
    · rename_i hb
      have h2 : ((((binDims wf).start j idx 0 + ((binDims wf).window j 0 : Int)).toNat : Nat) : Int) = (c.val : Int) :=
        congrArg (fun i : (⟨1, ![1000]⟩ : Shape).Idx => ((i 0).val : Int)) (Option.some.inj h)
      have h3 := (hb 0).1
      rw [key 0] at h3
      rw [key 0] at h2
      omega
    · exact absurd h (by simp)
  · intro h
    have hb : ∀ a : Fin 1, 0 ≤ (binDims wf).start j idx a + ((binDims wf).window j a : Int)
        ∧ (binDims wf).start j idx a + ((binDims wf).window j a : Int) < ((⟨1, ![1000]⟩ : Shape).size a : Int) := fun a => by
      rw [key a, h]
      have a0 : a = 0 := Subsingleton.elim _ _
      subst a0
      exact ⟨by omega, hc⟩
    rw [dif_pos hb]
    congr 1
    funext a
    match a with
    | ⟨0, _⟩ =>
      apply Fin.ext
      show ((binDims wf).start j idx 0 + ((binDims wf).window j 0 : Int)).toNat = c.val
      rw [key 0, h]
      simp

/-- The histogram's scatter read at bin c: the operand's element plus the sum of the updates whose index word, read
    signed, is c. -/
theorem scatter_hist (wf : ScatterDims.WF ⟨1, ![1000]⟩ ⟨2, ![8192, 1]⟩ ⟨1, ![8192]⟩ [] [0] [0] 1)
    (x : (⟨1, ![1000]⟩ : Shape).Idx → BitVec 32) (idx : IVec ⟨2, ![8192, 1]⟩ 32)
    (upd : (⟨1, ![8192]⟩ : Shape).Idx → BitVec 32) (c : Fin 1000) :
    Host.scatter (binDims wf) IntOp.addi x idx upd (ix1 c)
      = x (ix1 c) + ∑ n : Fin 8192, (if (idx (ix2 n 0)).toInt = (c.val : Int) then upd (ix1 n) else 0) := by
  rw [scatter_addi_read]
  refine congrArg (x (ix1 c) + ·) ?_
  rw [← Equiv.sum_comp (idxEquiv1 (n := 8192)).symm]
  refine Finset.sum_congr rfl fun n _ => ?_
  exact if_congr (binDims_resultIdx_eq_some_iff wf (ix1 n) idx c) rfl rfl

/-! ## Reductions of words by addition, as finite sums -/

/-- A reduction by addition of words over every axis, into the rank-0 shape: the initial word plus the sum of all
    elements. -/
theorem reduce_addi_total {s u : Shape} {axes : List (Fin s.rank)} (x : s.Idx → BitVec 32) (init : u.Idx → BitVec 32)
    (h : s.ReducesTo axes ⟨0, ![]⟩) (hu : 0 < u.numel) (j : (⟨0, ![]⟩ : Shape).Idx) :
    Host.reduce IntOp.addi x init h hu j = init (Shape.Idx.first hu) + ∑ i : s.Idx, x i := by
  rw [Host.reduce_eq_fold, Finset.filter_true_of_mem (fun i _ => funext fun b => b.elim0)]
  generalize (Finset.univ : Finset s.Idx) = S
  induction S using Finset.cons_induction with
  | empty => simp
  | cons a S ha ih =>
    rw [Finset.fold_cons, Finset.sum_cons, ih]
    exact add_left_comm _ _ _

/-- A sum over the indices of a rank-1 shape is the sum over its coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-! ## The identity: squares of the histogram plus mismatched pairs are all pairs -/

/-- The indicator word of "the label word, read signed, is c". -/
def isBin {K : Nat} (w : BitVec 32) (c : Fin K) : BitVec 32 := if w.toInt = (c.val : Int) then 1 else 0

/-- Over the bins, the product of two labels' indicators sums to the indicator of the labels being equal, when the
    first label is the number of a bin: exactly one bin is the first label's. -/
theorem sum_isBin_mul {K : Nat} (a b : BitVec 32) (h0 : 0 ≤ a.toInt) (hK : a.toInt < (K : Int)) :
    ∑ c : Fin K, isBin a c * isBin b c = if a = b then 1 else 0 := by
  let c0 : Fin K := ⟨a.toInt.toNat, by omega⟩
  have hc0 : ((c0.val : Nat) : Int) = a.toInt := Int.toNat_of_nonneg h0
  have hA : ∀ c : Fin K, isBin a c * isBin b c = if c = c0 then isBin b c0 else 0 := by
    intro c
    by_cases e : c = c0
    · subst e
      rw [if_pos rfl]
      unfold isBin
      rw [if_pos hc0.symm, one_mul]
    · rw [if_neg e]
      unfold isBin
      rw [if_neg, zero_mul]
      intro h
      apply e
      apply Fin.ext
      have : (c.val : Int) = (c0.val : Int) := by rw [hc0, h]
      exact_mod_cast this
  rw [Finset.sum_congr rfl (fun c _ => hA c), Finset.sum_ite_eq' Finset.univ c0 (fun _ => isBin b c0),
    if_pos (Finset.mem_univ _)]
  unfold isBin
  rw [hc0]
  exact if_congr ⟨fun h => (BitVec.eq_of_toInt_eq h).symm, fun h => by rw [h]⟩ rfl rfl

/-- In the ring of 32-bit words: the sum over the bins of the squared bin counts, plus the number of ordered pairs
    with different labels, is the number of all ordered pairs — when every label is the number of a bin. -/
theorem hist_identity {N K : Nat} (L : Fin N → BitVec 32) (hL : ∀ r, 0 ≤ (L r).toInt ∧ (L r).toInt < (K : Int)) :
    (∑ c : Fin K, (∑ n : Fin N, isBin (L n) c) * (∑ n : Fin N, isBin (L n) c))
      + ∑ r : Fin N, ∑ s : Fin N, (if L r ≠ L s then (1 : BitVec 32) else 0) = (N : BitVec 32) * (N : BitVec 32) := by
  have h1 : ∀ c : Fin K, (∑ n : Fin N, isBin (L n) c) * (∑ n : Fin N, isBin (L n) c)
      = ∑ r : Fin N, ∑ s : Fin N, isBin (L r) c * isBin (L s) c := fun c => Finset.sum_mul_sum _ _ _ _
  calc _ = ∑ r : Fin N, ∑ s : Fin N, ((∑ c : Fin K, isBin (L r) c * isBin (L s) c)
              + (if L r ≠ L s then (1 : BitVec 32) else 0)) := by
        rw [Finset.sum_congr rfl (fun c _ => h1 c), Finset.sum_comm, ← Finset.sum_add_distrib]
        refine Finset.sum_congr rfl fun r _ => ?_
        rw [Finset.sum_comm, ← Finset.sum_add_distrib]
    _ = ∑ r : Fin N, ∑ s : Fin N, (1 : BitVec 32) := by
        refine Finset.sum_congr rfl fun r _ => Finset.sum_congr rfl fun s _ => ?_
        rw [sum_isBin_mul _ _ (hL r).1 (hL r).2]
        by_cases e : L r = L s
        · rw [if_pos e, if_neg (not_not.2 e), add_zero]
        · rw [if_neg e, if_pos e, zero_add]
    _ = (N : BitVec 32) * (N : BitVec 32) := by
        simp only [Finset.sum_const, Finset.card_univ, Fintype.card_fin, nsmul_eq_mul, mul_one]

/-! ## The two programs' words -/

/-- All ordered pairs of 8192 samples, as a word. -/
theorem all_pairs_word : ((8192 : Nat) : BitVec 32) * ((8192 : Nat) : BitVec 32) = 67108864#32 := by decide

/-- For labels in [0, 1000): all pairs minus the squared bin counts is the count of mismatched pairs. -/
theorem sub_squares_eq_pairSum (l : (⟨1, ![8192]⟩ : Shape).Idx → BitVec 32) (hl : Cert.Spec.InRange l) :
    67108864#32 - ∑ c : Fin 1000, (∑ n : Fin 8192, isBin (l (ix1 n)) c) * (∑ n : Fin 8192, isBin (l (ix1 n)) c)
      = pairSum l := by
  have hL : ∀ r : Fin 8192, 0 ≤ (l (ix1 r)).toInt ∧ (l (ix1 r)).toInt < ((1000 : Nat) : Int) := fun r => by
    have := hl r
    unfold Cert.Spec.labAt at this
    exact ⟨this.1, by omega⟩
  have h := hist_identity (K := 1000) (fun r : Fin 8192 => l (ix1 r)) hL
  rw [all_pairs_word] at h
  exact sub_eq_of_eq_add' h.symm

/-- A one-bit "differs" comparison of two words, widened to 32 bits, is the indicator word of their being different. -/
theorem cmpi_ne_setWidth (a b : BitVec 32) : (IntOp.cmpi .ne a b).setWidth 32 = if a ≠ b then 1#32 else 0#32 := by
  show BitVec.setWidth 32 (BitVec.ofBool (a != b)) = _
  by_cases e : a = b
  · have hb : (a != b) = false := by simp [e]
    rw [hb, if_neg (not_not.2 e)]
    decide
  · have hb : (a != b) = true := by simp [e]
    rw [hb, if_pos e]
    decide

end Cert.Count

end
-- ==== Proof.CountK.lean ====
/-
  The kernel program's pair count. Before its two kernel calls the program computes, in 32-bit words, the histogram
  of the labels over 1000 bins by a scatter-add of ones, then 8192 * 8192 minus the sum of the squared bin counts,
  the signed maximum of that with 1, and its conversion to a real. For labels in [0, 1000) this is the count of
  ordered pairs of samples with different labels.
-/
import proofs.«417645_j74594991997728_1_alg».proof.Proof.Count
import proofs.«417645_j74594991997728_1_alg».proof.Proof.Gen.KernelIdeal.Regions
import Idealize.ShloMosaic.Lib.Pipeline.Value

noncomputable section

open scoped BigOperators

namespace Cert.Count

open Idealize.ShloMosaic Idealize.ShloMosaic.TcCoe Idealize.ShloMosaic.ValueIdx
open Idealize.SL.Sem
open Cert.KernelIdeal Cert.KernelIdeal.Facts₀

/-! ## The program's words, as functions of the label array -/

/-- The labels clamped below at 0: the signed maximum of 0 and each label. -/
def clipped (l : S8192.Idx → BitVec 32) : S8192.Idx → BitVec 32 :=
  maxsi (broadcastInDim S8192 ![] bcast_S_S8192 (constantI S_ 32 0#32)) l

/-- The scatter indices: a clamped label below 0 is taken from the end (1000 added), any other as it is. -/
def binIdx (l : S8192.Idx → BitVec 32) : S8192.Idx → BitVec 32 :=
  select (cmpi .slt (clipped l) (broadcastInDim S8192 ![] bcast_S_S8192 (constantI S_ 32 0#32)))
    (addi (clipped l) (broadcastInDim S8192 ![] bcast_S_S8192 (constantI S_ 32 1000#32))) (clipped l)

/-- The histogram: ones scattered by addition into 1000 zeros at the scatter indices. -/
def hist (l : S8192.Idx → BitVec 32) : S1000.Idx → BitVec 32 :=
  Host.scatter scatter_S1000_S8192x1_S8192_n_0_0_1 IntOp.addi
    (broadcastInDim S1000 ![] bcast_S_S1000 (constantI S_ 32 0#32))
    (broadcastInDim S8192x1 ![0] bcast_S8192_S8192x1_0 (binIdx l))
    (broadcastInDim S8192 ![] bcast_S_S8192 (constantI S_ 32 1#32))

/-- The program's count word: the signed maximum with 1 of 8192 * 8192 minus the sum of the squared bin counts. -/
def kernelWord (l : S8192.Idx → BitVec 32) : S_.Idx → BitVec 32 :=
  maxsi (subi (constantI S_ 32 67108864#32)
      (Host.reduce IntOp.addi (muli (hist l) (hist l)) (constantI S_ 32 0#32) reducesTo_S1000_S_d0 h_S_))
    (constantI S_ 32 1#32)

/-- What the third stretch of host operations leaves in the count's buffer: the conversion of the count word. -/
theorem kernel_term (m : (ℓ : Loc nD τ sig) → Buf (Elt Ideal) ℓ) (c : Dev nD) :
    (Cert.KernelIdeal.Gen.V3 (F := Ideal) m c (Proc.devRef .tc main_v16) : S_.Idx → EReal)
      = sitofp (F := Ideal) .f32 (kernelWord (m ((c : Thread nD τ).loc main_arg1))) := by
  dsimp only [Gen.V3, Gen.V2, Gen.V1, Gen.V0, Gen.hostOps0, Gen.hostOps0_1, Gen.hostOps0_2]
  after_results
  rfl

/-! ## The count word for labels in [0, 1000) -/

/-- A label that is not negative is its own clamp at 0. -/
theorem clipped_apply (l : S8192.Idx → BitVec 32) (hl : Cert.Spec.InRange l) (n : Fin 8192) :
    clipped l (ix1 n) = l (ix1 n) := by
  have h := (hl n).1
  unfold Cert.Spec.labAt at h
  have h0 : ¬ ((l (ix1 n)).slt 0#32 = true) := by
    simp only [BitVec.slt, decide_eq_true_eq]
    have : (0#32 : BitVec 32).toInt = 0 := by decide
    omega
  exact if_neg h0

/-- … and its own scatter index. -/
theorem binIdx_apply (l : S8192.Idx → BitVec 32) (hl : Cert.Spec.InRange l) (n : Fin 8192) :
    binIdx l (ix1 n) = l (ix1 n) := by
  have h := (hl n).1
  unfold Cert.Spec.labAt at h
  show Scalar.select (IntOp.cmpi .slt (clipped l (ix1 n)) 0#32) (IntOp.addi (clipped l (ix1 n)) 1000#32)
    (clipped l (ix1 n)) = _
  rw [clipped_apply l hl n]
  have h0 : (l (ix1 n)).slt 0#32 = false := by
    simp only [BitVec.slt, decide_eq_false_iff_not]
    have : (0#32 : BitVec 32).toInt = 0 := by decide
    omega
  have hc : IntOp.cmpi .slt (l (ix1 n)) 0#32 = 0#1 := by
    show BitVec.ofBool ((l (ix1 n)).slt 0#32) = 0#1
    rw [h0]
    rfl
  rw [hc]
  exact select_zero _ _

/-- A [8192] array broadcast to one column, read in row n. -/
theorem bcast_col (x : S8192.Idx → BitVec 32) (n : Fin 8192) :
    broadcastInDim S8192x1 ![0] bcast_S8192_S8192x1_0 x (ix2 n 0) = x (ix1 n) :=
  broadcastInDim_apply _ bcast_S8192_S8192x1_0 x (ix2 n 0) (ix1 n) (fun a => match a with
    | ⟨0, _⟩ => by show n.val = if (8192 : Nat) = 1 then 0 else n.val; rw [if_neg (by decide)])

/-- Bin c of the histogram counts the labels that are c. -/
theorem hist_apply (l : S8192.Idx → BitVec 32) (hl : Cert.Spec.InRange l) (c : Fin 1000) :
    hist l (ix1 c) = ∑ n : Fin 8192, isBin (l (ix1 n)) c := by
  unfold hist
  refine (scatter_hist scatter_S1000_S8192x1_S8192_n_0_0_1_wf _ _ _ c).trans ?_
  have hz : (broadcastInDim S1000 ![] bcast_S_S1000 (constantI S_ 32 0#32)) (ix1 c) = 0 := rfl
  rw [hz, zero_add]
  refine Finset.sum_congr rfl fun n _ => ?_
  have hb : broadcastInDim S8192x1 ![0] bcast_S8192_S8192x1_0 (binIdx l) (ix2 n 0) = l (ix1 n) :=
    (bcast_col (binIdx l) n).trans (binIdx_apply l hl n)
  rw [hb]
  rfl

/-- The count word is the pair count. -/
theorem kernelWord_eq (l : S8192.Idx → BitVec 32) (hl : Cert.Spec.InRange l) (j : S_.Idx) :
    kernelWord l j = pairWord l := by
  show IntOp.maxsi (IntOp.subi 67108864#32
    (Host.reduce IntOp.addi (muli (hist l) (hist l)) (constantI S_ 32 0#32) reducesTo_S1000_S_d0 h_S_ j)) 1#32 = _
  rw [reduce_addi_total, sum_idx1]
  have hz : constantI S_ 32 0#32 (Shape.Idx.first h_S_) = 0 := rfl
  rw [hz, zero_add]
  have hs : ∀ c : Fin 1000, muli (hist l) (hist l) (ix1 c)
      = (∑ n : Fin 8192, isBin (l (ix1 n)) c) * (∑ n : Fin 8192, isBin (l (ix1 n)) c) := fun c => by
    show hist l (ix1 c) * hist l (ix1 c) = _
    rw [hist_apply l hl c]
  rw [Finset.sum_congr rfl (fun c _ => hs c)]
  show IntOp.maxsi (67108864#32 - _) 1#32 = _
  rw [sub_squares_eq_pairSum l hl]
  rfl

/-- For labels in [0, 1000) the third stretch of host operations leaves the pair count, as a real, in the count's
    buffer. -/
theorem kernel_np (m : (ℓ : Loc nD τ sig) → Buf (Elt Ideal) ℓ) (c : Dev nD)
    (h : Cert.Spec.InRange (m ((c : Thread nD τ).loc main_arg1))) :
    (Cert.KernelIdeal.Gen.V3 (F := Ideal) m c (Proc.devRef .tc main_v16) : S_.Idx → EReal)
      = fun _ => (((pairWord (m ((c : Thread nD τ).loc main_arg1))).toInt : ℝ) : EReal) := by
  refine (kernel_term m c).trans ?_
  funext j
  show (((kernelWord (m ((c : Thread nD τ).loc main_arg1)) j).toInt : ℝ) : EReal) = _
  rw [kernelWord_eq _ h j]

end Cert.Count

end
-- ==== Proof.CountR.lean ====
/-
  The reference's pair count: the labels broadcast along rows and along columns, compared entry by entry, the
  one-bit results widened to words and summed over both axes from zero, the signed maximum with one taken, and the word
  converted to a real, is the real reading of the count of ordered pairs of samples with different labels.
-/
import proofs.«417645_j74594991997728_1_alg».proof.Proof.Count
import proofs.«417645_j74594991997728_1_alg».proof.Proof.Gen.ReferenceIdeal.Read

noncomputable section

open scoped BigOperators

namespace Cert.Count

open Cert.ReferenceIdeal Cert.ReferenceIdeal.Gen Cert.ReferenceIdeal.Read Idealize.ShloMosaic Idealize.ShloMosaic.ValueIdx

/-- The widened comparison at a pair of samples is the indicator word of their labels being different. -/
theorem ne_word_at (l : (⟨S8192, .i32⟩ : BufTy).Contents (Elt Ideal)) (r s : Fin 8192) :
    val_main_v40 (F := Ideal) l (ix2 r s) = if l (ix1 r) ≠ l (ix1 s) then 1#32 else 0#32 := by
  have e33 : idx_main_v31 (idx_main_v33 (ix2 r s)) = ix1 r := funext fun a => Fin.ext (by match a with | ⟨0, _⟩ => rfl)
  have e34 : idx_main_v32 (idx_main_v34 (ix2 r s)) = ix1 s := funext fun a => Fin.ext (by match a with | ⟨0, _⟩ => rfl)
  rw [val_main_v40_apply, val_main_v35_apply, val_main_v33_apply, val_main_v31_apply, val_main_v34_apply,
    val_main_v32_apply, e33, e34, cmpi_ne_setWidth]

/-- The sum over both axes, from zero, is the count of ordered pairs with different labels. -/
theorem ref_pairSum (l : (⟨S8192, .i32⟩ : BufTy).Contents (Elt Ideal)) (i : S_.Idx) :
    val_main_v41 (F := Ideal) l i = pairSum l := by
  unfold val_main_v41
  rw [reduce_addi_total, val_main_c_9_apply, sum_idx2, BitVec.zero_add]
  unfold pairSum
  exact Finset.sum_congr rfl fun r _ => Finset.sum_congr rfl fun s _ => ne_word_at l r s

/-- THE REFERENCE'S PAIR COUNT, as the real it divides by. -/
theorem ref_np (l : (⟨Cert.ReferenceIdeal.S8192, .i32⟩ : BufTy).Contents (Elt Ideal)) :
    Cert.ReferenceIdeal.Read.val_main_v43 (F := Ideal) l = fun _ => (((pairWord l).toInt : ℝ) : EReal) := by
  funext i
  rw [val_main_v43_apply, val_main_v42_apply, val_main_c_10_apply, ref_pairSum]
  rfl

end Cert.Count

end
-- ==== Proof.RefValue.lean ====
/-
  The reference program's value, read one stage at a time down to the three argument arrays: under the label range
  the wrapped label is the label and the gathered row is the centre row the label picks; a norm is the clamped root
  of a sum of squares; the per-sample term, the normalised inner product and the hinge follow entry by entry; the
  result is the mean of the per-sample terms plus half the pair sum over the pair count.
-/
import proofs.«417645_j74594991997728_1_alg».proof.Proof.Gen.ReferenceIdeal.Read
import proofs.«417645_j74594991997728_1_alg».proof.Proof.Spec
import Idealize.ShloMosaic.Lib.ValueIdx
import Idealize.ShloMosaic.Lib.ValueIdxRank1
import Idealize.ShloMosaic.Lib.Pipeline.Value
import Idealize.ShloMosaic.PureOps.Ideal.Laws

noncomputable section

open scoped BigOperators

namespace Cert.RefValue

open Cert.ReferenceIdeal Cert.ReferenceIdeal.Gen Cert.ReferenceIdeal.Read Idealize.ShloMosaic Idealize.ShloMosaic.ValueIdx

/-- A label in the range is unchanged by the wrap of negative labels. -/
theorem wrap_eq (l : (⟨S8192, .i32⟩ : BufTy).Contents (Elt Ideal)) (h : Cert.Spec.InRange l) (r : Fin 8192) :
    val_main_v4 (F := Ideal) l (ix1 r) = l (ix1 r) := by
  have h0 : 0 ≤ (l (ix1 r)).toInt := (h r).1
  have hs : (l (ix1 r)).slt 0#32 = false := by
    rw [BitVec.slt_eq_decide, decide_eq_false_iff_not]
    simpa using h0
  rw [val_main_v4_apply, val_main_v1_apply, val_main_v0_apply, val_main_c_apply]
  unfold Scalar.select IntOp.cmpi
  simp only [hs]
  rfl

/-- The not-equal comparison of two words as a one-bit word. -/
theorem cmpi_ne_eq (a b : BitVec 32) : IntOp.cmpi .ne a b = if a ≠ b then 1#1 else 0#1 := by
  unfold IntOp.cmpi
  by_cases hab : a = b
  · subst hab; simp
  · have hne : (a != b) = true := bne_iff_ne.mpr hab
    rw [if_pos hab, hne]; rfl

/-- A word whose signed reading lies in [0, 1000) reads the same unsigned, below 1000. -/
theorem toNat_of_range (w : BitVec 32) (h0 : 0 ≤ w.toInt) (h1 : w.toInt < 1000) :
    w.toInt.toNat = w.toNat ∧ w.toNat < 1000 := by
  have hw : w.toInt = (w.toNat : ℤ) := by
    have hlt := w.isLt
    rw [BitVec.toInt_eq_toNat_cond] at h0 ⊢
    split_ifs at h0 ⊢ with hc
    · rfl
    · exfalso; omega
  constructor
  · rw [hw]; exact Int.toNat_natCast _
  · rw [hw] at h1; omega

/-- On the table's row axis the gathered element's coordinate is the start index, read signed and clamped to the
    table's rows. -/
theorem gather_axis0 (r : Fin 8192) (d : Fin 1024) (idx : IVec S8192x1 32) :
    (gather_S1000x1024_S8192x1_S8192x1024_1_0_n_n_0_1_11024.operandIdx (ix2 r d) idx 0).val
      = min (idx (ix2 r (0 : Fin 1))).toInt.toNat 999 := by
  show gather_S1000x1024_S8192x1_S8192x1024_1_0_n_n_0_1_11024.start (ix2 r d) idx 0
      + gather_S1000x1024_S8192x1_S8192x1024_1_0_n_n_0_1_11024.batchCoord (ix2 r d) 0
      + gather_S1000x1024_S8192x1_S8192x1024_1_0_n_n_0_1_11024.offCoord (ix2 r d) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin S1000x1024.rank) ∈ gather_S1000x1024_S8192x1_S8192x1024_1_0_n_n_0_1_11024.startIndexMap
    from List.mem_singleton.mpr rfl)]
  have hsi : gather_S1000x1024_S8192x1_S8192x1024_1_0_n_n_0_1_11024.siIdx (ix2 r d)
      ⟨List.idxOf (0 : Fin S1000x1024.rank) gather_S1000x1024_S8192x1_S8192x1024_1_0_n_n_0_1_11024.startIndexMap,
        List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- On the table's column axis the gathered element's coordinate is the result's column. -/
theorem gather_axis1 (r : Fin 8192) (d : Fin 1024) (idx : IVec S8192x1 32) :
    (gather_S1000x1024_S8192x1_S8192x1024_1_0_n_n_0_1_11024.operandIdx (ix2 r d) idx 1).val = d.val := by
  show gather_S1000x1024_S8192x1_S8192x1024_1_0_n_n_0_1_11024.start (ix2 r d) idx 1
      + gather_S1000x1024_S8192x1_S8192x1024_1_0_n_n_0_1_11024.batchCoord (ix2 r d) 1
      + gather_S1000x1024_S8192x1_S8192x1024_1_0_n_n_0_1_11024.offCoord (ix2 r d) 1 = _
  rw [GatherDims.batchCoord_eq_zero _ _ _ List.not_mem_nil]
  unfold GatherDims.start
  rw [dif_neg (show ¬(1 : Fin S1000x1024.rank) ∈ gather_S1000x1024_S8192x1_S8192x1024_1_0_n_n_0_1_11024.startIndexMap by decide)]
  unfold GatherDims.offCoord
  rw [dif_pos (show (1 : Fin S1000x1024.rank) ∈ gather_S1000x1024_S8192x1_S8192x1024_1_0_n_n_0_1_11024.sKept by decide)]
  simp only [Nat.zero_add]
  rfl

/-- Under the label range the gathered row is the centre row the label picks. -/
theorem gather_eq (l : (⟨S8192, .i32⟩ : BufTy).Contents (Elt Ideal)) (c : (⟨S1000x1024, .f32⟩ : BufTy).Contents (Elt Ideal))
    (h : Cert.Spec.InRange l) (r : Fin 8192) (d : Fin 1024) :
    val_main_v6 (F := Ideal) l c (ix2 r d) = Cert.Spec.rowAt (Cert.Spec.cenRow c) (Cert.Spec.labAt l r) d := by
  obtain ⟨hn, hlt⟩ := toNat_of_range (l (ix1 r)) (h r).1 (h r).2
  have h5 : val_main_v5 (F := Ideal) l (ix2 r (0 : Fin 1)) = l (ix1 r) := by
    rw [val_main_v5_apply]
    have e : idx_main_v5 (ix2 r (0 : Fin 1)) = ix1 r := funext fun a => Fin.ext (by match a with | ⟨0, _⟩ => rfl)
    rw [e, wrap_eq l h r]
  unfold val_main_v6 Host.gather
  show c _ = c _
  refine congrArg c (funext fun a => Fin.ext ?_)
  match a with
  | ⟨0, _⟩ =>
    refine (gather_axis0 r d _).trans ?_
    rw [h5, hn]
    show min (l (ix1 r)).toNat 999 = (l (ix1 r)).toNat % 1000
    rw [Nat.mod_eq_of_lt hlt]; omega
  | ⟨1, _⟩ => exact gather_axis1 r d _

/-- The clamped norm of a feature row. -/
theorem nrm_feat (f : (⟨S8192x1024, .f32⟩ : BufTy).Contents (Elt Ideal)) (r : Fin 8192) :
    val_main_v9 (F := Ideal) f (ix1 r) = Cert.Spec.nrm (Cert.Spec.featRow f r) := by
  have e : ∀ k : Fin 1024, idx_main_call0_v1 (ix1 r) k = ix2 r k := fun k =>
    funext fun a => Fin.ext (by match a with | ⟨0, _⟩ => rfl | ⟨1, _⟩ => rfl)
  rw [val_main_v9_apply, val_main_v7_apply, val_main_call0_v1_apply, val_main_v8_apply, val_main_cst_apply,
    val_main_call0_cst_apply]
  simp only [e, val_main_call0_v0_apply, Ideal.mulf_def, Ideal.maximumf_def, Ideal.hostUnary_sqrt_def, Ideal.ofBits_def,
    Ideal.ofBits_zero_f32, zero_add]
  rfl

/-- The clamped norm of the centre row a sample's label picks. -/
theorem nrm_cen (l : (⟨S8192, .i32⟩ : BufTy).Contents (Elt Ideal)) (c : (⟨S1000x1024, .f32⟩ : BufTy).Contents (Elt Ideal))
    (h : Cert.Spec.InRange l) (r : Fin 8192) :
    val_main_v12 (F := Ideal) l c (ix1 r) = Cert.Spec.nrm (Cert.Spec.rowAt (Cert.Spec.cenRow c) (Cert.Spec.labAt l r)) := by
  have e : ∀ k : Fin 1024, idx_main_call1_v1 (ix1 r) k = ix2 r k := fun k =>
    funext fun a => Fin.ext (by match a with | ⟨0, _⟩ => rfl | ⟨1, _⟩ => rfl)
  rw [val_main_v12_apply, val_main_v10_apply, val_main_call1_v1_apply, val_main_v11_apply, val_main_cst_1_apply,
    val_main_call1_cst_apply]
  simp only [e, val_main_call1_v0_apply, gather_eq l c h, Ideal.mulf_def, Ideal.maximumf_def, Ideal.hostUnary_sqrt_def,
    Ideal.ofBits_def, Ideal.ofBits_zero_f32, zero_add]
  rfl

/-- The per-sample term: squared distance to the picked centre row over exp of the clamped cosine. -/
theorem intra_eq (f : (⟨S8192x1024, .f32⟩ : BufTy).Contents (Elt Ideal)) (l : (⟨S8192, .i32⟩ : BufTy).Contents (Elt Ideal))
    (c : (⟨S1000x1024, .f32⟩ : BufTy).Contents (Elt Ideal)) (h : Cert.Spec.InRange l) (r : Fin 8192) :
    val_main_v23 (F := Ideal) f l c (ix1 r)
      = Cert.Spec.intraRow (Cert.Spec.featRow f r) (Cert.Spec.rowAt (Cert.Spec.cenRow c) (Cert.Spec.labAt l r)) := by
  have e14 : ∀ k : Fin 1024, idx_main_v14 (ix1 r) k = ix2 r k := fun k =>
    funext fun a => Fin.ext (by match a with | ⟨0, _⟩ => rfl | ⟨1, _⟩ => rfl)
  have e19 : ∀ k : Fin 1024, idx_main_v19 (ix1 r) k = ix2 r k := fun k =>
    funext fun a => Fin.ext (by match a with | ⟨0, _⟩ => rfl | ⟨1, _⟩ => rfl)
  rw [val_main_v23_apply, val_main_v19_apply, val_main_v22_apply, val_main_v21_apply, val_main_v20_apply,
    val_main_cst_4_apply, val_main_v16_apply, val_main_v14_apply, val_main_v15_apply, nrm_feat, nrm_cen l c h,
    val_main_cst_3_apply, val_main_cst_2_apply]
  simp only [e14, e19, val_main_v18_apply, val_main_v17_apply, val_main_v13_apply, gather_eq l c h, Ideal.mulf_def,
    Ideal.subf_def, Ideal.hostDivf_def, Ideal.hostUnary_exp_def, Ideal.ofBits_def, Ideal.ofBits_zero_f32, zero_add]
  rfl

/-- The mean of the per-sample terms. -/
theorem mean_eq (f : (⟨S8192x1024, .f32⟩ : BufTy).Contents (Elt Ideal)) (l : (⟨S8192, .i32⟩ : BufTy).Contents (Elt Ideal))
    (c : (⟨S1000x1024, .f32⟩ : BufTy).Contents (Elt Ideal)) (h : Cert.Spec.InRange l) (i : S_.Idx) :
    val_main_v25 (F := Ideal) f l c i
      = Ideal.div (∑ r : Fin 8192, Cert.Spec.intraRow (Cert.Spec.featRow f r)
          (Cert.Spec.rowAt (Cert.Spec.cenRow c) (Cert.Spec.labAt l r))) Cert.Spec.c8192 := by
  rw [val_main_v25_apply, val_main_v24_apply, val_main_cst_5_apply, val_main_cst_6_apply,
    ← Equiv.sum_comp (idxEquiv1 (n := 8192)).symm]
  simp only [Ideal.hostDivf_def, Ideal.ofBits_def, Ideal.ofBits_zero_f32, zero_add]
  exact congrArg (Ideal.div · _) (Finset.sum_congr rfl fun r _ => intra_eq f l c h r)

/-- A feature entry over its row's clamped norm. -/
theorem fhat_eq (f : (⟨S8192x1024, .f32⟩ : BufTy).Contents (Elt Ideal)) (r : Fin 8192) (k : Fin 1024) :
    val_main_v28 (F := Ideal) f (ix2 r k) = Ideal.div (f (ix2 r k)) (Cert.Spec.nrm (Cert.Spec.featRow f r)) := by
  have e : idx_main_v26 (idx_main_v27 (ix2 r k)) = ix1 r := funext fun a => Fin.ext (by match a with | ⟨0, _⟩ => rfl)
  rw [val_main_v28_apply, val_main_v27_apply, val_main_v26_apply, e, nrm_feat]
  rfl

/-- The normalised inner product of two feature rows. -/
theorem sim_eq (f : (⟨S8192x1024, .f32⟩ : BufTy).Contents (Elt Ideal)) (r s : Fin 8192) :
    val_main_v30 (F := Ideal) f (ix2 r s) = Cert.Spec.cosRow (Cert.Spec.featRow f r) (Cert.Spec.featRow f s) := by
  have el : ∀ k : Fin 1024, lidx_main_v30 (ix2 r s) k = ix2 r k := fun k =>
    funext fun a => Fin.ext (by match a with | ⟨0, _⟩ => rfl | ⟨1, _⟩ => rfl)
  have er : ∀ k : Fin 1024, idx_main_v29 (ridx_main_v30 (ix2 r s) k) = ix2 s k := fun k =>
    funext fun a => Fin.ext (by match a with | ⟨0, _⟩ => rfl | ⟨1, _⟩ => rfl)
  rw [val_main_v30_apply]
  simp only [val_main_v29_apply, el, er, fhat_eq]
  rfl

/-- The hinge of a pair: max(1/2 - cos, 0) where the labels differ, 0 where they agree. -/
theorem hinge_eq (f : (⟨S8192x1024, .f32⟩ : BufTy).Contents (Elt Ideal)) (l : (⟨S8192, .i32⟩ : BufTy).Contents (Elt Ideal))
    (r s : Fin 8192) :
    val_main_v39 (F := Ideal) f l (ix2 r s)
      = Cert.Spec.hinge (Cert.Spec.featRow f r) (Cert.Spec.featRow f s) (Cert.Spec.labAt l r ≠ Cert.Spec.labAt l s) := by
  have e33 : idx_main_v31 (idx_main_v33 (ix2 r s)) = ix1 r := funext fun a => Fin.ext (by match a with | ⟨0, _⟩ => rfl)
  have e34 : idx_main_v32 (idx_main_v34 (ix2 r s)) = ix1 s := funext fun a => Fin.ext (by match a with | ⟨0, _⟩ => rfl)
  rw [val_main_v39_apply, val_main_v35_apply, val_main_v33_apply, val_main_v31_apply, val_main_v34_apply,
    val_main_v32_apply, e33, e34, val_main_v38_apply, val_main_v37_apply, val_main_v36_apply, val_main_cst_7_apply,
    sim_eq, val_main_call2_v0_apply, val_main_call2_cst_apply, val_main_call3_v1_apply, val_main_call3_v0_apply,
    val_main_cst_8_apply, cmpi_ne_eq]
  simp only [Ideal.subf_def, Ideal.maximumf_def, Ideal.ofBits_def, Ideal.ofBits_zero_f32]
  unfold Cert.Spec.hinge Cert.Spec.labAt Scalar.select
  by_cases hne : l (ix1 r) = l (ix1 s)
  · rw [if_neg (not_not.mpr hne), if_neg (show ¬(0#1 : BitVec 1) = 1 by decide), if_neg (not_not.mpr hne)]
  · rw [if_pos hne, if_pos (show (1#1 : BitVec 1) = 1 from rfl), if_pos hne]; rfl

/-- THE REFERENCE'S VALUE: the mean of the per-sample terms plus half the pair sum over the pair count. -/
theorem ref_value (f : (⟨S8192x1024, .f32⟩ : BufTy).Contents (Elt Ideal)) (l : (⟨S8192, .i32⟩ : BufTy).Contents (Elt Ideal))
    (c : (⟨S1000x1024, .f32⟩ : BufTy).Contents (Elt Ideal)) (np : BitVec 32)
    (hnp : val_main_v43 (F := Ideal) l = fun _ => (((np.toInt : ℝ)) : EReal))
    (h : Cert.Spec.InRange l) :
    val_main_v47 (F := Ideal) f l c = fun _ => Cert.Spec.loss f l c np := by
  funext i
  rw [val_main_v47_apply, mean_eq f l c h, val_main_v46_apply, val_main_cst_12_apply, val_main_v45_apply,
    val_main_v44_apply, val_main_cst_11_apply, hnp, sum_idx2]
  simp only [hinge_eq, Ideal.addf_def, Ideal.mulf_def, Ideal.hostDivf_def, Ideal.ofBits_def, Ideal.ofBits_zero_f32, zero_add]
  rfl

/-- The run's result term is the last stage at the three argument arrays. -/
theorem ref_run_value (m : (ℓ : Loc nD τ sig) → Buf (Elt Ideal) ℓ) (cdev : Dev nD) :
    Cert.ReferenceIdeal.Value.res_main_v47 (F := Ideal) m cdev
      = val_main_v47 (F := Ideal) (m ((cdev.tc : Thread nD τ).loc main_arg0)) (m ((cdev.tc : Thread nD τ).loc main_arg1))
          (m ((cdev.tc : Thread nD τ).loc main_arg2)) :=
  val_main_v47_eq m cdev

end Cert.RefValue

end
-- ==== Proof.K.R0Data.lean ====
/-
  Region 0 (the per-sample term, grid of 16 points) at the buffer contents V the region is entered with: each
  window's block at a point as a read of its array, the one value the body stores into the output block as a function
  of the three input blocks, and the proof data built from them (arrays at V; after the body each input buffer at its
  block and the output buffer at that value; the untouched-rest invariant; nothing owed; full shares).
-/
import proofs.«417645_j74594991997728_1_alg».proof.Proof.Gen.Kernel.Launch
import proofs.«417645_j74594991997728_1_alg».proof.Proof.Gen.Kernel.Skeleton
import proofs.«417645_j74594991997728_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not, for any proof data whose
    array is `V`'s and whose body leaves the block in place: where it is not fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole of its block -/

/-- The output block [512, 1], whole (the one store, and the unread load before it). -/
abbrev r0 : Rect S512x1 := Rect.unit (s := S512x1) ![0, 0] S512x1.size inb_S512x1_S512x1_0_0
/-- The features block [512, 1024], whole. -/
abbrev rA : Rect S512x1024 := Rect.unit (s := S512x1024) ![0, 0] S512x1024.size inb_S512x1024_S512x1024_0_0
/-- The labels column block [512, 1], whole. -/
abbrev rB : Rect S512x1 := Rect.unit (s := S512x1) ![0, 0] S512x1.size inb_S512x1_S512x1_0_0
/-- The padded centres [1024, 1024], whole. -/
abbrev rC : Rect S1024x1024 := Rect.unit (s := S1024x1024) ![0, 0] S1024x1024.size inb_S1024x1024_S1024x1024_0_0

/-! ## What the body leaves in the output window's buffer -/

/-- The output buffer after the body, from the three input blocks: its one store as a piece, the stored value the
    body's pure function of the three whole-block reads. -/
def out0_3 (x0 : Vec F S512x1024 .f32) (x1 : Vec F S512x1 .i32) (x2 : Vec F S1024x1024 .f32) : Vec F S512x1 .f32 :=
  View.canon [⟨r0, k0_pay1 (View.ld x0 rA) (View.ld x1 rB) (View.ld x2 rC)⟩]

/-- The one store is the whole block, so it covers it. -/
theorem cover0_3 (p0 : Vec F S512x1 .f32) (y : S512x1.Idx) :
    ∃ pc ∈ ([⟨r0, p0⟩] : List (View.Piece (Elt F) S512x1 .f32)), y ∈ pc.1.set :=
  View.cover_of_tiled [⟨r0, p0⟩] S512x1.size (by rfl) y

/-! ## The region's proof data -/

/-- The proof data of region 0 on core `c`: the arrays as the region finds them (`V`); after the body at point `t`
    each input's buffer at its block and the output's at `out0_3` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Cert.Kernel.H

end
-- ==== Proof.K.R0Body.lean ====
/-
  Region 0 (the per-sample term): the body's triple and the body obligation at the proof data of R0Data. The body
  reads its three input blocks whole, reads the output block without using the value, and writes the output block
  whole with one pure function of the three reads; so after it the inputs are as they were and the output block is
  that function of them, at every one of the 16 points.
-/
import proofs.«417645_j74594991997728_1_alg».proof.Proof.Gen.Kernel.Launch
import proofs.«417645_j74594991997728_1_alg».proof.Proof.Gen.Kernel.Skeleton
import proofs.«417645_j74594991997728_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«417645_j74594991997728_1_alg».proof.Proof.K.R0Data

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The body's triple -/

set_option maxHeartbeats 1000000 in
/-- The body on whole buffers, the three inputs' at read contents `x0 x1 x2` and the output's at anything, runs to
    the continuation holding the inputs' as they were and the output's at `out0_3 x0 x1 x2`: three whole-block reads,
    a read of the output block whose value nothing uses, and one whole-block write of the body's pure function of
    the three reads; the write covers the block, so the block afterwards is that value whatever it was before. -/
theorem sound_kernel0 (c : Dev nD) (E : Set ℕ) (i : grid0.Coords)
    (arg1 : Memref sig .tc .vmem S512x1024 .f32) (harg1 : arg1.IsWhole)
    (arg2 : Memref sig .tc .vmem S512x1 .i32) (harg2 : arg2.IsWhole)
    (arg3 : Memref sig .tc .vmem S1024x1024 .f32) (harg3 : arg3.IsWhole)
    (arg4 : Memref sig .tc .vmem S512x1 .f32) (harg4 : arg4.IsWhole)
    (x0 : Vec F S512x1024 .f32) (x1 : Vec F S512x1 .i32) (x2 : Vec F S1024x1024 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__intra_kernel i arg1 harg1 arg2 harg2 arg3 harg3 arg4 harg4) K := by
  simp only [cc0__intra_kernel_eq_skeleton]; unfold cc0__intra_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

/-- What the body is called with at point `t`: the invariant, what is owed, and each window's current buffer, the
    inputs' at what they hold on entry and the output's at anything, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns: the same invariant and debt, each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the three inputs' buffers hold their blocks, so the body's triple applies at those blocks;
    the invariant and the debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The region's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.H

end
-- ==== Proof.K.R1Data.lean ====
import proofs.«417645_j74594991997728_1_alg».proof.Proof.Gen.Kernel.Launch
import proofs.«417645_j74594991997728_1_alg».proof.Proof.Gen.Kernel.Skeleton
import proofs.«417645_j74594991997728_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks, the point's row sums, the carried accumulator -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row sums of point `t = 16 i + j`: for each of the 512 rows of feature block `i`, the sum over the 512 rows of
    feature block `j` of the masked hinge of the pair, from the four input blocks of the point. -/
def rs1 (c : Dev nD) (t : Fin cfg1.N) : FVec F S512 .f32 :=
  k1_pay3 (iblk1 V c 0 t) (iblk1 V c 1 t) (iblk1 V c 2 t) (iblk1 V c 3 t)

/-- The carried accumulator after point `n`: at the first point of a row of the grid (`n ≡ 0 mod 16`) the point's row
    sums added to zeros, elsewhere added to the accumulator after the point before. -/
def acc1 (c : Dev nD) : (n : ℕ) → n < cfg1.N → Vec F S512x1 .f32
  | 0, hn => k1_pay1 (rs1 V c ⟨0, hn⟩) (k1_pay2 (F := F))
  | n + 1, hn =>
    if (n + 1) % 16 = 0 then k1_pay1 (rs1 V c ⟨n + 1, hn⟩) (k1_pay2 (F := F))
    else k1_pay1 (rs1 V c ⟨n + 1, hn⟩) (acc1 c n (Nat.lt_of_succ_lt hn))

/-- At the first point of a grid row the accumulator restarts from zeros. -/
theorem acc1_first (c : Dev nD) (t : Fin cfg1.N) (h : t.val % 16 = 0) :
    acc1 V c t.val t.isLt = k1_pay1 (rs1 V c t) (k1_pay2 (F := F)) := by
  obtain ⟨n, hn⟩ := t
  cases n with
  | zero => rfl
  | succ n => exact (if_pos h).trans rfl

/-- Elsewhere it adds the point's row sums to what the point before left. -/
theorem acc1_next (c : Dev nD) (t : Fin cfg1.N) (h : t.val % 16 ≠ 0) :
    acc1 V c t.val t.isLt = k1_pay1 (rs1 V c t) (acc1 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The region invariant -/

/-- The scratch operand: a whole scoped buffer of the kernel's own, passed beside the windows. -/
abbrev scM1 : Memref sig .tc .vmem S512x1 .f32 := Memref.whole cc1_scratch0

/-- The class's invariant with the scratch operand as a memref owned at some contents (the other scoped buffers, the
    first region's staging buffers, each whole at some contents). -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1 fullShare d)) ∗ (∃ r, prngReg c r)) := by
  unfold Pipeline.ΦA; rw [scopedRest1_eq]; simp only [scM1, owns_whole]; try rfl

/-- The region invariant before position `n`: before the first point the class's (every scoped buffer that is no staging
    buffer of this region at anything); afterwards the same with the carried scratch at what the point before left
    (`acc1`), and the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried scratch at that point's accumulator. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1 fullShare (acc1 V c n hn)) ∗ (∃ r, prngReg c r)) := rfl

/-- Before a point that is not the first: the carried scratch at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1 fullShare (acc1 V c (n - 1) (by omega))) ∗ (∃ r, prngReg c r)) := by
  cases n with
  | zero => exact absurd rfl hz
  | succ n => rfl

/-! ## The pipeline's proof data -/

/-- The proof data of the region on core `c`: the arrays as the region finds them (`V`); after the body at point `t`
    each input's buffer at its block and the output's at the accumulator; the invariant `PhiS1`; nothing owed; the
    two windows that read the feature array each through half of the share, the others through the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => acc1 V c t.val t.isLt
  Φ t := PhiS1 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = acc1 V c t.val t.isLt := by dsimp only [dat1]

end Cert.Kernel.H

end
-- ==== Proof.K.R1BodyRun.lean ====
import proofs.«417645_j74594991997728_1_alg».proof.Proof.Gen.Kernel.Launch
import proofs.«417645_j74594991997728_1_alg».proof.Proof.Gen.Kernel.Skeleton
import proofs.«417645_j74594991997728_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, in closed form over the grid -/

/-- The condition of the body's first `scf.if` (the column coordinate is 0: the accumulator is reset), from the grid
    coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)

/-- The condition of the body's second `scf.if` (the column coordinate is 15: the accumulator is copied out). -/
abbrev cond1_1 (i : grid1.Coords) : Prop := k1_cond2 i = 1#1
/-- It holds at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

/-- The four inputs are never idle. -/
theorem liveAt1_0 : ∀ i : grid1.Coords, cfg1.idle 0 i = false := fun _ => rfl
theorem liveAt1_1 : ∀ i : grid1.Coords, cfg1.idle 1 i = false := fun _ => rfl
theorem liveAt1_2 : ∀ i : grid1.Coords, cfg1.idle 2 i = false := fun _ => rfl
theorem liveAt1_3 : ∀ i : grid1.Coords, cfg1.idle 3 i = false := fun _ => rfl
/-- Where the second condition fails the output window is idle, -/
theorem idleAt1_4 : ∀ t : Fin cfg1.N, ¬cond1_1 (grid1.coords t) → cfg1.idle 4 (grid1.coords t) = true := by decide +kernel
/-- and not written back; -/
theorem noFlush1_4 (t : Fin cfg1.N) (h : ¬cond1_1 (grid1.coords t)) : (cfg1.win 4).flush t = false :=
  Bool.eq_false_iff.mpr fun hf => h ((hcond1_1 t).mpr ((flush1_4 t).mp hf))
/-- where it holds the window is live. -/
theorem liveAt1_4 : ∀ t : Fin cfg1.N, cond1_1 (grid1.coords t) → cfg1.idle 4 (grid1.coords t) = false := by decide +kernel

/-! ## The body on any whole memrefs, case by case -/

/-- The zero offsets of a whole-buffer rectangle of rank two. -/
theorem hz2 : (![0, 0] : Fin 2 → Nat) = fun _ => 0 := funext fun a => by fin_cases a <;> rfl

/-- A list of stores into a [512, 1] buffer whose last store is through the whole-buffer rectangle covers the buffer. -/
theorem cover_unit1 {Val : EltTy → Type} (w : S512x1.Idx → Val .f32) (L : List (View.Piece Val S512x1 .f32)) (y : S512x1.Idx) :
    ∃ p ∈ ((⟨Rect.unit ![0, 0] S512x1.size inb_S512x1_S512x1_0_0, w⟩ : View.Piece Val S512x1 .f32) :: L), y ∈ p.1.set :=
  ⟨_, List.Mem.head _, View.mem_set_unit_zero (S := S512x1) hz2 inb_S512x1_S512x1_0_0 y⟩

/-- CASE A (first condition holds, second fails): on whole memrefs — the four inputs at their contents, the output at
    contents handed back untouched, the scratch at anything — the body runs to the continuation holding the inputs and
    the output as they were and the scratch at the point's row sums added to zeros. -/
theorem run1_A (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (hc0 : cond1_0 i) (hc1 : ¬cond1_1 i)
    (x0 : Vec F S512x1024 .f32) (x1 : Vec F S512x1024 .f32) (x2 : Vec F S512x1 .i32) (x3 : Vec F S1x512 .i32) (xi4 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare (k1_pay1 (k1_pay3 x0 x1 x2 x3) (k1_pay2 (F := F)))) -∗ K ⟨⟩))
      ⊢ wp frame (wpE (defs₀ (F := F)) Variants.none c none) E (cc1__adv_kernel i arg2 harg2 arg3 harg3 arg4 harg4 arg5 harg5 arg6 harg6 arg7 harg7) K := by
  simp only [cc1__adv_kernel_eq_skeleton]; unfold cc1__adv_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS0
  ipureintro
  rw [View.read_writes_eq_canon _ _ _ (cover_unit1 _ _)]
  sl_unfold_words
  rw [View.canon_cons_unit_zero (S := S512x1) hz2, View.readCov_unit_zero (S := S512x1) _ hz2]
  simp only [View.readAt_eq_ld, harg2.read_unread, harg3.read_unread, harg4.read_unread, harg5.read_unread, harg7.read_unread,
    View.ld_unit_zero (S := S512x1024) hz2, View.ld_unit_zero (S := S512x1) hz2, View.ld_unit_zero (S := S1x512) hz2]

/-- CASE B (both conditions fail): the inputs at their contents, the output handed back untouched, the scratch at what
    the point before left (`xs`): the scratch ends at the point's row sums added to `xs`. -/
theorem run1_B (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (hc0 : ¬cond1_0 i) (hc1 : ¬cond1_1 i)
    (x0 : Vec F S512x1024 .f32) (x1 : Vec F S512x1024 .f32) (x2 : Vec F S512x1 .i32) (x3 : Vec F S1x512 .i32) (xi4 : Vec F S512x1 .f32) (xs : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare (k1_pay1 (k1_pay3 x0 x1 x2 x3) xs)) -∗ K ⟨⟩))
      ⊢ wp frame (wpE (defs₀ (F := F)) Variants.none c none) E (cc1__adv_kernel i arg2 harg2 arg3 harg3 arg4 harg4 arg5 harg5 arg6 harg6 arg7 harg7) K := by
  simp only [cc1__adv_kernel_eq_skeleton]; unfold cc1__adv_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS0
  ipureintro
  rw [View.read_writes_eq_canon _ _ _ (cover_unit1 _ _)]
  rw [View.canon_unit_zero (S := S512x1) hz2]
  simp only [View.readAt_eq_ld, harg2.read_unread, harg3.read_unread, harg4.read_unread, harg5.read_unread, harg7.read_unread,
    View.ld_unit_zero (S := S512x1024) hz2, View.ld_unit_zero (S := S512x1) hz2, View.ld_unit_zero (S := S1x512) hz2]

/-- CASE C (first condition fails, second holds): the inputs at their contents, the output at anything, the scratch at
    what the point before left (`xs`): the scratch ends at the point's row sums added to `xs`, and the output holds
    the same. -/
theorem run1_C (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (hc0 : ¬cond1_0 i) (hc1 : cond1_1 i)
    (x0 : Vec F S512x1024 .f32) (x1 : Vec F S512x1024 .f32) (x2 : Vec F S512x1 .i32) (x3 : Vec F S1x512 .i32) (xs : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k1_pay1 (k1_pay3 x0 x1 x2 x3) xs) ∗ owns (c : Thread nD τ) arg7 fullShare (k1_pay1 (k1_pay3 x0 x1 x2 x3) xs)) -∗ K ⟨⟩))
      ⊢ wp frame (wpE (defs₀ (F := F)) Variants.none c none) E (cc1__adv_kernel i arg2 harg2 arg3 harg3 arg4 harg4 arg5 harg5 arg6 harg6 arg7 harg7) K := by
  simp only [cc1__adv_kernel_eq_skeleton]; unfold cc1__adv_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
  obtain rfl := harg2.eq_unread hf0; obtain rfl := harg3.eq_unread hf1; obtain rfl := harg4.eq_unread hf2
  obtain rfl := harg5.eq_unread hf3; obtain rfl := harg7.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    rw [View.read_writes_eq_canon _ _ _ (cover_unit1 _ _)]
    rw [View.canon_unit_zero (S := S512x1) hz2, View.readCov_unit_zero (S := S512x1) _ hz2]
    simp only [View.readAt_eq_ld, harg2.read_unread, harg3.read_unread, harg4.read_unread, harg5.read_unread, harg7.read_unread,
      View.ld_unit_zero (S := S512x1024) hz2, View.ld_unit_zero (S := S512x1) hz2, View.ld_unit_zero (S := S1x512) hz2]
  iexists _; isplitr
  swap; · iexact HS0
  ipureintro
  sl_unfold_words
  rw [View.read_writes_eq_canon _ _ _ (cover_unit1 _ _)]
  rw [View.canon_unit_zero (S := S512x1) hz2]
  simp only [View.readAt_eq_ld, harg2.read_unread, harg3.read_unread, harg4.read_unread, harg5.read_unread, harg7.read_unread,
    View.ld_unit_zero (S := S512x1024) hz2, View.ld_unit_zero (S := S512x1) hz2, View.ld_unit_zero (S := S1x512) hz2]

end Cert.Kernel.H

end
-- ==== Proof.K.R1Body.lean ====
import proofs.«417645_j74594991997728_1_alg».proof.Proof.Gen.Kernel.Launch
import proofs.«417645_j74594991997728_1_alg».proof.Proof.Gen.Kernel.Skeleton
import proofs.«417645_j74594991997728_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
import proofs.«417645_j74594991997728_1_alg».proof.Proof.K.R1Data
import proofs.«417645_j74594991997728_1_alg».proof.Proof.K.R1BodyRun

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The staging memrefs at a point -/

/-- Each window's current staging memref at point `t`, spelled as the pipeline passes it, and its wholeness. -/
abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1 .f32 := win1_4.stage (cfg1.slots t 4)
abbrev hs1_4 (t : Fin cfg1.N) : (ms1_4 t).IsWhole := hstage1_4 ((cfg1.slots t 4).cast nbuf1_4)

/-! ## What the input windows' buffers hold when the body runs -/

/-- Each input's current staging buffer holds its block at every point, fetched there or not: where it is not fetched
    the block index has not moved since the point before, and the body left the block in place. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

/-- The body at any point: the inputs' memrefs hold their blocks; the closed forms say which of the three cases the
    point is in; the invariant hands the body the scratch at what the point before left (at anything at the very first
    point) and takes it back at this point's accumulator; the output window is handed back untouched where it is idle
    and holds the accumulator where it is written back; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; first | rw [liveAt1_0] | rfl, after1_0]
  rw [show (dat1 V c).leavesExact 1 t = owns (c : Thread nD τ) (ms1_1 t) fullShare ((dat1 V c).after 1 t) from by
    unfold Dat.leavesExact; first | rw [liveAt1_1] | rfl, after1_1]
  rw [show (dat1 V c).leavesExact 2 t = owns (c : Thread nD τ) (ms1_2 t) fullShare ((dat1 V c).after 2 t) from by
    unfold Dat.leavesExact; first | rw [liveAt1_2] | rfl, after1_2]
  rw [show (dat1 V c).leavesExact 3 t = owns (c : Thread nD τ) (ms1_3 t) fullShare ((dat1 V c).after 3 t) from by
    unfold Dat.leavesExact; first | rw [liveAt1_3] | rfl, after1_3]
  have hN : t.val < 256 := lt_of_lt_of_eq t.isLt (show cfg1.N = 256 from N_1)
  by_cases h1 : t.val % 16 = 15
  · have h0 : ¬t.val % 16 = 0 := by omega
    have hz : t.val ≠ 0 := by omega
    rw [show (dat1 V c).leavesExact 4 t = owns (c : Thread nD τ) (ms1_4 t) fullShare ((dat1 V c).after 4 t) from by
      unfold Dat.leavesExact; rw [liveAt1_4 t ((hcond1_1 t).mpr h1)], after1_4]
    rw [acc1_next V c t h0]; unfold rs1
    rw [PhiS1_castSucc V c t, PhiS1_pos V c _ _ hz]
    iintro ⟨⟨⟨R1, R2, R3, R4, R5, R6, R7, HS0⟩, Hg⟩, Ho, ⟨%d0, H0⟩, ⟨%d1, H1⟩, ⟨%d2, H2⟩, ⟨%d3, H3⟩, ⟨%d4, H4⟩⟩
    iapply (run1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (acc1 V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, H4, HS0⟩
    isplitl [R1 R2 R3 R4 R5 R6 R7 HS0 Hg]
    · isplitl [R1 R2 R3 R4 R5 R6 R7 HS0]
      · isplitl [R1]; · iexact R1
        isplitl [R2]; · iexact R2
        isplitl [R3]; · iexact R3
        isplitl [R4]; · iexact R4
        isplitl [R5]; · iexact R5
        isplitl [R6]; · iexact R6
        isplitl [R7]; · iexact R7
        iexact HS0
      iexact Hg
    isplitl [Ho]; · iexact Ho
    isplitl [H0]; · iexact H0
    isplitl [H1]; · iexact H1
    isplitl [H2]; · iexact H2
    isplitl [H3]; · iexact H3
    iexact H4
  · rw [Dat.leavesExact_idle (dat1 V c) 4 t (idleAt1_4 t (fun h => h1 ((hcond1_1 t).mp h))) (noFlush1_4 t (fun h => h1 ((hcond1_1 t).mp h)))]
    by_cases h0 : t.val % 16 = 0
    · rw [acc1_first V c t h0]; unfold rs1
      by_cases hz : t.val = 0
      · rw [PhiS1_castSucc V c t, PhiS1_zero V c _ _ hz, PhiA1_eq]
        iintro ⟨⟨⟨R1, R2, R3, R4, R5, R6, R7, HS0⟩, Hg⟩, Ho, ⟨%d0, H0⟩, ⟨%d1, H1⟩, ⟨%d2, H2⟩, ⟨%d3, H3⟩, ⟨%d4, H4⟩⟩
        iapply (run1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t) (iblk1 V c 2 t) (iblk1 V c 3 t) ((dat1 V c).before 4 t d4) Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, HS0⟩
        isplitl [R1 R2 R3 R4 R5 R6 R7 HS0 Hg]
        · isplitl [R1 R2 R3 R4 R5 R6 R7 HS0]
          · isplitl [R1]; · iexact R1
            isplitl [R2]; · iexact R2
            isplitl [R3]; · iexact R3
            isplitl [R4]; · iexact R4
            isplitl [R5]; · iexact R5
            isplitl [R6]; · iexact R6
            isplitl [R7]; · iexact R7
            iexact HS0
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨R1, R2, R3, R4, R5, R6, R7, HS0⟩, Hg⟩, Ho, ⟨%d0, H0⟩, ⟨%d1, H1⟩, ⟨%d2, H2⟩, ⟨%d3, H3⟩, ⟨%d4, H4⟩⟩
        iapply (run1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t) (iblk1 V c 2 t) (iblk1 V c 3 t) ((dat1 V c).before 4 t d4) Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, HS0⟩
        isplitl [R1 R2 R3 R4 R5 R6 R7 HS0 Hg]
        · isplitl [R1 R2 R3 R4 R5 R6 R7 HS0]
          · isplitl [R1]; · iexact R1
            isplitl [R2]; · iexact R2
            isplitl [R3]; · iexact R3
            isplitl [R4]; · iexact R4
            isplitl [R5]; · iexact R5
            isplitl [R6]; · iexact R6
            isplitl [R7]; · iexact R7
            iexact HS0
          iexact Hg
        isplitl [Ho]; · iexact Ho
        isplitl [H0]; · iexact H0
        isplitl [H1]; · iexact H1
        isplitl [H2]; · iexact H2
        isplitl [H3]; · iexact H3
        iexists _; iexact H4
    · have hz : t.val ≠ 0 := fun h => h0 (by rw [h])
      rw [acc1_next V c t h0]; unfold rs1
      rw [PhiS1_castSucc V c t, PhiS1_pos V c _ _ hz]
      iintro ⟨⟨⟨R1, R2, R3, R4, R5, R6, R7, HS0⟩, Hg⟩, Ho, ⟨%d0, H0⟩, ⟨%d1, H1⟩, ⟨%d2, H2⟩, ⟨%d3, H3⟩, ⟨%d4, H4⟩⟩
      iapply (run1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (iblk1 V c 2 t) (iblk1 V c 3 t) ((dat1 V c).before 4 t d4) (acc1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      isplitl [R1 R2 R3 R4 R5 R6 R7 HS0 Hg]
      · isplitl [R1 R2 R3 R4 R5 R6 R7 HS0]
        · isplitl [R1]; · iexact R1
          isplitl [R2]; · iexact R2
          isplitl [R3]; · iexact R3
          isplitl [R4]; · iexact R4
          isplitl [R5]; · iexact R5
          isplitl [R6]; · iexact R6
          isplitl [R7]; · iexact R7
          iexact HS0
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 (F := F) V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch's named contents are forgotten. -/
theorem Phi_out1 (c : Dev nD) (t : Fin (cfg1.N + 1)) (ht : t.val ≠ 0) : (dat1 (F := F) V c).Φ t ⊢ Pipeline.ΦA spec1 c := by
  rw [show (dat1 V c).Φ t = PhiS1 V c t.val (Nat.le_of_lt_succ t.isLt) from rfl, PhiS1_pos V c _ _ ht, PhiA1_eq]
  iintro ⟨⟨R1, R2, R3, R4, R5, R6, R7, HS0⟩, Hg⟩
  isplitl [R1 R2 R3 R4 R5 R6 R7 HS0]
  · isplitl [R1]; · iexact R1
    isplitl [R2]; · iexact R2
    isplitl [R3]; · iexact R3
    isplitl [R4]; · iexact R4
    isplitl [R5]; · iexact R5
    isplitl [R6]; · iexact R6
    isplitl [R7]; · iexact R7
    iexists _; iexact HS0
  iexact Hg

/-- The same after the last point. -/
theorem hout1 (c : Dev nD) : (dat1 (F := F) V c).Φ (Fin.last cfg1.N) ⊢ Pipeline.ΦA spec1 c :=
  Phi_out1 V c _ (by rw [Fin.val_last]; have : cfg1.N = 256 := N_1; omega)

end Cert.Kernel.H

end
-- ==== Proof.K.R1Arrays.lean ====
/-
  Region 1 (the pair term) reads the feature array through two windows. The core's unscoped buffers hold that array
  once, at the full share; the region's proof data holds it twice, each window at one half of the share. This module
  passes between the two forms: at the region's entry the full share splits into its halves, at its exit the halves,
  both at the same contents, add back to the full share; the other three arrays are one buffer per window throughout.
-/
import proofs.«417645_j74594991997728_1_alg».proof.Proof.Gen.Kernel.Launch
import proofs.«417645_j74594991997728_1_alg».proof.Proof.Gen.Kernel.Skeleton
import proofs.«417645_j74594991997728_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«417645_j74594991997728_1_alg».proof.Proof.K.R1Data

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The buffers behind the five windows, and the share each window holds its array at -/

/-- The five windows' arrays are four distinct buffers: the two feature windows read one array. -/
theorem img1 : (Finset.univ.image (Pipeline.arrRef spec1) : Finset (Ref sig .tc)) = {main_arg0, main_v0, main_v1, main_v21} := by
  decide

/-- A product over those four buffers, written out one by one. -/
theorem bigSep_arr1 {M : Type} [URA M] (Φ : Ref sig .tc → sProp M) :
    bigSep (Finset.univ.image (Pipeline.arrRef spec1)) Φ = iprop(Φ main_arg0 ∗ Φ main_v0 ∗ Φ main_v1 ∗ Φ main_v21) :=
  bigSep_eq_bigSepL_of_eq [main_arg0, main_v0, main_v1, main_v21] (by decide) (by decide) Φ

/-- The first feature window holds the feature array at the left half of the full share, -/
theorem share1_0 (c : Dev nD) : (dat1 V c).share 0 = fullShare.left := by
  unfold Pipeline.Dat.share; exact (if_neg (by decide)).trans (by dsimp only [dat1])
/-- the second at the right half; -/
theorem share1_1 (c : Dev nD) : (dat1 V c).share 1 = fullShare.right := by
  unfold Pipeline.Dat.share; exact (if_neg (by decide)).trans (by dsimp only [dat1])
/-- the two label windows and the output window hold theirs at the full share. -/
theorem share1_2 (c : Dev nD) : (dat1 V c).share 2 = fullShare := by
  unfold Pipeline.Dat.share; exact (if_neg (by decide)).trans (by dsimp only [dat1])
theorem share1_3 (c : Dev nD) : (dat1 V c).share 3 = fullShare := by
  unfold Pipeline.Dat.share; exact (if_neg (by decide)).trans (by dsimp only [dat1])
theorem share1_4 (c : Dev nD) : (dat1 V c).share 4 = fullShare := by
  unfold Pipeline.Dat.share; exact if_pos (by decide)

/-! ## The four buffers at the full share are the five windows' arrays -/

/-- The four buffers behind the windows, each whole at the full share at contents `V'`, are the five windows' arrays
    at contents `G` that read `V'` at each window's buffer: the feature array's full share is the sum of its left
    and right halves, one per feature window, both halves at the same contents; the other three arrays are held by
    one window each at the full share; every array is its whole buffer. -/
theorem arrays1_iff (c : Dev nD) (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w)) :
    (Pipeline.arrBufs spec1 c V' : sProp 𝕄) ⊣⊢ (dat1 V c).arrays G := by
  unfold Pipeline.arrBufs Pipeline.Dat.arrays
  rw [bigSep_arr1, bigSep_W1, share1_0, share1_1, share1_2, share1_3, share1_4, hG 0, hG 1, hG 2, hG 3, hG 4,
    (arr_whole1 0).set_eq_univ, (arr_whole1 2).set_eq_univ, (arr_whole1 3).set_eq_univ,
    (arr_whole1 4).set_eq_univ]
  constructor
  · iintro ⟨Ha, H0, H1, H21⟩
    ihave Hs := (pointsTo_share (PosShare.mem_left_op_right fullShare)).1 $$ Ha
    icases Hs with ⟨Hl, Hr⟩
    isplitl [Hl]; · iexact Hl
    isplitl [Hr]; · iexact Hr
    isplitl [H0]; · iexact H0
    isplitl [H1]; · iexact H1
    iexact H21
  · iintro ⟨Hl, Hr, H0, H1, H21⟩
    isplitl [Hl Hr]
    · iapply (pointsTo_share (PosShare.mem_left_op_right fullShare)).2
      isplitl [Hl]; · iexact Hl
      iexact Hr
    isplitl [H0]; · iexact H0
    isplitl [H1]; · iexact H1
    iexact H21

/-! ## Entry and exit of the region -/

/-- ENTRY: the core's unscoped buffers at contents `V c` are the region's arrays at the proof data's entry contents
    (those being `V c` read at each window's buffer) and the unscoped rest. -/
theorem arrays1_of_unscopedBufs (c : Dev nD) :
    (unscopedBufs c (V c) : sProp 𝕄)
      ⊢ iprop((dat1 V c).arrays ((dat1 V c).arrAt · 0) ∗ Pipeline.unscopedRest spec1 c (V c)) := by
  rw [Pipeline.unscopedBufs_split₀ cfgs 1 winFacts₀1.arr_unscoped c (V c)]
  exact sep_mono (arrays1_iff V c (V c) _ fun w => A_eq1 V c w).1 .rfl

/-- EXIT: the region's arrays at their contents after the last point and the unscoped rest at `V c` are the core's
    unscoped buffers at any contents `V'` that has each window's array at those contents and agrees with `V c` off
    the windows' buffers; the two halves of the feature array's share are both at `V'` of that array, so they add
    back to the full share. -/
theorem unscopedBufs_of_arrays1 (c : Dev nD) (V' : (b : Ref sig .tc) → Buf (Elt F) ((c : Thread nD τ).loc b))
    (hF : ∀ w, (dat1 V c).arrAt w cfg1.N = V' (Pipeline.arrRef spec1 w))
    (hrest : ∀ b, b ∉ Finset.univ.image (Pipeline.arrRef spec1) → V' b = V c b) :
    iprop((dat1 V c).arrays ((dat1 V c).arrAt · cfg1.N) ∗ Pipeline.unscopedRest spec1 c (V c))
      ⊢ (unscopedBufs c V' : sProp 𝕄) := by
  rw [Pipeline.unscopedBufs_split₀ cfgs 1 winFacts₀1.arr_unscoped c V']
  refine sep_mono (arrays1_iff V c V' _ hF).2 (Entails.of_eq ?_)
  unfold Pipeline.unscopedRest
  exact bigSep_congr fun b hb => by rw [hrest b (Finset.mem_sdiff.mp hb).2]

end Cert.Kernel.H

end
-- ==== Proof.K.Regs.lean ====
/-
  The two kernel regions of the program as segment records over the thread state "every unscoped buffer whole at the
  boundary's contents, beside the generator register at some state and nothing owed", the contents the two regions
  leave in their output arrays, every pipeline's proof data at its region's entry contents, the launch's algebra, and
  the frame claim from them.
-/
import proofs.«417645_j74594991997728_1_alg».proof.Proof.Gen.Kernel.Regions
import proofs.«417645_j74594991997728_1_alg».proof.Proof.Gen.Kernel.Launch
import proofs.«417645_j74594991997728_1_alg».proof.Proof.Gen.Kernel.Skeleton
import proofs.«417645_j74594991997728_1_alg».proof.Proof.Gen.Kernel.Points
import proofs.«417645_j74594991997728_1_alg».proof.Proof.K.R0Data
import proofs.«417645_j74594991997728_1_alg».proof.Proof.K.R0Body
import proofs.«417645_j74594991997728_1_alg».proof.Proof.K.R1Data
import proofs.«417645_j74594991997728_1_alg».proof.Proof.K.R1Body
import proofs.«417645_j74594991997728_1_alg».proof.Proof.K.R1Arrays
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.H

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents the regions leave, and the buffers at each region's entry and exit -/

/-- The core's buffers when region 0 is entered: the launch contents after the four host stretches. -/
abbrev Vin0 : (c : Dev nD) → (b : Ref sig .tc) → Buf (Elt F) ((c : Thread nD τ).loc b) := fun c b => Gen.V4 m c b

/-- What region 0 leaves in its output array: the write-backs of all its points folded over the entry contents. -/
def out18 (c : Dev nD) : Buf (Elt F) ((c : Thread nD τ).loc main_v18) := (dat0 (Vin0 m) c).arrAt 3 cfg0.N

/-- The contents the regions leave, knowing region 0's output only: its output array after region 0, any other
    reference at what it held before. -/
def outsA : Gen.Outs (F := F) := fun _ r c =>
  if h : r = main_v18 then h ▸ out18 m c else Gen.V4 m c r

/-- The core's buffers when region 1 is entered: region 0's output in place, then the host stretch between the regions. -/
abbrev Vin1 : (c : Dev nD) → (b : Ref sig .tc) → Buf (Elt F) ((c : Thread nD τ).loc b) := fun c b => Gen.V6 m (outsA m) c b

/-- What region 1 leaves in its output array. -/
def out21 (c : Dev nD) : Buf (Elt F) ((c : Thread nD τ).loc main_v21) := (dat1 (Vin1 m) c).arrAt 4 cfg1.N

/-- The contents the regions leave: region 0's output array after region 0, region 1's after region 1. -/
def outs : Gen.Outs (F := F) := fun _ r c =>
  if h : r = main_v18 then h ▸ out18 m c else if h' : r = main_v21 then h' ▸ out21 m c else Gen.V4 m c r

theorem outs5 (c : Dev nD) : outs m 5 main_v18 c = (dat0 (Vin0 m) c).arrAt 3 cfg0.N := by
  unfold outs; rw [dif_pos rfl]; rfl

theorem outs7 (c : Dev nD) : outs m 7 main_v21 c = (dat1 (Vin1 m) c).arrAt 4 cfg1.N := by
  unfold outs; rw [dif_neg (by decide), dif_pos rfl]; rfl

theorem outsA5 (c : Dev nD) : outsA m 5 main_v18 c = (dat0 (Vin0 m) c).arrAt 3 cfg0.N := by
  unfold outsA; rw [dif_pos rfl]; rfl

/-- The buffers at region 1's entry read region 0's output only: either family of contents gives them. -/
theorem V6_outs (c : Dev nD) : Gen.V6 m (outs m) c = Gen.V6 m (outsA m) c := by
  show StableHlo.after hostOps1 (Function.update (Gen.V4 m c) main_v18 (outs m 5 main_v18 c))
    = StableHlo.after hostOps1 (Function.update (Gen.V4 m c) main_v18 (outsA m 5 main_v18 c))
  rw [outs5, outsA5]

/-- The core's buffers when region 0 is left, -/
abbrev Vout0 : (c : Dev nD) → (b : Ref sig .tc) → Buf (Elt F) ((c : Thread nD τ).loc b) := fun c b => Gen.V5 m (outs m) c b
/-- and when region 1 is left. -/
abbrev Vout1 : (c : Dev nD) → (b : Ref sig .tc) → Buf (Elt F) ((c : Thread nD τ).loc b) := fun c b => Gen.V7 m (outs m) c b

/-- At region 0's exit each of its arrays holds what the pipeline leaves: an input as entered (never written), the
    output the fold of its write-backs. -/
theorem hF0 (c : Dev nD) : ∀ w : Fin cfg0.W, (dat0 (Vin0 m) c).arrAt w cfg0.N = Vout0 m c (Pipeline.arrRef spec0 w)
  | 0 => ((dat0 (Vin0 m) c).arrAt_in 0 rfl _).trans ((A_eq0 (Vin0 m) c 0).trans (Gen.V5_of m (outs m) c main_arg0 (by decide)).symm)
  | 1 => ((dat0 (Vin0 m) c).arrAt_in 1 rfl _).trans ((A_eq0 (Vin0 m) c 1).trans (Gen.V5_of m (outs m) c main_v0 (by decide)).symm)
  | 2 => ((dat0 (Vin0 m) c).arrAt_in 2 rfl _).trans ((A_eq0 (Vin0 m) c 2).trans (Gen.V5_of m (outs m) c main_v17 (by decide)).symm)
  | 3 => (outs5 m c).symm.trans (Function.update_self (β := fun b : DevRef τ sig => Buf (Elt F) (c, b)) (Proc.devRef .tc main_v18) _ (Gen.V4 m c)).symm
  | ⟨_ + 4, h⟩ => absurd h (Nat.not_lt.2 (Nat.le_add_left _ _))

/-- Every other buffer holds at region 0's exit what it held at entry. -/
theorem hrest0 (c : Dev nD) : ∀ b, b ∉ Finset.univ.image (Pipeline.arrRef spec0) → Vout0 m c b = Vin0 m c b :=
  fun b hb => Gen.V5_of m (outs m) c b fun hm => hb (by
    rw [List.mem_singleton] at hm; subst hm
    exact Finset.mem_image.mpr ⟨3, Finset.mem_univ _, rfl⟩)

/-- At region 1's exit each of its arrays holds what the pipeline leaves. -/
theorem hF1 (c : Dev nD) : ∀ w : Fin cfg1.W, (dat1 (Vin1 m) c).arrAt w cfg1.N = Vout1 m c (Pipeline.arrRef spec1 w)
  | 0 => ((dat1 (Vin1 m) c).arrAt_in 0 rfl _).trans ((A_eq1 (Vin1 m) c 0).trans ((congrFun (V6_outs m c) main_arg0).symm.trans (Gen.V7_of m (outs m) c main_arg0 (by decide)).symm))
  | 1 => ((dat1 (Vin1 m) c).arrAt_in 1 rfl _).trans ((A_eq1 (Vin1 m) c 1).trans ((congrFun (V6_outs m c) main_arg0).symm.trans (Gen.V7_of m (outs m) c main_arg0 (by decide)).symm))
  | 2 => ((dat1 (Vin1 m) c).arrAt_in 2 rfl _).trans ((A_eq1 (Vin1 m) c 2).trans ((congrFun (V6_outs m c) main_v0).symm.trans (Gen.V7_of m (outs m) c main_v0 (by decide)).symm))
  | 3 => ((dat1 (Vin1 m) c).arrAt_in 3 rfl _).trans ((A_eq1 (Vin1 m) c 3).trans ((congrFun (V6_outs m c) main_v1).symm.trans (Gen.V7_of m (outs m) c main_v1 (by decide)).symm))
  | 4 => (outs7 m c).symm.trans (Function.update_self (β := fun b : DevRef τ sig => Buf (Elt F) (c, b)) (Proc.devRef .tc main_v21) _ (Gen.V6 m (outs m) c)).symm
  | ⟨_ + 5, h⟩ => absurd h (Nat.not_lt.2 (Nat.le_add_left _ _))

/-- Every other buffer holds at region 1's exit what it held at entry. -/
theorem hrest1 (c : Dev nD) : ∀ b, b ∉ Finset.univ.image (Pipeline.arrRef spec1) → Vout1 m c b = Vin1 m c b :=
  fun b hb => (Gen.V7_of m (outs m) c b fun hm => hb (by
    rw [List.mem_singleton] at hm; subst hm
    exact Finset.mem_image.mpr ⟨4, Finset.mem_univ _, rfl⟩)).trans (congrFun (V6_outs m c) b)

/-! ## The proof data family, the launch's algebra and the thread state -/

/-- Every pipeline's proof data, each at its region's entry contents. -/
def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c

/-- The rounds algebra sits in the model's user component as it is. -/
abbrev EP' : Emb (URounds (GSem nD τ sig) Unit) 𝕄 := emb₁
abbrev ι' : Unit := ()
abbrev 𝒱₀' : Variants := Variants.none
/-- No core owes another anything: no level is assigned. -/
abbrev L' : GSem nD τ sig → Finset Unit := fun _ => ∅
abbrev lv' : GSem nD τ sig → Unit → ℕ := fun _ _ => 0
theorem hL' : ∀ g : GSem nD τ sig, g.1.2 ≠ .tc → L' g = ∅ := fun _ _ => rfl
/-- Nothing is owed at launch, and no ghost resource is dealt. -/
abbrev O₀' : Dev nD → CellTallies nD τ sig Unit := 0
abbrev G' : Dev nD → sProp 𝕄 := fun _ => iprop(emp)
abbrev u₀' : UR sig nD τ := initOf (Pipeline.cells cfgs cellOf_inj) (Pipeline.launchToks cfgs cellOf_inj)

/-- What rides beside the buffers through every segment: the core's generator register at some state (a region's
    invariant takes it in and gives it back) and the core owing nothing. -/
abbrev rest (c : Dev nD) : sProp 𝕄 := iprop((∃ r, prngReg c r) ∗ ∃ W, owes (c : Thread nD τ) (0 : CellTallies nD τ sig Unit) W)
abbrev E' : Fin 3 → Dev nD → sProp 𝕄 := fun _ c => rest c

/-- The launch's element is the rounds' initial element itself; no ghost resource beside it. -/
theorem hu₀' : (ownU u₀' : sProp 𝕄) ⊢ |={Set.univ}=> iprop(BI.own (EP' (F := F) (initOf (Pipeline.cells cfgs cellOf_inj) (Pipeline.launchToks cfgs cellOf_inj))) ∗ bigSep Finset.univ (G' (F := F))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

variable (ρ : Dev nD → PrngReg) in
/-- The launch makes the rest on every core: the generator register it deals at its state, the `owes` it deals at nothing. -/
theorem hE0' : iprop((bigSep Finset.univ fun c : Dev nD => iprop(unscopedSems0 c ∗ owes (c : Thread nD τ) (O₀' c) ∅ ∗ Pipeline.launchCred O₀' c ∗ prngReg c (ρ c) ∗ G' (F := F) c)) ∗ levAts L' lv')
      ⊢ (|={Set.univ}=> bigSep Finset.univ (E' (F := F) 0) : sProp 𝕄) := by
  refine Pipeline.initEach L' lv' fun c => ?_
  iintro ⟨⟨-, HO, -, Hp, -⟩, -⟩
  imodintro
  isplitl [Hp]; · iexists _; iexact Hp
  iexists ∅; iexact HO

theorem hE2' : ∀ c : Dev nD, E' (F := F) 2 c ⊢ (iprop(∃ W, owes (c : Thread nD τ) (0 : CellTallies nD τ sig Unit) W) : sProp 𝕄) := fun c => by
  iintro ⟨-, HO⟩; iexact HO

/-! ## The regions as segments -/

set_option backward.isDefEq.respectTransparency.types false in
/-- REGION 0 over the thread state: entered from every unscoped buffer at the contents after the four host stretches,
    left with its output array at what the pipeline leaves. Its arrays split out of the unscoped buffers and put back at
    the exit contents; the generator register into the invariant and out; nothing owed; no semaphore of its own. -/
def reg0 : Pipeline.RegionSeg (pcfgs (F := F)) Gen.adm (pdats m) ι' defs₀ 𝒱₀' L' lv' 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L' lv' 0 fun _ _ => rfl
  pre c := iprop(StableHlo.held (c : Thread nD τ) (Pipeline.ucRefs τ sig) (Gen.V4 m c) ∗ rest c)
  post c := iprop(StableHlo.held (c : Thread nD τ) (Pipeline.ucRefs τ sig) (Gen.V5 m (outs m) c) ∗ rest c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the contents after the host stretch between
    the regions, left with its output array at what the pipeline leaves. Two of its windows read one array, each through
    half of the share: the arrays' split out of the unscoped buffers and back is the shared-array one. The invariant
    enters at the class's and leaves at it. -/
def reg1 : Pipeline.RegionSeg (pcfgs (F := F)) Gen.adm (pdats m) ι' defs₀ 𝒱₀' L' lv' 1 where
  win := winFacts₀1
  block_pos := block_pos1
  stage_whole := stage_whole1
  K := PEmpty
  osem k := k.elim
  ho := Pipeline.OwnSemFacts.none _
  hbody c := (body_obligation1 (Vin1 m) c).loose
  hwaits := Pipeline.hwaits_of_owed_zero _ _ _ _ L' lv' 1 fun _ _ => rfl
  pre c := iprop(StableHlo.held (c : Thread nD τ) (Pipeline.ucRefs τ sig) (Gen.V6 m (outs m) c) ∗ rest c)
  post c := iprop(StableHlo.held (c : Thread nD τ) (Pipeline.ucRefs τ sig) (Gen.V7 m (outs m) c) ∗ rest c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none, V6_outs m c]
    have hsplit := arrays1_of_unscopedBufs (Vin1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vin1 m) c)
    unfold Pipeline.ΦA
    iintro ⟨Hp, -, Hr⟩
    isplitl [Hr]; · iexact Hr
    iexact Hp
  hout c := by
    rw [Pipeline.ownSems0_none]
    refine BIBase.Entails.trans (hout1 (Vin1 m) c) ?_
    unfold Pipeline.ΦA
    iintro ⟨Hr, Hp⟩
    isplitl [Hp]; · iexact Hp
    isplitr; · iempintro
    iexact Hr
  hexit c := by
    have hjoin := unscopedBufs_of_arrays1 (Vin1 m) c (Vout1 m c) (hF1 m c) (hrest1 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The regions' thread states are the frame's -/

theorem hpre0' : ∀ c : Dev nD, iprop(StableHlo.held (c : Thread nD τ) (Pipeline.ucRefs τ sig) (Gen.V4 m c) ∗ E' (F := F) 0 c) ⊢ (reg0 m).pre c := fun _ => .rfl
theorem hpost0' : ∀ c : Dev nD, (reg0 m).post c ⊢ iprop(StableHlo.held (c : Thread nD τ) (Pipeline.ucRefs τ sig) (Gen.V5 m (outs m) c) ∗ E' (F := F) 1 c) := fun _ => .rfl
theorem hpre1' : ∀ c : Dev nD, iprop(StableHlo.held (c : Thread nD τ) (Pipeline.ucRefs τ sig) (Gen.V6 m (outs m) c) ∗ E' (F := F) 1 c) ⊢ (reg1 m).pre c := fun _ => .rfl
theorem hpost1' : ∀ c : Dev nD, (reg1 m).post c ⊢ iprop(StableHlo.held (c : Thread nD τ) (Pipeline.ucRefs τ sig) (Gen.V7 m (outs m) c) ∗ E' (F := F) 2 c) := fun _ => .rfl

/-! ## The frame -/

set_option backward.isDefEq.respectTransparency.types false in
/-- THE FRAME: from any memory with zero counters, every weakly fair execution of the program terminates, nothing
    faulting, and every final memory holds each argument array as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Gen.frame_cond m EP' ι' 𝒱₀' L' lv' hL' ρ (outs m) (pdats m) O₀' G' u₀' hu₀' E' (hE0' ρ) hE2'
    (reg0 m) (hpre0' m) (hpost0' m) (reg1 m) (hpre1' m) (hpost1' m)

/-- info: 'Cert.Kernel.H.frame' depends on axioms: [propext, Classical.choice, Quot.sound] -/
#guard_msgs in #print axioms frame

end Cert.Kernel.H

end
-- ==== Proof.KI.R0Data.lean ====
/-
  Region 0 (the per-sample term, grid of 16 points) at the buffer contents V the region is entered with: each
  window's block at a point as a read of its array, the one value the body stores into the output block as a function
  of the three input blocks, and the proof data built from them (arrays at V; after the body each input buffer at its
  block and the output buffer at that value; the untouched-rest invariant; nothing owed; full shares).
-/
import proofs.«417645_j74594991997728_1_alg».proof.Proof.Gen.KernelIdeal.Launch
import proofs.«417645_j74594991997728_1_alg».proof.Proof.Gen.KernelIdeal.Skeleton
import proofs.«417645_j74594991997728_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not, for any proof data whose
    array is `V`'s and whose body leaves the block in place: where it is not fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole of its block -/

/-- The output block [512, 1], whole (the one store, and the unread load before it). -/
abbrev r0 : Rect S512x1 := Rect.unit (s := S512x1) ![0, 0] S512x1.size inb_S512x1_S512x1_0_0
/-- The features block [512, 1024], whole. -/
abbrev rA : Rect S512x1024 := Rect.unit (s := S512x1024) ![0, 0] S512x1024.size inb_S512x1024_S512x1024_0_0
/-- The labels column block [512, 1], whole. -/
abbrev rB : Rect S512x1 := Rect.unit (s := S512x1) ![0, 0] S512x1.size inb_S512x1_S512x1_0_0
/-- The padded centres [1024, 1024], whole. -/
abbrev rC : Rect S1024x1024 := Rect.unit (s := S1024x1024) ![0, 0] S1024x1024.size inb_S1024x1024_S1024x1024_0_0

/-! ## What the body leaves in the output window's buffer -/

/-- The output buffer after the body, from the three input blocks: its one store as a piece, the stored value the
    body's pure function of the three whole-block reads. -/
def out0_3 (x0 : Vec F S512x1024 .f32) (x1 : Vec F S512x1 .i32) (x2 : Vec F S1024x1024 .f32) : Vec F S512x1 .f32 :=
  View.canon [⟨r0, k0_pay1 (View.ld x0 rA) (View.ld x1 rB) (View.ld x2 rC)⟩]

/-- The one store is the whole block, so it covers it. -/
theorem cover0_3 (p0 : Vec F S512x1 .f32) (y : S512x1.Idx) :
    ∃ pc ∈ ([⟨r0, p0⟩] : List (View.Piece (Elt F) S512x1 .f32)), y ∈ pc.1.set :=
  View.cover_of_tiled [⟨r0, p0⟩] S512x1.size (by rfl) y

/-! ## The region's proof data -/

/-- The proof data of region 0 on core `c`: the arrays as the region finds them (`V`); after the body at point `t`
    each input's buffer at its block and the output's at `out0_3` of the input blocks; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Cert.KernelIdeal.H

end
-- ==== Proof.KI.R0Body.lean ====
/-
  Region 0 (the per-sample term): the body's triple and the body obligation at the proof data of R0Data. The body
  reads its three input blocks whole, reads the output block without using the value, and writes the output block
  whole with one pure function of the three reads; so after it the inputs are as they were and the output block is
  that function of them, at every one of the 16 points.
-/
import proofs.«417645_j74594991997728_1_alg».proof.Proof.Gen.KernelIdeal.Launch
import proofs.«417645_j74594991997728_1_alg».proof.Proof.Gen.KernelIdeal.Skeleton
import proofs.«417645_j74594991997728_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«417645_j74594991997728_1_alg».proof.Proof.KI.R0Data

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The body's triple -/

set_option maxHeartbeats 1000000 in
/-- The body on whole buffers, the three inputs' at read contents `x0 x1 x2` and the output's at anything, runs to
    the continuation holding the inputs' as they were and the output's at `out0_3 x0 x1 x2`: three whole-block reads,
    a read of the output block whose value nothing uses, and one whole-block write of the body's pure function of
    the three reads; the write covers the block, so the block afterwards is that value whatever it was before. -/
theorem sound_kernel0 (c : Dev nD) (E : Set ℕ) (i : grid0.Coords)
    (arg1 : Memref sig .tc .vmem S512x1024 .f32) (harg1 : arg1.IsWhole)
    (arg2 : Memref sig .tc .vmem S512x1 .i32) (harg2 : arg2.IsWhole)
    (arg3 : Memref sig .tc .vmem S1024x1024 .f32) (harg3 : arg3.IsWhole)
    (arg4 : Memref sig .tc .vmem S512x1 .f32) (harg4 : arg4.IsWhole)
    (x0 : Vec F S512x1024 .f32) (x1 : Vec F S512x1 .i32) (x2 : Vec F S1024x1024 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__intra_kernel i arg1 harg1 arg2 harg2 arg3 harg3 arg4 harg4) K := by
  simp only [cc0__intra_kernel_eq_skeleton]; unfold cc0__intra_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

/-- What the body is called with at point `t`: the invariant, what is owed, and each window's current buffer, the
    inputs' at what they hold on entry and the output's at anything, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns: the same invariant and debt, each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the three inputs' buffers hold their blocks, so the body's triple applies at those blocks;
    the invariant and the debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The region's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.H

end
-- ==== Proof.KI.R1Data.lean ====
import proofs.«417645_j74594991997728_1_alg».proof.Proof.Gen.KernelIdeal.Launch
import proofs.«417645_j74594991997728_1_alg».proof.Proof.Gen.KernelIdeal.Skeleton
import proofs.«417645_j74594991997728_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks, the point's row sums, the carried accumulator -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row sums of point `t = 16 i + j`: for each of the 512 rows of feature block `i`, the sum over the 512 rows of
    feature block `j` of the masked hinge of the pair, from the four input blocks of the point. -/
def rs1 (c : Dev nD) (t : Fin cfg1.N) : FVec F S512 .f32 :=
  k1_pay3 (iblk1 V c 0 t) (iblk1 V c 1 t) (iblk1 V c 2 t) (iblk1 V c 3 t)

/-- The carried accumulator after point `n`: at the first point of a row of the grid (`n ≡ 0 mod 16`) the point's row
    sums added to zeros, elsewhere added to the accumulator after the point before. -/
def acc1 (c : Dev nD) : (n : ℕ) → n < cfg1.N → Vec F S512x1 .f32
  | 0, hn => k1_pay1 (rs1 V c ⟨0, hn⟩) (k1_pay2 (F := F))
  | n + 1, hn =>
    if (n + 1) % 16 = 0 then k1_pay1 (rs1 V c ⟨n + 1, hn⟩) (k1_pay2 (F := F))
    else k1_pay1 (rs1 V c ⟨n + 1, hn⟩) (acc1 c n (Nat.lt_of_succ_lt hn))

/-- At the first point of a grid row the accumulator restarts from zeros. -/
theorem acc1_first (c : Dev nD) (t : Fin cfg1.N) (h : t.val % 16 = 0) :
    acc1 V c t.val t.isLt = k1_pay1 (rs1 V c t) (k1_pay2 (F := F)) := by
  obtain ⟨n, hn⟩ := t
  cases n with
  | zero => rfl
  | succ n => exact (if_pos h).trans rfl

/-- Elsewhere it adds the point's row sums to what the point before left. -/
theorem acc1_next (c : Dev nD) (t : Fin cfg1.N) (h : t.val % 16 ≠ 0) :
    acc1 V c t.val t.isLt = k1_pay1 (rs1 V c t) (acc1 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The region invariant -/

/-- The scratch operand: a whole scoped buffer of the kernel's own, passed beside the windows. -/
abbrev scM1 : Memref sig .tc .vmem S512x1 .f32 := Memref.whole cc1_scratch0

/-- The class's invariant with the scratch operand as a memref owned at some contents (the other scoped buffers, the
    first region's staging buffers, each whole at some contents). -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ d, owns (c : Thread nD τ) scM1 fullShare d)) ∗ (∃ r, prngReg c r)) := by
  unfold Pipeline.ΦA; rw [scopedRest1_eq]; simp only [scM1, owns_whole]; try rfl

/-- The region invariant before position `n`: before the first point the class's (every scoped buffer that is no staging
    buffer of this region at anything); afterwards the same with the carried scratch at what the point before left
    (`acc1`), and the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried scratch at that point's accumulator. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1 fullShare (acc1 V c n hn)) ∗ (∃ r, prngReg c r)) := rfl

/-- Before a point that is not the first: the carried scratch at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ owns (c : Thread nD τ) scM1 fullShare (acc1 V c (n - 1) (by omega))) ∗ (∃ r, prngReg c r)) := by
  cases n with
  | zero => exact absurd rfl hz
  | succ n => rfl

/-! ## The pipeline's proof data -/

/-- The proof data of the region on core `c`: the arrays as the region finds them (`V`); after the body at point `t`
    each input's buffer at its block and the output's at the accumulator; the invariant `PhiS1`; nothing owed; the
    two windows that read the feature array each through half of the share, the others through the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => acc1 V c t.val t.isLt
  Φ t := PhiS1 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = acc1 V c t.val t.isLt := by dsimp only [dat1]

end Cert.KernelIdeal.H

end
-- ==== Proof.KI.R1BodyRun.lean ====
import proofs.«417645_j74594991997728_1_alg».proof.Proof.Gen.KernelIdeal.Launch
import proofs.«417645_j74594991997728_1_alg».proof.Proof.Gen.KernelIdeal.Skeleton
import proofs.«417645_j74594991997728_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions, in closed form over the grid -/

/-- The condition of the body's first `scf.if` (the column coordinate is 0: the accumulator is reset), from the grid
    coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)

/-- The condition of the body's second `scf.if` (the column coordinate is 15: the accumulator is copied out). -/
abbrev cond1_1 (i : grid1.Coords) : Prop := k1_cond2 i = 1#1
/-- It holds at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

/-- The four inputs are never idle. -/
theorem liveAt1_0 : ∀ i : grid1.Coords, cfg1.idle 0 i = false := fun _ => rfl
theorem liveAt1_1 : ∀ i : grid1.Coords, cfg1.idle 1 i = false := fun _ => rfl
theorem liveAt1_2 : ∀ i : grid1.Coords, cfg1.idle 2 i = false := fun _ => rfl
theorem liveAt1_3 : ∀ i : grid1.Coords, cfg1.idle 3 i = false := fun _ => rfl
/-- Where the second condition fails the output window is idle, -/
theorem idleAt1_4 : ∀ t : Fin cfg1.N, ¬cond1_1 (grid1.coords t) → cfg1.idle 4 (grid1.coords t) = true := by decide +kernel
/-- and not written back; -/
theorem noFlush1_4 (t : Fin cfg1.N) (h : ¬cond1_1 (grid1.coords t)) : (cfg1.win 4).flush t = false :=
  Bool.eq_false_iff.mpr fun hf => h ((hcond1_1 t).mpr ((flush1_4 t).mp hf))
/-- where it holds the window is live. -/
theorem liveAt1_4 : ∀ t : Fin cfg1.N, cond1_1 (grid1.coords t) → cfg1.idle 4 (grid1.coords t) = false := by decide +kernel

/-! ## The body on any whole memrefs, case by case -/

/-- The zero offsets of a whole-buffer rectangle of rank two. -/
theorem hz2 : (![0, 0] : Fin 2 → Nat) = fun _ => 0 := funext fun a => by fin_cases a <;> rfl

/-- A list of stores into a [512, 1] buffer whose last store is through the whole-buffer rectangle covers the buffer. -/
theorem cover_unit1 {Val : EltTy → Type} (w : S512x1.Idx → Val .f32) (L : List (View.Piece Val S512x1 .f32)) (y : S512x1.Idx) :
    ∃ p ∈ ((⟨Rect.unit ![0, 0] S512x1.size inb_S512x1_S512x1_0_0, w⟩ : View.Piece Val S512x1 .f32) :: L), y ∈ p.1.set :=
  ⟨_, List.Mem.head _, View.mem_set_unit_zero (S := S512x1) hz2 inb_S512x1_S512x1_0_0 y⟩

/-- CASE A (first condition holds, second fails): on whole memrefs — the four inputs at their contents, the output at
    contents handed back untouched, the scratch at anything — the body runs to the continuation holding the inputs and
    the output as they were and the scratch at the point's row sums added to zeros. -/
theorem run1_A (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (hc0 : cond1_0 i) (hc1 : ¬cond1_1 i)
    (x0 : Vec F S512x1024 .f32) (x1 : Vec F S512x1024 .f32) (x2 : Vec F S512x1 .i32) (x3 : Vec F S1x512 .i32) (xi4 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare (k1_pay1 (k1_pay3 x0 x1 x2 x3) (k1_pay2 (F := F)))) -∗ K ⟨⟩))
      ⊢ wp frame (wpE (defs₀ (F := F)) Variants.none c none) E (cc1__adv_kernel i arg2 harg2 arg3 harg3 arg4 harg4 arg5 harg5 arg6 harg6 arg7 harg7) K := by
  simp only [cc1__adv_kernel_eq_skeleton]; unfold cc1__adv_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS0
  ipureintro
  rw [View.read_writes_eq_canon _ _ _ (cover_unit1 _ _)]
  sl_unfold_words
  rw [View.canon_cons_unit_zero (S := S512x1) hz2, View.readCov_unit_zero (S := S512x1) _ hz2]
  simp only [View.readAt_eq_ld, harg2.read_unread, harg3.read_unread, harg4.read_unread, harg5.read_unread, harg7.read_unread,
    View.ld_unit_zero (S := S512x1024) hz2, View.ld_unit_zero (S := S512x1) hz2, View.ld_unit_zero (S := S1x512) hz2]

/-- CASE B (both conditions fail): the inputs at their contents, the output handed back untouched, the scratch at what
    the point before left (`xs`): the scratch ends at the point's row sums added to `xs`. -/
theorem run1_B (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (hc0 : ¬cond1_0 i) (hc1 : ¬cond1_1 i)
    (x0 : Vec F S512x1024 .f32) (x1 : Vec F S512x1024 .f32) (x2 : Vec F S512x1 .i32) (x3 : Vec F S1x512 .i32) (xi4 : Vec F S512x1 .f32) (xs : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare (k1_pay1 (k1_pay3 x0 x1 x2 x3) xs)) -∗ K ⟨⟩))
      ⊢ wp frame (wpE (defs₀ (F := F)) Variants.none c none) E (cc1__adv_kernel i arg2 harg2 arg3 harg3 arg4 harg4 arg5 harg5 arg6 harg6 arg7 harg7) K := by
  simp only [cc1__adv_kernel_eq_skeleton]; unfold cc1__adv_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS0
  ipureintro
  rw [View.read_writes_eq_canon _ _ _ (cover_unit1 _ _)]
  rw [View.canon_unit_zero (S := S512x1) hz2]
  simp only [View.readAt_eq_ld, harg2.read_unread, harg3.read_unread, harg4.read_unread, harg5.read_unread, harg7.read_unread,
    View.ld_unit_zero (S := S512x1024) hz2, View.ld_unit_zero (S := S512x1) hz2, View.ld_unit_zero (S := S1x512) hz2]

/-- CASE C (first condition fails, second holds): the inputs at their contents, the output at anything, the scratch at
    what the point before left (`xs`): the scratch ends at the point's row sums added to `xs`, and the output holds
    the same. -/
theorem run1_C (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1 .i32) (harg4 : arg4.IsWhole) (arg5 : Memref sig .tc .vmem S1x512 .i32) (harg5 : arg5.IsWhole) (arg6 : Memref sig .tc .vmem S512x1 .f32) (harg6 : arg6.IsWhole) (arg7 : Memref sig .tc .vmem S512x1 .f32) (harg7 : arg7.IsWhole) (hc0 : ¬cond1_0 i) (hc1 : cond1_1 i)
    (x0 : Vec F S512x1024 .f32) (x1 : Vec F S512x1024 .f32) (x2 : Vec F S512x1 .i32) (x3 : Vec F S1x512 .i32) (xs : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k1_pay1 (k1_pay3 x0 x1 x2 x3) xs) ∗ owns (c : Thread nD τ) arg7 fullShare (k1_pay1 (k1_pay3 x0 x1 x2 x3) xs)) -∗ K ⟨⟩))
      ⊢ wp frame (wpE (defs₀ (F := F)) Variants.none c none) E (cc1__adv_kernel i arg2 harg2 arg3 harg3 arg4 harg4 arg5 harg5 arg6 harg6 arg7 harg7) K := by
  simp only [cc1__adv_kernel_eq_skeleton]; unfold cc1__adv_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
  obtain rfl := harg2.eq_unread hf0; obtain rfl := harg3.eq_unread hf1; obtain rfl := harg4.eq_unread hf2
  obtain rfl := harg5.eq_unread hf3; obtain rfl := harg7.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    rw [View.read_writes_eq_canon _ _ _ (cover_unit1 _ _)]
    rw [View.canon_unit_zero (S := S512x1) hz2, View.readCov_unit_zero (S := S512x1) _ hz2]
    simp only [View.readAt_eq_ld, harg2.read_unread, harg3.read_unread, harg4.read_unread, harg5.read_unread, harg7.read_unread,
      View.ld_unit_zero (S := S512x1024) hz2, View.ld_unit_zero (S := S512x1) hz2, View.ld_unit_zero (S := S1x512) hz2]
  iexists _; isplitr
  swap; · iexact HS0
  ipureintro
  sl_unfold_words
  rw [View.read_writes_eq_canon _ _ _ (cover_unit1 _ _)]
  rw [View.canon_unit_zero (S := S512x1) hz2]
  simp only [View.readAt_eq_ld, harg2.read_unread, harg3.read_unread, harg4.read_unread, harg5.read_unread, harg7.read_unread,
    View.ld_unit_zero (S := S512x1024) hz2, View.ld_unit_zero (S := S512x1) hz2, View.ld_unit_zero (S := S1x512) hz2]

end Cert.KernelIdeal.H

end
-- ==== Proof.KI.R1Body.lean ====
import proofs.«417645_j74594991997728_1_alg».proof.Proof.Gen.KernelIdeal.Launch
import proofs.«417645_j74594991997728_1_alg».proof.Proof.Gen.KernelIdeal.Skeleton
import proofs.«417645_j74594991997728_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
import proofs.«417645_j74594991997728_1_alg».proof.Proof.KI.R1Data
import proofs.«417645_j74594991997728_1_alg».proof.Proof.KI.R1BodyRun

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The staging memrefs at a point -/

/-- Each window's current staging memref at point `t`, spelled as the pipeline passes it, and its wholeness. -/
abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1 .f32 := win1_4.stage (cfg1.slots t 4)
abbrev hs1_4 (t : Fin cfg1.N) : (ms1_4 t).IsWhole := hstage1_4 ((cfg1.slots t 4).cast nbuf1_4)

/-! ## What the input windows' buffers hold when the body runs -/

/-- Each input's current staging buffer holds its block at every point, fetched there or not: where it is not fetched
    the block index has not moved since the point before, and the body left the block in place. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

/-- The body at any point: the inputs' memrefs hold their blocks; the closed forms say which of the three cases the
    point is in; the invariant hands the body the scratch at what the point before left (at anything at the very first
    point) and takes it back at this point's accumulator; the output window is handed back untouched where it is idle
    and holds the accumulator where it is written back; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; first | rw [liveAt1_0] | rfl, after1_0]
  rw [show (dat1 V c).leavesExact 1 t = owns (c : Thread nD τ) (ms1_1 t) fullShare ((dat1 V c).after 1 t) from by
    unfold Dat.leavesExact; first | rw [liveAt1_1] | rfl, after1_1]
  rw [show (dat1 V c).leavesExact 2 t = owns (c : Thread nD τ) (ms1_2 t) fullShare ((dat1 V c).after 2 t) from by
    unfold Dat.leavesExact; first | rw [liveAt1_2] | rfl, after1_2]
  rw [show (dat1 V c).leavesExact 3 t = owns (c : Thread nD τ) (ms1_3 t) fullShare ((dat1 V c).after 3 t) from by
    unfold Dat.leavesExact; first | rw [liveAt1_3] | rfl, after1_3]
  have hN : t.val < 256 := lt_of_lt_of_eq t.isLt (show cfg1.N = 256 from N_1)
  by_cases h1 : t.val % 16 = 15
  · have h0 : ¬t.val % 16 = 0 := by omega
    have hz : t.val ≠ 0 := by omega
    rw [show (dat1 V c).leavesExact 4 t = owns (c : Thread nD τ) (ms1_4 t) fullShare ((dat1 V c).after 4 t) from by
      unfold Dat.leavesExact; rw [liveAt1_4 t ((hcond1_1 t).mpr h1)], after1_4]
    rw [acc1_next V c t h0]; unfold rs1
    rw [PhiS1_castSucc V c t, PhiS1_pos V c _ _ hz]
    iintro ⟨⟨⟨R1, R2, R3, R4, R5, R6, R7, HS0⟩, Hg⟩, Ho, ⟨%d0, H0⟩, ⟨%d1, H1⟩, ⟨%d2, H2⟩, ⟨%d3, H3⟩, ⟨%d4, H4⟩⟩
    iapply (run1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (acc1 V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, H4, HS0⟩
    isplitl [R1 R2 R3 R4 R5 R6 R7 HS0 Hg]
    · isplitl [R1 R2 R3 R4 R5 R6 R7 HS0]
      · isplitl [R1]; · iexact R1
        isplitl [R2]; · iexact R2
        isplitl [R3]; · iexact R3
        isplitl [R4]; · iexact R4
        isplitl [R5]; · iexact R5
        isplitl [R6]; · iexact R6
        isplitl [R7]; · iexact R7
        iexact HS0
      iexact Hg
    isplitl [Ho]; · iexact Ho
    isplitl [H0]; · iexact H0
    isplitl [H1]; · iexact H1
    isplitl [H2]; · iexact H2
    isplitl [H3]; · iexact H3
    iexact H4
  · rw [Dat.leavesExact_idle (dat1 V c) 4 t (idleAt1_4 t (fun h => h1 ((hcond1_1 t).mp h))) (noFlush1_4 t (fun h => h1 ((hcond1_1 t).mp h)))]
    by_cases h0 : t.val % 16 = 0
    · rw [acc1_first V c t h0]; unfold rs1
      by_cases hz : t.val = 0
      · rw [PhiS1_castSucc V c t, PhiS1_zero V c _ _ hz, PhiA1_eq]
        iintro ⟨⟨⟨R1, R2, R3, R4, R5, R6, R7, HS0⟩, Hg⟩, Ho, ⟨%d0, H0⟩, ⟨%d1, H1⟩, ⟨%d2, H2⟩, ⟨%d3, H3⟩, ⟨%d4, H4⟩⟩
        iapply (run1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t) (iblk1 V c 2 t) (iblk1 V c 3 t) ((dat1 V c).before 4 t d4) Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, HS0⟩
        isplitl [R1 R2 R3 R4 R5 R6 R7 HS0 Hg]
        · isplitl [R1 R2 R3 R4 R5 R6 R7 HS0]
          · isplitl [R1]; · iexact R1
            isplitl [R2]; · iexact R2
            isplitl [R3]; · iexact R3
            isplitl [R4]; · iexact R4
            isplitl [R5]; · iexact R5
            isplitl [R6]; · iexact R6
            isplitl [R7]; · iexact R7
            iexact HS0
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨R1, R2, R3, R4, R5, R6, R7, HS0⟩, Hg⟩, Ho, ⟨%d0, H0⟩, ⟨%d1, H1⟩, ⟨%d2, H2⟩, ⟨%d3, H3⟩, ⟨%d4, H4⟩⟩
        iapply (run1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t) (iblk1 V c 2 t) (iblk1 V c 3 t) ((dat1 V c).before 4 t d4) Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, HS0⟩
        isplitl [R1 R2 R3 R4 R5 R6 R7 HS0 Hg]
        · isplitl [R1 R2 R3 R4 R5 R6 R7 HS0]
          · isplitl [R1]; · iexact R1
            isplitl [R2]; · iexact R2
            isplitl [R3]; · iexact R3
            isplitl [R4]; · iexact R4
            isplitl [R5]; · iexact R5
            isplitl [R6]; · iexact R6
            isplitl [R7]; · iexact R7
            iexact HS0
          iexact Hg
        isplitl [Ho]; · iexact Ho
        isplitl [H0]; · iexact H0
        isplitl [H1]; · iexact H1
        isplitl [H2]; · iexact H2
        isplitl [H3]; · iexact H3
        iexists _; iexact H4
    · have hz : t.val ≠ 0 := fun h => h0 (by rw [h])
      rw [acc1_next V c t h0]; unfold rs1
      rw [PhiS1_castSucc V c t, PhiS1_pos V c _ _ hz]
      iintro ⟨⟨⟨R1, R2, R3, R4, R5, R6, R7, HS0⟩, Hg⟩, Ho, ⟨%d0, H0⟩, ⟨%d1, H1⟩, ⟨%d2, H2⟩, ⟨%d3, H3⟩, ⟨%d4, H4⟩⟩
      iapply (run1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (iblk1 V c 2 t) (iblk1 V c 3 t) ((dat1 V c).before 4 t d4) (acc1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      isplitl [R1 R2 R3 R4 R5 R6 R7 HS0 Hg]
      · isplitl [R1 R2 R3 R4 R5 R6 R7 HS0]
        · isplitl [R1]; · iexact R1
          isplitl [R2]; · iexact R2
          isplitl [R3]; · iexact R3
          isplitl [R4]; · iexact R4
          isplitl [R5]; · iexact R5
          isplitl [R6]; · iexact R6
          isplitl [R7]; · iexact R7
          iexact HS0
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 (F := F) V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch's named contents are forgotten. -/
theorem Phi_out1 (c : Dev nD) (t : Fin (cfg1.N + 1)) (ht : t.val ≠ 0) : (dat1 (F := F) V c).Φ t ⊢ Pipeline.ΦA spec1 c := by
  rw [show (dat1 V c).Φ t = PhiS1 V c t.val (Nat.le_of_lt_succ t.isLt) from rfl, PhiS1_pos V c _ _ ht, PhiA1_eq]
  iintro ⟨⟨R1, R2, R3, R4, R5, R6, R7, HS0⟩, Hg⟩
  isplitl [R1 R2 R3 R4 R5 R6 R7 HS0]
  · isplitl [R1]; · iexact R1
    isplitl [R2]; · iexact R2
    isplitl [R3]; · iexact R3
    isplitl [R4]; · iexact R4
    isplitl [R5]; · iexact R5
    isplitl [R6]; · iexact R6
    isplitl [R7]; · iexact R7
    iexists _; iexact HS0
  iexact Hg

/-- The same after the last point. -/
theorem hout1 (c : Dev nD) : (dat1 (F := F) V c).Φ (Fin.last cfg1.N) ⊢ Pipeline.ΦA spec1 c :=
  Phi_out1 V c _ (by rw [Fin.val_last]; have : cfg1.N = 256 := N_1; omega)

end Cert.KernelIdeal.H

end
-- ==== Proof.KI.R1Arrays.lean ====
/-
  Region 1 (the pair term) reads the feature array through two windows. The core's unscoped buffers hold that array
  once, at the full share; the region's proof data holds it twice, each window at one half of the share. This module
  passes between the two forms: at the region's entry the full share splits into its halves, at its exit the halves,
  both at the same contents, add back to the full share; the other three arrays are one buffer per window throughout.
-/
import proofs.«417645_j74594991997728_1_alg».proof.Proof.Gen.KernelIdeal.Launch
import proofs.«417645_j74594991997728_1_alg».proof.Proof.Gen.KernelIdeal.Skeleton
import proofs.«417645_j74594991997728_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«417645_j74594991997728_1_alg».proof.Proof.KI.R1Data

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The buffers behind the five windows, and the share each window holds its array at -/

/-- The five windows' arrays are four distinct buffers: the two feature windows read one array. -/
theorem img1 : (Finset.univ.image (Pipeline.arrRef spec1) : Finset (Ref sig .tc)) = {main_arg0, main_v0, main_v1, main_v21} := by
  decide

/-- A product over those four buffers, written out one by one. -/
theorem bigSep_arr1 {M : Type} [URA M] (Φ : Ref sig .tc → sProp M) :
    bigSep (Finset.univ.image (Pipeline.arrRef spec1)) Φ = iprop(Φ main_arg0 ∗ Φ main_v0 ∗ Φ main_v1 ∗ Φ main_v21) :=
  bigSep_eq_bigSepL_of_eq [main_arg0, main_v0, main_v1, main_v21] (by decide) (by decide) Φ

/-- The first feature window holds the feature array at the left half of the full share, -/
theorem share1_0 (c : Dev nD) : (dat1 V c).share 0 = fullShare.left := by
  unfold Pipeline.Dat.share; exact (if_neg (by decide)).trans (by dsimp only [dat1])
/-- the second at the right half; -/
theorem share1_1 (c : Dev nD) : (dat1 V c).share 1 = fullShare.right := by
  unfold Pipeline.Dat.share; exact (if_neg (by decide)).trans (by dsimp only [dat1])
/-- the two label windows and the output window hold theirs at the full share. -/
theorem share1_2 (c : Dev nD) : (dat1 V c).share 2 = fullShare := by
  unfold Pipeline.Dat.share; exact (if_neg (by decide)).trans (by dsimp only [dat1])
theorem share1_3 (c : Dev nD) : (dat1 V c).share 3 = fullShare := by
  unfold Pipeline.Dat.share; exact (if_neg (by decide)).trans (by dsimp only [dat1])
theorem share1_4 (c : Dev nD) : (dat1 V c).share 4 = fullShare := by
  unfold Pipeline.Dat.share; exact if_pos (by decide)

/-! ## The four buffers at the full share are the five windows' arrays -/

/-- The four buffers behind the windows, each whole at the full share at contents `V'`, are the five windows' arrays
    at contents `G` that read `V'` at each window's buffer: the feature array's full share is the sum of its left
    and right halves, one per feature window, both halves at the same contents; the other three arrays are held by
    one window each at the full share; every array is its whole buffer. -/
theorem arrays1_iff (c : Dev nD) (V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w)) :
    (Pipeline.arrBufs spec1 c V' : sProp 𝕄) ⊣⊢ (dat1 V c).arrays G := by
  unfold Pipeline.arrBufs Pipeline.Dat.arrays
  rw [bigSep_arr1, bigSep_W1, share1_0, share1_1, share1_2, share1_3, share1_4, hG 0, hG 1, hG 2, hG 3, hG 4,
    (arr_whole1 0).set_eq_univ, (arr_whole1 2).set_eq_univ, (arr_whole1 3).set_eq_univ,
    (arr_whole1 4).set_eq_univ]
  constructor
  · iintro ⟨Ha, H0, H1, H21⟩
    ihave Hs := (pointsTo_share (PosShare.mem_left_op_right fullShare)).1 $$ Ha
    icases Hs with ⟨Hl, Hr⟩
    isplitl [Hl]; · iexact Hl
    isplitl [Hr]; · iexact Hr
    isplitl [H0]; · iexact H0
    isplitl [H1]; · iexact H1
    iexact H21
  · iintro ⟨Hl, Hr, H0, H1, H21⟩
    isplitl [Hl Hr]
    · iapply (pointsTo_share (PosShare.mem_left_op_right fullShare)).2
      isplitl [Hl]; · iexact Hl
      iexact Hr
    isplitl [H0]; · iexact H0
    isplitl [H1]; · iexact H1
    iexact H21

/-! ## Entry and exit of the region -/

/-- ENTRY: the core's unscoped buffers at contents `V c` are the region's arrays at the proof data's entry contents
    (those being `V c` read at each window's buffer) and the unscoped rest. -/
theorem arrays1_of_unscopedBufs (c : Dev nD) :
    (unscopedBufs c (V c) : sProp 𝕄)
      ⊢ iprop((dat1 V c).arrays ((dat1 V c).arrAt · 0) ∗ Pipeline.unscopedRest spec1 c (V c)) := by
  rw [Pipeline.unscopedBufs_split₀ cfgs 1 winFacts₀1.arr_unscoped c (V c)]
  exact sep_mono (arrays1_iff V c (V c) _ fun w => A_eq1 V c w).1 .rfl

/-- EXIT: the region's arrays at their contents after the last point and the unscoped rest at `V c` are the core's
    unscoped buffers at any contents `V'` that has each window's array at those contents and agrees with `V c` off
    the windows' buffers; the two halves of the feature array's share are both at `V'` of that array, so they add
    back to the full share. -/
theorem unscopedBufs_of_arrays1 (c : Dev nD) (V' : (b : Ref sig .tc) → Buf (Elt F) ((c : Thread nD τ).loc b))
    (hF : ∀ w, (dat1 V c).arrAt w cfg1.N = V' (Pipeline.arrRef spec1 w))
    (hrest : ∀ b, b ∉ Finset.univ.image (Pipeline.arrRef spec1) → V' b = V c b) :
    iprop((dat1 V c).arrays ((dat1 V c).arrAt · cfg1.N) ∗ Pipeline.unscopedRest spec1 c (V c))
      ⊢ (unscopedBufs c V' : sProp 𝕄) := by
  rw [Pipeline.unscopedBufs_split₀ cfgs 1 winFacts₀1.arr_unscoped c V']
  refine sep_mono (arrays1_iff V c V' _ hF).2 (Entails.of_eq ?_)
  unfold Pipeline.unscopedRest
  exact bigSep_congr fun b hb => by rw [hrest b (Finset.mem_sdiff.mp hb).2]

end Cert.KernelIdeal.H

end
-- ==== Proof.KI.Regs.lean ====
/-
  The two kernel regions of the program as segment records over the thread state "every unscoped buffer whole at the
  boundary's contents, beside the generator register at some state and nothing owed", the contents the two regions
  leave in their output arrays, every pipeline's proof data at its region's entry contents, the launch's algebra, and
  the frame claim from them.
-/
import proofs.«417645_j74594991997728_1_alg».proof.Proof.Gen.KernelIdeal.Regions
import proofs.«417645_j74594991997728_1_alg».proof.Proof.Gen.KernelIdeal.Launch
import proofs.«417645_j74594991997728_1_alg».proof.Proof.Gen.KernelIdeal.Skeleton
import proofs.«417645_j74594991997728_1_alg».proof.Proof.Gen.KernelIdeal.Points
import proofs.«417645_j74594991997728_1_alg».proof.Proof.KI.R0Data
import proofs.«417645_j74594991997728_1_alg».proof.Proof.KI.R0Body
import proofs.«417645_j74594991997728_1_alg».proof.Proof.KI.R1Data
import proofs.«417645_j74594991997728_1_alg».proof.Proof.KI.R1Body
import proofs.«417645_j74594991997728_1_alg».proof.Proof.KI.R1Arrays
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.H

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents the regions leave, and the buffers at each region's entry and exit -/

/-- The core's buffers when region 0 is entered: the launch contents after the four host stretches. -/
abbrev Vin0 : (c : Dev nD) → (b : Ref sig .tc) → Buf (Elt F) ((c : Thread nD τ).loc b) := fun c b => Gen.V4 m c b

/-- What region 0 leaves in its output array: the write-backs of all its points folded over the entry contents. -/
def out18 (c : Dev nD) : Buf (Elt F) ((c : Thread nD τ).loc main_v18) := (dat0 (Vin0 m) c).arrAt 3 cfg0.N

/-- The contents the regions leave, knowing region 0's output only: its output array after region 0, any other
    reference at what it held before. -/
def outsA : Gen.Outs (F := F) := fun _ r c =>
  if h : r = main_v18 then h ▸ out18 m c else Gen.V4 m c r

/-- The core's buffers when region 1 is entered: region 0's output in place, then the host stretch between the regions. -/
abbrev Vin1 : (c : Dev nD) → (b : Ref sig .tc) → Buf (Elt F) ((c : Thread nD τ).loc b) := fun c b => Gen.V6 m (outsA m) c b

/-- What region 1 leaves in its output array. -/
def out21 (c : Dev nD) : Buf (Elt F) ((c : Thread nD τ).loc main_v21) := (dat1 (Vin1 m) c).arrAt 4 cfg1.N

/-- The contents the regions leave: region 0's output array after region 0, region 1's after region 1. -/
def outs : Gen.Outs (F := F) := fun _ r c =>
  if h : r = main_v18 then h ▸ out18 m c else if h' : r = main_v21 then h' ▸ out21 m c else Gen.V4 m c r

theorem outs5 (c : Dev nD) : outs m 5 main_v18 c = (dat0 (Vin0 m) c).arrAt 3 cfg0.N := by
  unfold outs; rw [dif_pos rfl]; rfl

theorem outs7 (c : Dev nD) : outs m 7 main_v21 c = (dat1 (Vin1 m) c).arrAt 4 cfg1.N := by
  unfold outs; rw [dif_neg (by decide), dif_pos rfl]; rfl

theorem outsA5 (c : Dev nD) : outsA m 5 main_v18 c = (dat0 (Vin0 m) c).arrAt 3 cfg0.N := by
  unfold outsA; rw [dif_pos rfl]; rfl

/-- The buffers at region 1's entry read region 0's output only: either family of contents gives them. -/
theorem V6_outs (c : Dev nD) : Gen.V6 m (outs m) c = Gen.V6 m (outsA m) c := by
  show StableHlo.after hostOps1 (Function.update (Gen.V4 m c) main_v18 (outs m 5 main_v18 c))
    = StableHlo.after hostOps1 (Function.update (Gen.V4 m c) main_v18 (outsA m 5 main_v18 c))
  rw [outs5, outsA5]

/-- The core's buffers when region 0 is left, -/
abbrev Vout0 : (c : Dev nD) → (b : Ref sig .tc) → Buf (Elt F) ((c : Thread nD τ).loc b) := fun c b => Gen.V5 m (outs m) c b
/-- and when region 1 is left. -/
abbrev Vout1 : (c : Dev nD) → (b : Ref sig .tc) → Buf (Elt F) ((c : Thread nD τ).loc b) := fun c b => Gen.V7 m (outs m) c b

/-- At region 0's exit each of its arrays holds what the pipeline leaves: an input as entered (never written), the
    output the fold of its write-backs. -/
theorem hF0 (c : Dev nD) : ∀ w : Fin cfg0.W, (dat0 (Vin0 m) c).arrAt w cfg0.N = Vout0 m c (Pipeline.arrRef spec0 w)
  | 0 => ((dat0 (Vin0 m) c).arrAt_in 0 rfl _).trans ((A_eq0 (Vin0 m) c 0).trans (Gen.V5_of m (outs m) c main_arg0 (by decide)).symm)
  | 1 => ((dat0 (Vin0 m) c).arrAt_in 1 rfl _).trans ((A_eq0 (Vin0 m) c 1).trans (Gen.V5_of m (outs m) c main_v0 (by decide)).symm)
  | 2 => ((dat0 (Vin0 m) c).arrAt_in 2 rfl _).trans ((A_eq0 (Vin0 m) c 2).trans (Gen.V5_of m (outs m) c main_v17 (by decide)).symm)
  | 3 => (outs5 m c).symm.trans (Function.update_self (β := fun b : DevRef τ sig => Buf (Elt F) (c, b)) (Proc.devRef .tc main_v18) _ (Gen.V4 m c)).symm
  | ⟨_ + 4, h⟩ => absurd h (Nat.not_lt.2 (Nat.le_add_left _ _))

/-- Every other buffer holds at region 0's exit what it held at entry. -/
theorem hrest0 (c : Dev nD) : ∀ b, b ∉ Finset.univ.image (Pipeline.arrRef spec0) → Vout0 m c b = Vin0 m c b :=
  fun b hb => Gen.V5_of m (outs m) c b fun hm => hb (by
    rw [List.mem_singleton] at hm; subst hm
    exact Finset.mem_image.mpr ⟨3, Finset.mem_univ _, rfl⟩)

/-- At region 1's exit each of its arrays holds what the pipeline leaves. -/
theorem hF1 (c : Dev nD) : ∀ w : Fin cfg1.W, (dat1 (Vin1 m) c).arrAt w cfg1.N = Vout1 m c (Pipeline.arrRef spec1 w)
  | 0 => ((dat1 (Vin1 m) c).arrAt_in 0 rfl _).trans ((A_eq1 (Vin1 m) c 0).trans ((congrFun (V6_outs m c) main_arg0).symm.trans (Gen.V7_of m (outs m) c main_arg0 (by decide)).symm))
  | 1 => ((dat1 (Vin1 m) c).arrAt_in 1 rfl _).trans ((A_eq1 (Vin1 m) c 1).trans ((congrFun (V6_outs m c) main_arg0).symm.trans (Gen.V7_of m (outs m) c main_arg0 (by decide)).symm))
  | 2 => ((dat1 (Vin1 m) c).arrAt_in 2 rfl _).trans ((A_eq1 (Vin1 m) c 2).trans ((congrFun (V6_outs m c) main_v0).symm.trans (Gen.V7_of m (outs m) c main_v0 (by decide)).symm))
  | 3 => ((dat1 (Vin1 m) c).arrAt_in 3 rfl _).trans ((A_eq1 (Vin1 m) c 3).trans ((congrFun (V6_outs m c) main_v1).symm.trans (Gen.V7_of m (outs m) c main_v1 (by decide)).symm))
  | 4 => (outs7 m c).symm.trans (Function.update_self (β := fun b : DevRef τ sig => Buf (Elt F) (c, b)) (Proc.devRef .tc main_v21) _ (Gen.V6 m (outs m) c)).symm
  | ⟨_ + 5, h⟩ => absurd h (Nat.not_lt.2 (Nat.le_add_left _ _))

/-- Every other buffer holds at region 1's exit what it held at entry. -/
theorem hrest1 (c : Dev nD) : ∀ b, b ∉ Finset.univ.image (Pipeline.arrRef spec1) → Vout1 m c b = Vin1 m c b :=
  fun b hb => (Gen.V7_of m (outs m) c b fun hm => hb (by
    rw [List.mem_singleton] at hm; subst hm
    exact Finset.mem_image.mpr ⟨4, Finset.mem_univ _, rfl⟩)).trans (congrFun (V6_outs m c) b)

/-! ## The proof data family, the launch's algebra and the thread state -/

/-- Every pipeline's proof data, each at its region's entry contents. -/
def pdats : (p : Fin 2) → (c : Dev nD) → Dat τ (Elt F) Unit ℕ (UR sig nD τ) ℕ (cfgs p) c
  | ⟨0, _⟩ => fun c => dat0 (Vin0 m) c
  | ⟨1, _⟩ => fun c => dat1 (Vin1 m) c

/-- The rounds algebra sits in the model's user component as it is. -/
abbrev EP' : Emb (URounds (GSem nD τ sig) Unit) 𝕄 := emb₁
abbrev ι' : Unit := ()
abbrev 𝒱₀' : Variants := Variants.none
/-- No core owes another anything: no level is assigned. -/
abbrev L' : GSem nD τ sig → Finset Unit := fun _ => ∅
abbrev lv' : GSem nD τ sig → Unit → ℕ := fun _ _ => 0
theorem hL' : ∀ g : GSem nD τ sig, g.1.2 ≠ .tc → L' g = ∅ := fun _ _ => rfl
/-- Nothing is owed at launch, and no ghost resource is dealt. -/
abbrev O₀' : Dev nD → CellTallies nD τ sig Unit := 0
abbrev G' : Dev nD → sProp 𝕄 := fun _ => iprop(emp)
abbrev u₀' : UR sig nD τ := initOf (Pipeline.cells cfgs cellOf_inj) (Pipeline.launchToks cfgs cellOf_inj)

/-- What rides beside the buffers through every segment: the core's generator register at some state (a region's
    invariant takes it in and gives it back) and the core owing nothing. -/
abbrev rest (c : Dev nD) : sProp 𝕄 := iprop((∃ r, prngReg c r) ∗ ∃ W, owes (c : Thread nD τ) (0 : CellTallies nD τ sig Unit) W)
abbrev E' : Fin 3 → Dev nD → sProp 𝕄 := fun _ c => rest c

/-- The launch's element is the rounds' initial element itself; no ghost resource beside it. -/
theorem hu₀' : (ownU u₀' : sProp 𝕄) ⊢ |={Set.univ}=> iprop(BI.own (EP' (F := F) (initOf (Pipeline.cells cfgs cellOf_inj) (Pipeline.launchToks cfgs cellOf_inj))) ∗ bigSep Finset.univ (G' (F := F))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

variable (ρ : Dev nD → PrngReg) in
/-- The launch makes the rest on every core: the generator register it deals at its state, the `owes` it deals at nothing. -/
theorem hE0' : iprop((bigSep Finset.univ fun c : Dev nD => iprop(unscopedSems0 c ∗ owes (c : Thread nD τ) (O₀' c) ∅ ∗ Pipeline.launchCred O₀' c ∗ prngReg c (ρ c) ∗ G' (F := F) c)) ∗ levAts L' lv')
      ⊢ (|={Set.univ}=> bigSep Finset.univ (E' (F := F) 0) : sProp 𝕄) := by
  refine Pipeline.initEach L' lv' fun c => ?_
  iintro ⟨⟨-, HO, -, Hp, -⟩, -⟩
  imodintro
  isplitl [Hp]; · iexists _; iexact Hp
  iexists ∅; iexact HO

theorem hE2' : ∀ c : Dev nD, E' (F := F) 2 c ⊢ (iprop(∃ W, owes (c : Thread nD τ) (0 : CellTallies nD τ sig Unit) W) : sProp 𝕄) := fun c => by
  iintro ⟨-, HO⟩; iexact HO

/-! ## The regions as segments -/

set_option backward.isDefEq.respectTransparency.types false in
/-- REGION 0 over the thread state: entered from every unscoped buffer at the contents after the four host stretches,
    left with its output array at what the pipeline leaves. Its arrays split out of the unscoped buffers and put back at
    the exit contents; the generator register into the invariant and out; nothing owed; no semaphore of its own. -/
def reg0 : Pipeline.RegionSeg (pcfgs (F := F)) Gen.adm (pdats m) ι' defs₀ 𝒱₀' L' lv' 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ L' lv' 0 fun _ _ => rfl
  pre c := iprop(StableHlo.held (c : Thread nD τ) (Pipeline.ucRefs τ sig) (Gen.V4 m c) ∗ rest c)
  post c := iprop(StableHlo.held (c : Thread nD τ) (Pipeline.ucRefs τ sig) (Gen.V5 m (outs m) c) ∗ rest c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (Vin0 m c) (Vout0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the contents after the host stretch between
    the regions, left with its output array at what the pipeline leaves. Two of its windows read one array, each through
    half of the share: the arrays' split out of the unscoped buffers and back is the shared-array one. The invariant
    enters at the class's and leaves at it. -/
def reg1 : Pipeline.RegionSeg (pcfgs (F := F)) Gen.adm (pdats m) ι' defs₀ 𝒱₀' L' lv' 1 where
  win := winFacts₀1
  block_pos := block_pos1
  stage_whole := stage_whole1
  K := PEmpty
  osem k := k.elim
  ho := Pipeline.OwnSemFacts.none _
  hbody c := (body_obligation1 (Vin1 m) c).loose
  hwaits := Pipeline.hwaits_of_owed_zero _ _ _ _ L' lv' 1 fun _ _ => rfl
  pre c := iprop(StableHlo.held (c : Thread nD τ) (Pipeline.ucRefs τ sig) (Gen.V6 m (outs m) c) ∗ rest c)
  post c := iprop(StableHlo.held (c : Thread nD τ) (Pipeline.ucRefs τ sig) (Gen.V7 m (outs m) c) ∗ rest c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none, V6_outs m c]
    have hsplit := arrays1_of_unscopedBufs (Vin1 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vin1 m) c)
    unfold Pipeline.ΦA
    iintro ⟨Hp, -, Hr⟩
    isplitl [Hr]; · iexact Hr
    iexact Hp
  hout c := by
    rw [Pipeline.ownSems0_none]
    refine BIBase.Entails.trans (hout1 (Vin1 m) c) ?_
    unfold Pipeline.ΦA
    iintro ⟨Hr, Hp⟩
    isplitl [Hp]; · iexact Hp
    isplitr; · iempintro
    iexact Hr
  hexit c := by
    have hjoin := unscopedBufs_of_arrays1 (Vin1 m) c (Vout1 m c) (hF1 m c) (hrest1 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The regions' thread states are the frame's -/

theorem hpre0' : ∀ c : Dev nD, iprop(StableHlo.held (c : Thread nD τ) (Pipeline.ucRefs τ sig) (Gen.V4 m c) ∗ E' (F := F) 0 c) ⊢ (reg0 m).pre c := fun _ => .rfl
theorem hpost0' : ∀ c : Dev nD, (reg0 m).post c ⊢ iprop(StableHlo.held (c : Thread nD τ) (Pipeline.ucRefs τ sig) (Gen.V5 m (outs m) c) ∗ E' (F := F) 1 c) := fun _ => .rfl
theorem hpre1' : ∀ c : Dev nD, iprop(StableHlo.held (c : Thread nD τ) (Pipeline.ucRefs τ sig) (Gen.V6 m (outs m) c) ∗ E' (F := F) 1 c) ⊢ (reg1 m).pre c := fun _ => .rfl
theorem hpost1' : ∀ c : Dev nD, (reg1 m).post c ⊢ iprop(StableHlo.held (c : Thread nD τ) (Pipeline.ucRefs τ sig) (Gen.V7 m (outs m) c) ∗ E' (F := F) 2 c) := fun _ => .rfl

/-! ## The frame -/

set_option backward.isDefEq.respectTransparency.types false in
/-- THE FRAME: from any memory with zero counters, every weakly fair execution of the program terminates, nothing
    faulting, and every final memory holds each argument array as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Gen.frame_cond m EP' ι' 𝒱₀' L' lv' hL' ρ (outs m) (pdats m) O₀' G' u₀' hu₀' E' (hE0' ρ) hE2'
    (reg0 m) (hpre0' m) (hpost0' m) (reg1 m) (hpre1' m) (hpost1' m)

/-- info: 'Cert.KernelIdeal.H.frame' depends on axioms: [propext, Classical.choice, Quot.sound] -/
#guard_msgs in #print axioms frame

end Cert.KernelIdeal.H

end
-- ==== Proof.KI.RunValue.lean ====
/-
  The idealized kernel program's run with its result named: every weakly fair execution ends, the arguments unchanged, and
  the result buffer holds what the last host stretch computes from the two regions' output arrays.
-/
import proofs.«417645_j74594991997728_1_alg».proof.Proof.KI.Regs
import proofs.«417645_j74594991997728_1_alg».proof.Proof.KI.RunNamed

noncomputable section

namespace Cert.KernelIdeal.H

open Cert.KernelIdeal Cert.KernelIdeal.Gen
open Idealize.ShloMosaic Idealize.ShloMosaic.TcCoe Idealize.SL.Sem

variable {F : FTy → Type} [FloatOps F]

/-- The run of @main over the two region records, the result read off the last valuation. -/
theorem run_named (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v25) = Gen.V8 m (outs m) c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_cond_named m EP' ι' 𝒱₀' L' lv' hL' ρ (outs m) (pdats m) O₀' G' u₀' hu₀' E' (hE0' ρ) hE2' (reg0 m) (hpre0' m) (hpost0' m) (reg1 m) (hpre1' m) (hpost1' m)

end Cert.KernelIdeal.H

end
-- ==== Proof.KI.Val0Pay.lean ====
/-
  The value the body of region 0 stores, read at a row: the per-sample term of the shared specification.
  The stored [512, 1] column holds, at row p, the squared distance of feature row p to the centre row its label picks,
  divided by exp of their clamped cosine similarity. The centre row is picked by a one-hot product: row p of the
  comparison "lane index = label" (as 0/1 reals) times the padded centre table. Every lane sum is a sum over the
  1024 coordinates; the format changes are the identity on extended reals.
-/
import proofs.«417645_j74594991997728_1_alg».proof.Proof.Gen.KernelIdeal.Skeleton
import proofs.«417645_j74594991997728_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.H

open Cert.KernelIdeal Idealize.ShloMosaic Idealize.ShloMosaic.ValueIdx

/-! ## The layout operations of the body at an index -/

/-- A [512] vector viewed as a [512, 1] column reads, at (p, q), the vector at p. -/
theorem colCast_apply {α : Type} (v : S512.Idx → α) (h : S512.ShapeCasts S512x1) (p : Fin 512) (q : Fin 1) :
    shapeCast S512x1 v h (ix2 p q) = v (ix1 p) :=
  shapeCast_apply v h _ _ (by
    have hq : q.val = 0 := by omega
    rw [Shape.rowMajor_val_one, Shape.rowMajor_val_two]
    show p.val = p.val * 1 + q.val
    rw [hq, Nat.mul_one, Nat.add_zero])

/-- A [512, 1] column broadcast along the lanes reads, at (p, k), the column at (p, 0). -/
theorem colBcast_apply {α : Type} (v : S512x1.Idx → α) (h : S512x1.Broadcasts S512x1024) (p : Fin 512) (k : Fin 1024) :
    broadcastTo S512x1024 v h (ix2 p k) = v (ix2 p (0 : Fin 1)) := by
  refine broadcastTo_apply v h (ix2 p k) (ix2 p (0 : Fin 1)) fun ax => ?_
  match ax with
  | ⟨0, _⟩ => rfl
  | ⟨1, _⟩ => rfl

/-- The lane index: the iota along axis 1 reads, at (p, k), the word of k. -/
theorem laneIota_apply (h : S512x1024.Iotas .tc 32 [1]) (p : Fin 512) (k : Fin 1024) :
    iota .tc S512x1024 32 [1] h (ix2 p k) = BitVec.ofNat 32 k.val :=
  iota_single_apply .tc S512x1024 32 1 h (ix2 p k)

/-- A lane sum of a [512, 1024] vector reads, at row p, the sum over the row's 1024 coordinates. -/
theorem rowSum_apply (src : FVec Ideal S512x1024 .f32) (h : S512x1024.Reduces [1] S512) (hφ : FKind.Formats .f32)
    (hacc : (0x00000000#32 : BitVec 32) = 0x00000000#32) (p : Fin 512) :
    multiReduction (F := Ideal) .add [1] S512 src 0x00000000#32 h hφ hacc (ix1 p) = ∑ d : Fin 1024, src (ix2 p d) := by
  refine (Ideal.multiReduction_add_single src 0x00000000#32 h hφ hacc (ix1 p)).trans ?_
  refine Finset.sum_congr rfl fun d _ => congrArg src ?_
  funext a
  match a with
  | ⟨0, _⟩ => rfl
  | ⟨1, _⟩ => rfl

/-- The one-hot factor: the comparison bit of two words, widened and read as a signed integer, is 1 where the words
    agree and 0 where they differ. -/
theorem onehot_word (a b : BitVec 32) :
    (FloatOps.sitofp (F := Ideal) .f32 ((IntOp.cmpi .eq a b).setWidth 32) : EReal) = if a = b then 1 else 0 := by
  show (((((BitVec.ofBool (a == b)).setWidth 32).toInt : ℝ)) : EReal) = _
  have h1 : ((BitVec.ofBool true).setWidth 32).toInt = 1 := by decide
  have h0 : ((BitVec.ofBool false).setWidth 32).toInt = 0 := by decide
  by_cases hab : a = b
  · rw [if_pos hab, beq_iff_eq.mpr hab, h1]; simp
  · rw [if_neg hab, beq_eq_false_iff_ne.mpr hab, h0]; simp

/-! ## The one-hot product

The body's matrix product contracts axis 1 of the one-hot matrix with axis 0 of the table, into a zero accumulator:
at (p, d) it is the sum over the 1024 table rows k of the left factor at (p, k) times the table at (k, d). -/

theorem lhs_pick_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_pick_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_pick_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_pick_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product into the zero accumulator, at (p, d): the sum over the contracted coordinate. -/
theorem matmul_pick_apply (L : FVec Ideal S512x1024 .bf16) (R : FVec Ideal S1024x1024 .bf16) (p : Fin 512) (d : Fin 1024) :
    matmul (F := Ideal) dot_S512x1024_S1024x1024_S512x1024_1_0_0_1_n_n none L R (constant (F := Ideal) S512x1024 .f32 0x00000000#32) (ix2 p d)
      = ∑ k : Fin 1024, L (ix2 p k) * R (ix2 k d) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p d) ((contrEquiv1 dot_S512x1024_S1024x1024_S512x1024_1_0_0_1_n_n 1024 rfl rfl).symm k) = ix2 p k := funext fun a => Fin.ext (by
    match a with
    | ⟨0, _⟩ => exact lhs_pick_0 _ _
    | ⟨1, _⟩ => exact (lhs_pick_1 _ _).trans hk)
  have er : dot_S512x1024_S1024x1024_S512x1024_1_0_0_1_n_n.rhsIdx (ix2 p d) ((contrEquiv1 dot_S512x1024_S1024x1024_S512x1024_1_0_0_1_n_n 1024 rfl rfl).symm k) = ix2 k d := funext fun a => Fin.ext (by
    match a with
    | ⟨0, _⟩ => exact (rhs_pick_0 _ _).trans hk
    | ⟨1, _⟩ => exact rhs_pick_1 _ _)
  rw [el, er]

/-- The one-hot matrix (lane index compared with the row's label, as 0/1 reals) times the table, at (p, d): coordinate
    d of the centre row the label of row p picks. -/
theorem picked_apply (x1 : Vec Ideal S512x1 .i32) (x3 : Vec Ideal S1024x1024 .f32)
    (h1 : S512x1.ShapeCasts S512x1) (h3 : S1024x1024.ShapeCasts S1024x1024) (hi : S512x1024.Iotas .tc 32 [1])
    (hb : S512x1.Broadcasts S512x1024) (hn : 1 < 32) (hbits : FTy.bits .bf16 < FTy.bits .f32) (p : Fin 512) (d : Fin 1024) :
    matmul (F := Ideal) dot_S512x1024_S1024x1024_S512x1024_1_0_0_1_n_n none
        (truncf .bf16 (sitofp .f32 (extui 32 (cmpi .eq (iota .tc S512x1024 32 [1] hi) (broadcastTo S512x1024 (shapeCast S512x1 x1 h1) hb)) hn)) hbits)
        (truncf .bf16 (shapeCast S1024x1024 x3 h3) hbits) (constant (F := Ideal) S512x1024 .f32 0x00000000#32) (ix2 p d)
      = Cert.Spec.pick (x1 (ix2 p (0 : Fin 1))) x3 d := by
  refine (matmul_pick_apply _ _ p d).trans ?_
  unfold Cert.Spec.pick
  refine Finset.sum_congr rfl fun k _ => ?_
  rw [shapeCast_self, shapeCast_self]
  show FloatOps.sitofp (F := Ideal) .f32 ((IntOp.cmpi .eq (iota .tc S512x1024 32 [1] hi (ix2 p k)) (broadcastTo S512x1024 x1 hb (ix2 p k))).setWidth 32) * x3 (ix2 k d) = _
  rw [laneIota_apply, colBcast_apply, onehot_word]

/-! ## The decayed squared distance of a row -/

/-- A square root at an index is the square root of the element … -/
theorem vsqrt_apply {s : Shape} {φ : FTy} (a : FVec Ideal s φ) (i : s.Idx) : sqrt a i = Ideal.sqrt (a i) := rfl
/-- … and an exponential the exponential of the element. -/
theorem vexp_apply {s : Shape} {φ : FTy} (a : FVec Ideal s φ) (i : s.Idx) : exp a i = Ideal.exp (a i) := rfl

/-- The body's arithmetic after the product, over any matrix M in the product's place, at row p: the squared distance
    of row p of x0 to row p of M divided by exp of their clamped cosine similarity. -/
theorem decay_apply (x0 M : FVec Ideal S512x1024 .f32) (hr : S512x1024.Reduces [1] S512) (hφ : FKind.Formats .f32)
    (hacc : (0x00000000#32 : BitVec 32) = 0x00000000#32) (hc : S512.ShapeCasts S512x1) (p : Fin 512) :
    divf (shapeCast S512x1 (multiReduction (F := Ideal) .add [1] S512 (mulf (subf x0 M) (subf x0 M)) 0x00000000#32 hr hφ hacc) hc)
      (exp (mulf (broadcast S512x1 (FloatOps.ofBits (F := Ideal) .f32 0x3F800000#32))
        (divf (shapeCast S512x1 (multiReduction (F := Ideal) .add [1] S512 (mulf x0 M) 0x00000000#32 hr hφ hacc) hc)
          (mulf
            (maximumf (sqrt (shapeCast S512x1 (multiReduction (F := Ideal) .add [1] S512 (mulf x0 x0) 0x00000000#32 hr hφ hacc) hc))
              (broadcast S512x1 (FloatOps.ofBits (F := Ideal) .f32 0x322BCC77#32)))
            (maximumf (sqrt (shapeCast S512x1 (multiReduction (F := Ideal) .add [1] S512 (mulf M M) 0x00000000#32 hr hφ hacc) hc))
              (broadcast S512x1 (FloatOps.ofBits (F := Ideal) .f32 0x322BCC77#32)))))))
      (ix2 p (0 : Fin 1))
    = Cert.Spec.intraRow (fun d => x0 (ix2 p d)) (fun d => M (ix2 p d)) := by
  have hsum : ∀ src : FVec Ideal S512x1024 .f32,
      shapeCast S512x1 (multiReduction (F := Ideal) .add [1] S512 src 0x00000000#32 hr hφ hacc) hc (ix2 p (0 : Fin 1))
        = ∑ d : Fin 1024, src (ix2 p d) :=
    fun src => (colCast_apply _ hc p 0).trans (rowSum_apply src hr hφ hacc p)
  simp only [divf_apply, mulf_apply, subf_apply, maximumf_apply, broadcast_apply, vsqrt_apply, vexp_apply, hsum]
  unfold Cert.Spec.intraRow Cert.Spec.nrm Cert.Spec.one Cert.Spec.eps
  rfl

/-! ## The stored value at a row -/

theorem pay0_apply (x0 : Vec Ideal S512x1024 .f32) (x1 : Vec Ideal S512x1 .i32) (x3 : Vec Ideal S1024x1024 .f32) (p : Fin 512) :
    Cert.KernelIdeal.Gen.k0_pay1 (F := Ideal) x0 x1 x3 (ix2 p (0 : Fin 1))
      = Cert.Spec.intraRow (fun d => x0 (ix2 p d)) (Cert.Spec.pick (x1 (ix2 p (0 : Fin 1))) x3) := by
  unfold Cert.KernelIdeal.Gen.k0_pay1
  dsimp only
  refine (decay_apply x0 _ _ _ _ _ p).trans ?_
  refine congrArg (Cert.Spec.intraRow fun d => x0 (ix2 p d)) ?_
  funext d
  exact picked_apply x1 x3 _ _ _ _ _ _ p d

end Cert.KernelIdeal.H

end
-- ==== Proof.KI.Val0.lean ====
/-
  What region 0 leaves in its output array, row by row. The region's 16 points each write one block of 512 rows of the
  [8192, 1] array: the stored column of the point's three input blocks. Block t of the features and of the labels is rows
  512 t … 512 t + 511 of its array, the centre table's block is the whole table, and the output's block t is rows
  512 t … 512 t + 511 of the output. So every point writes its block of ONE function of the row — the per-sample term
  of the shared specification at that row's features and label — and the 16 blocks cover the 8192 rows.
-/
import proofs.«417645_j74594991997728_1_alg».proof.Proof.KI.R0Data
import proofs.«417645_j74594991997728_1_alg».proof.Proof.KI.Val0Pay
import Idealize.ShloMosaic.Lib.Pipeline.Value

noncomputable section

open scoped BigOperators

namespace Cert.KernelIdeal.H

open Cert.KernelIdeal Cert.KernelIdeal.Gen
open Idealize.ShloMosaic Idealize.ShloMosaic.TcCoe Idealize.ShloMosaic.ValueIdx Idealize.SL.Sem
open Idealize.ShloMosaic.Pipeline (Dat)

/-! ## One row of one block -/

/-- The per-sample term as one function of the output array's index: at row r, of feature row r and of the centre row
    the label of row r picks out of the table. -/
def rowTerm (A : S8192x1024.Idx → EReal) (Lb : S8192x1.Idx → BitVec 32) (T : S1024x1024.Idx → EReal) : S8192x1.Idx → EReal :=
  fun i => Cert.Spec.intraRow (Cert.Spec.featRow A (i 0)) (Cert.Spec.pick (Lb i) T)

/-- A point's stored column at a block row is the per-sample term at the array row under it: when the features block
    and the labels block are rows 512 n … of their arrays and the table block is the table. -/
theorem block_point (A : S8192x1024.Idx → EReal) (Lb : S8192x1.Idx → BitVec 32) (T : S1024x1024.Idx → EReal)
    (x0 : Vec Ideal S512x1024 .f32) (x1 : Vec Ideal S512x1 .i32) (x3 : Vec Ideal S1024x1024 .f32) (n : Nat)
    (h0 : ∀ (j : S512x1024.Idx) (k : S8192x1024.Idx), (k 0).val = n * 512 + (j 0).val → (k 1).val = (j 1).val → x0 j = A k)
    (h1 : ∀ (j : S512x1.Idx) (k : S8192x1.Idx), (k 0).val = n * 512 + (j 0).val → (k 1).val = (j 1).val → x1 j = Lb k)
    (h3 : ∀ j : S1024x1024.Idx, x3 j = T j)
    (y : S512x1.Idx) (i : S8192x1.Idx) (hi : (i 0).val = n * 512 + (y 0).val) :
    k0_pay1 (F := Ideal) x0 x1 x3 y = rowTerm A Lb T i := by
  obtain ⟨p, q, rfl⟩ : ∃ (p : Fin 512) (q : Fin 1), y = ix2 p q := ⟨y 0, y 1, eq_ix2 y⟩
  obtain rfl : q = 0 := Subsingleton.elim q 0
  obtain ⟨r, s, rfl⟩ : ∃ (r : Fin 8192) (s : Fin 1), i = ix2 r s := ⟨i 0, i 1, eq_ix2 i⟩
  obtain rfl : s = 0 := Subsingleton.elim s 0
  have hr : r.val = n * 512 + p.val := hi
  refine (pay0_apply x0 x1 x3 p).trans ?_
  have f0 : (fun d => x0 (ix2 p d)) = Cert.Spec.featRow A r := funext fun d => h0 (ix2 p d) (ix2 r d) hr rfl
  have f1 : x1 (ix2 p (0 : Fin 1)) = Lb (ix2 r (0 : Fin 1)) := h1 (ix2 p 0) (ix2 r 0) hr rfl
  have f3 : x3 = T := funext h3
  rw [f0, f1, f3]
  rfl

/-! ## The blocks of region 0 -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the features, labels and output blocks move with the point along the rows,
    the table's block stays. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT t WRITES BACK is block t of the per-sample term of the arrays as the region finds them. -/
theorem flushed0_eq (c : Dev nD) (t : Fin cfg0.N) :
    (dat0 (F := Ideal) V c).flushed 3 t
      = ((cfg0.win 3).blk t).view.read (Elt Ideal) (rowTerm (V c main_arg0) (V c main_v0) (V c main_v17)) := by
  show (cfg0.win 3).cut (grid0.coords t) ((dat0 V c).after 3 t) = _
  rw [after0_3]
  unfold out0_3
  rw [View.canon_unit_zero hz]
  simp only [View.ld_unit_zero (S := S512x1024) hz, View.ld_unit_zero (S := S512x1) hz, View.ld_unit_zero (S := S1024x1024) hz]
  obtain ⟨e00, e01, e10, e11, e20, e21, e30, e31⟩ := idx_facts0 t
  funext y
  show k0_pay1 (F := Ideal) (iblk0 V c 0 t) (iblk0 V c 1 t) (iblk0 V c 2 t) y
    = rowTerm (V c main_arg0) (V c main_v0) (V c main_v17) (((cfg0.win 3).blk t).view.emb y)
  refine block_point (V c main_arg0) (V c main_v0) (V c main_v17) _ _ _ t.val ?_ ?_ ?_ y _ ?_
  · intro j k hk0 hk1
    show V c main_arg0 (((cfg0.win 0).blk t).view.emb j) = V c main_arg0 k
    refine congrArg (V c main_arg0) (funext fun a => Fin.ext ?_)
    match a with
    | ⟨0, _⟩ => show win0_0.index t (0 : Fin 2) * 512 + 1 * (j 0).val = (k 0).val; rw [e00, hk0]; omega
    | ⟨1, _⟩ => show win0_0.index t (1 : Fin 2) * 1024 + 1 * (j 1).val = (k 1).val; rw [e01, hk1]; omega
  · intro j k hk0 hk1
    show V c main_v0 (((cfg0.win 1).blk t).view.emb j) = V c main_v0 k
    refine congrArg (V c main_v0) (funext fun a => Fin.ext ?_)
    match a with
    | ⟨0, _⟩ => show win0_1.index t (0 : Fin 2) * 512 + 1 * (j 0).val = (k 0).val; rw [e10, hk0]; omega
    | ⟨1, _⟩ => show win0_1.index t (1 : Fin 2) * 1 + 1 * (j 1).val = (k 1).val; rw [e11, hk1]; omega
  · intro j
    show V c main_v17 (((cfg0.win 2).blk t).view.emb j) = V c main_v17 j
    refine congrArg (V c main_v17) (funext fun a => Fin.ext ?_)
    match a with
    | ⟨0, _⟩ => show win0_2.index t (0 : Fin 2) * 1024 + 1 * (j 0).val = (j 0).val; rw [e20]; omega
    | ⟨1, _⟩ => show win0_2.index t (1 : Fin 2) * 1024 + 1 * (j 1).val = (j 1).val; rw [e21]; omega
  · show win0_3.index t (0 : Fin 2) * 512 + 1 * (y 0).val = t.val * 512 + (y 0).val
    rw [e30]; omega

/-- An index of the output array is in point t's block iff each coordinate is in the block's range on its axis. -/
theorem mem_blk0 (t : Fin cfg0.N) (i : S8192x1.Idx) :
    i ∈ ((cfg0.win 3).blk t).view.set ↔ ∀ a : Fin 2, win0_3.index t a * S512x1.size a ≤ (i a).val ∧ (i a).val < win0_3.index t a * S512x1.size a + S512x1.size a := by
  show i ∈ ((View.whole main_v18).slice (win0_3.rect t)).set ↔ _
  rw [View.set_slice_whole, Rect.mem_set_unit]
  exact Iff.rfl

/-- Row r of the output is in the block of point r / 512: the 16 blocks cover the array. -/
theorem cover0 (i : S8192x1.Idx) : ∃ t : Fin cfg0.N, (cfg0.win 3).flush t = true ∧ i ∈ ((cfg0.win 3).blk t).view.set := by
  have hi0 : (i 0).val < 8192 := (i 0).isLt
  have hi1 : (i 1).val < 1 := (i 1).isLt
  have hN : cfg0.N = 16 := N_0
  obtain ⟨t, ht⟩ : ∃ t : Fin cfg0.N, t.val = (i 0).val / 512 := ⟨⟨(i 0).val / 512, by rw [hN]; omega⟩, rfl⟩
  obtain ⟨-, -, -, -, -, -, e30, e31⟩ := idx_facts0 t
  refine ⟨t, flush0_3 t, ?_⟩
  rw [mem_blk0]
  intro a
  match a with
  | ⟨0, _⟩ => show win0_3.index t (0 : Fin 2) * 512 ≤ (i 0).val ∧ (i 0).val < win0_3.index t (0 : Fin 2) * 512 + 512; rw [e30, ht]; omega
  | ⟨1, _⟩ => show win0_3.index t (1 : Fin 2) * 1 ≤ (i 1).val ∧ (i 1).val < win0_3.index t (1 : Fin 2) * 1 + 1; rw [e31]; omega

/-- THE OUTPUT ARRAY after the region: the per-sample term at every row. -/
theorem arr0_eq (c : Dev nD) :
    (dat0 (F := Ideal) V c).arrAt 3 cfg0.N = rowTerm (V c main_arg0) (V c main_v0) (V c main_v17) :=
  (dat0 (F := Ideal) V c).arrAt_eq_of_cover 3 _ (fun t _ => flushed0_eq V c t) cover0

/-- Read at row r. -/
theorem arr0_value (c : Dev nD) (r : Fin 8192) :
    ((dat0 (F := Ideal) V c).arrAt 3 cfg0.N : S8192x1.Idx → EReal) (ix2 r (0 : Fin 1))
      = Cert.Spec.intraRow (Cert.Spec.featRow (V c main_arg0) r)
          (Cert.Spec.pick ((V c main_v0 : S8192x1.Idx → BitVec 32) (ix2 r (0 : Fin 1))) (V c main_v17)) := by
  rw [arr0_eq]
  rfl

end Cert.KernelIdeal.H

end
-- ==== Proof.KI.Val1Pay.lean ====
import proofs.«417645_j74594991997728_1_alg».proof.Proof.Gen.KernelIdeal.Skeleton
import proofs.«417645_j74594991997728_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.H

open Idealize.ShloMosaic Idealize.ShloMosaic.ValueIdx Cert.KernelIdeal Cert.KernelIdeal.Gen

/-! ## Layout operations of the tile, read at coordinates -/

section Layout
variable {α : Type}

/-- A length-`a` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A row sum -/

/-- The sum along axis 1 of a `[512, n]` tile, read at row `p`: the sum of the row's entries. -/
theorem rowSumN_apply {n : ℕ} (src : FVec Ideal ⟨2, ![512, n]⟩ .f32) (h : Shape.Reduces ⟨2, ![512, n]⟩ [1] ⟨1, ![512]⟩)
    (hφ : FKind.Formats .f32) (hacc : (0x00000000#32 : BitVec 32) = FKind.add.neutral .f32 hφ) (p : Fin 512) :
    multiReduction (F := Ideal) .add [1] ⟨1, ![512]⟩ src 0x00000000#32 h hφ hacc (ix1 p) = ∑ k : Fin n, src (ix2 p k) := by
  refine (Ideal.multiReduction_add_single src _ h hφ hacc (ix1 p)).trans ?_
  refine Finset.sum_congr rfl fun k _ => congrArg src ?_
  funext a
  match a with
  | ⟨0, _⟩ => rfl
  | ⟨1, _⟩ => rfl

/-! ## The product of the two normalized blocks -/

theorem lhs_sim_0 (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
theorem lhs_sim_1 (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q
theorem rhs_sim_0 (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
theorem rhs_sim_1 (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q

/-- The product of two `[512, 1024]` blocks, both contracted along their axis 1, into the zero accumulator: at `(p, q)` the
    inner product of row `p` of the left block with row `q` of the right block. -/
theorem sim_apply {φ₁ φ₂ : FTy} (l : FVec Ideal S512x1024 φ₁) (r : FVec Ideal S512x1024 φ₂) (p q : Fin 512) :
    matmul dot_S512x1024_S512x1024_S512x512_1_1_0_0_n_n none l r (constant (F := Ideal) S512x512 .f32 0x00000000#32) (ix2 p q)
      = ∑ k : Fin 1024, l (ix2 p k) * r (ix2 q k) := by
  simp only [matmul]
  rw [Ideal.matmul_constant_zero_apply, ← Equiv.sum_comp (ValueIdx.contrEquiv1 dot_S512x1024_S512x1024_S512x512_1_1_0_0_n_n 1024 rfl rfl).symm]
  refine Finset.sum_congr rfl fun k _ => ?_
  have hk := ValueIdx.contrEquiv1_symm_val dot_S512x1024_S512x1024_S512x512_1_1_0_0_n_n 1024 rfl rfl k
  have el : dot_S512x1024_S512x1024_S512x512_1_1_0_0_n_n.lhsIdx (ix2 p q) ((ValueIdx.contrEquiv1 dot_S512x1024_S512x1024_S512x512_1_1_0_0_n_n 1024 rfl rfl).symm k) = ix2 p k := funext fun a => Fin.ext (by
    match a with
    | ⟨0, _⟩ => exact lhs_sim_0 _ _
    | ⟨1, _⟩ => exact (lhs_sim_1 _ _).trans hk)
  have er : dot_S512x1024_S512x1024_S512x512_1_1_0_0_n_n.rhsIdx (ix2 p q) ((ValueIdx.contrEquiv1 dot_S512x1024_S512x1024_S512x512_1_1_0_0_n_n 1024 rfl rfl).symm k) = ix2 q k := funext fun a => Fin.ext (by
    match a with
    | ⟨0, _⟩ => exact rhs_sim_0 _ _
    | ⟨1, _⟩ => exact (rhs_sim_1 _ _).trans hk)
  rw [el, er]

/-! ## The two blocks' rows, normalized -/

/-- The clamped Euclidean norms of a block's 512 rows, as a column: the root of each row's sum of squares, raised to at
    least `eps`. -/
def normCol (x : FVec Ideal S512x1024 .f32) : FVec Ideal S512x1 .f32 :=
  maximumf
    (sqrt (shapeCast S512x1 (multiReduction (F := Ideal) .add [1] S512 (mulf x x) 0x00000000#32 reduces_S512x1024_S512 (.inl rfl) rfl)
      shapeCasts_S512_S512x1))
    (broadcast S512x1 (Scalar.ofBits (F := Ideal) .f32 0x322BCC77#32))

/-- Entry `p` of that column is the specification's clamped norm of row `p`. -/
theorem normCol_apply (x : FVec Ideal S512x1024 .f32) (p : Fin 512) (u : Fin 1) :
    normCol x (ix2 p u) = Cert.Spec.nrm (fun d => x (ix2 p d)) := by
  exact congrArg (fun s => max (Ideal.sqrt s) Cert.Spec.eps)
    ((shapeCast_a_a1_apply _ shapeCasts_S512_S512x1 p u).trans (rowSumN_apply (mulf x x) _ _ _ p))

/-- A block with every row divided, entry by entry, by its clamped norm (the narrower format it is then written in is, over
    the extended reals, the same number). -/
def unitRows (x : FVec Ideal S512x1024 .f32) : FVec Ideal S512x1024 .bf16 :=
  truncf .bf16 (divf x (broadcastTo S512x1024 (normCol x) broadcasts_S512x1_S512x1024)) bitsLt_bf16_f32

theorem unitRows_apply (x : FVec Ideal S512x1024 .f32) (p : Fin 512) (k : Fin 1024) :
    unitRows x (ix2 p k) = Ideal.div (x (ix2 p k)) (Cert.Spec.nrm (fun d => x (ix2 p d))) := by
  show Ideal.div (x (ix2 p k)) (broadcastTo S512x1024 (normCol x) broadcasts_S512x1_S512x1024 (ix2 p k)) = _
  rw [broadcastTo_a1_ab_apply, normCol_apply]

/-- The product of the two normalized blocks at `(p, q)` is the cosine of row `p` of the first with row `q` of the second. -/
theorem cos_apply (x0 x1 : FVec Ideal S512x1024 .f32) (p q : Fin 512) :
    matmul dot_S512x1024_S512x1024_S512x512_1_1_0_0_n_n none (unitRows x0) (unitRows x1)
        (constant (F := Ideal) S512x512 .f32 0x00000000#32) (ix2 p q)
      = Cert.Spec.cosRow (fun d => x0 (ix2 p d)) (fun d => x1 (ix2 q d)) := by
  refine (sim_apply (unitRows x0) (unitRows x1) p q).trans ?_
  refine Finset.sum_congr rfl fun k _ => ?_
  rw [unitRows_apply, unitRows_apply]

/-! ## The label mask -/

/-- The mask at `(p, q)` compares the column label of row `p` with the row label of column `q`. -/
theorem mask_apply (x2 : IVec S512x1 32) (x3 : IVec S1x512 32) (p q : Fin 512) :
    cmpi .ne (broadcastTo S512x512 (shapeCast S512x1 x2 shapeCasts_S512x1_S512x1) broadcasts_S512x1_S512x512)
        (broadcastTo S512x512 (shapeCast S1x512 x3 shapeCasts_S1x512_S1x512) broadcasts_S1x512_S512x512) (ix2 p q)
      = IntOp.cmpi .ne (x2 (ix2 p (0 : Fin 1))) (x3 (ix2 (0 : Fin 1) q)) := by
  show IntOp.cmpi .ne
      (broadcastTo S512x512 (shapeCast S512x1 x2 shapeCasts_S512x1_S512x1) broadcasts_S512x1_S512x512 (ix2 p q))
      (broadcastTo S512x512 (shapeCast S1x512 x3 shapeCasts_S1x512_S1x512) broadcasts_S1x512_S512x512 (ix2 p q)) = _
  rw [broadcastTo_a1_ab_apply, broadcastTo_1b_ab_apply, shapeCast_self, shapeCast_self]

/-! ## The point's row sums -/

/-- The value a grid point adds for row `p` of its tile: the sum, over the 512 rows `q` of the second block, of the hinge of
    the pair (row `p` of the first block, row `q` of the second), counted only where the two labels differ. -/
theorem pay3_apply (x0 x1 : Vec Ideal S512x1024 .f32) (x2 : Vec Ideal S512x1 .i32) (x3 : Vec Ideal S1x512 .i32) (p : Fin 512) :
    Cert.KernelIdeal.Gen.k1_pay3 (F := Ideal) x0 x1 x2 x3 (ix1 p)
      = ∑ q : Fin 512, Cert.Spec.hinge (fun d => x0 (ix2 p d)) (fun d => x1 (ix2 q d))
          (x2 (ix2 p (0 : Fin 1)) ≠ x3 (ix2 (0 : Fin 1) q)) := by
  unfold Cert.KernelIdeal.Gen.k1_pay3
  refine (rowSumN_apply _ _ _ _ p).trans (Finset.sum_congr rfl fun q _ => ?_)
  show Scalar.select
      (cmpi .ne (broadcastTo S512x512 (shapeCast S512x1 x2 shapeCasts_S512x1_S512x1) broadcasts_S512x1_S512x512)
        (broadcastTo S512x512 (shapeCast S1x512 x3 shapeCasts_S1x512_S1x512) broadcasts_S1x512_S512x512) (ix2 p q))
      (max (Ideal.ofBits .f32 0x3F000000#32
          - matmul dot_S512x1024_S512x1024_S512x512_1_1_0_0_n_n none (unitRows x0) (unitRows x1)
              (constant (F := Ideal) S512x512 .f32 0x00000000#32) (ix2 p q))
        (Ideal.ofBits .f32 0x00000000#32))
      (Ideal.ofBits .f32 0x00000000#32) = _
  rw [mask_apply, cos_apply, Ideal.ofBits_zero_f32]
  unfold Cert.Spec.hinge
  by_cases hne : x2 (ix2 p (0 : Fin 1)) ≠ x3 (ix2 (0 : Fin 1) q)
  · rw [if_pos hne, IntOp.cmpi_ne.mpr hne, select_one]
    rfl
  · rw [if_neg hne, eq_zero_of_ne_one (fun h => hne (IntOp.cmpi_ne.mp h)), select_zero]

/-! ## The accumulator's update and its reset -/

/-- A point's update of the accumulator column, at row `p`: the old entry plus the point's row sum. -/
theorem pay1_apply (v37 : FVec Ideal S512 .f32) (a : Vec Ideal S512x1 .f32) (p : Fin 512) :
    Cert.KernelIdeal.Gen.k1_pay1 (F := Ideal) v37 a (ix2 p (0 : Fin 1)) = a (ix2 p (0 : Fin 1)) + v37 (ix1 p) := by
  unfold Cert.KernelIdeal.Gen.k1_pay1
  rw [shapeCast_self]
  show a (ix2 p (0 : Fin 1)) + shapeCast S512x1 v37 shapeCasts_S512_S512x1 (ix2 p (0 : Fin 1)) = _
  rw [shapeCast_a_a1_apply]

/-- The reset leaves the real zero in every row. -/
theorem pay2_apply (p : Fin 512) : Cert.KernelIdeal.Gen.k1_pay2 (F := Ideal) (ix2 p (0 : Fin 1)) = 0 := by
  unfold Cert.KernelIdeal.Gen.k1_pay2
  rw [shapeCast_self]
  exact Ideal.ofBits_zero_f32

end Cert.KernelIdeal.H

end
-- ==== Proof.KI.Val1.lean ====
import proofs.«417645_j74594991997728_1_alg».proof.Proof.KI.R1Data
import proofs.«417645_j74594991997728_1_alg».proof.Proof.KI.Val1Pay
import Idealize.ShloMosaic.Lib.Pipeline.Value
import Mathlib.Algebra.BigOperators.Fin
import Mathlib.Logic.Equiv.Fin.Basic

noncomputable section

open scoped BigOperators

namespace Cert.KernelIdeal.H

open Cert.KernelIdeal Cert.KernelIdeal.Gen
open Idealize.ShloMosaic Idealize.ShloMosaic.TcCoe Idealize.ShloMosaic.ValueIdx Idealize.SL.Sem
open Idealize.ShloMosaic.Pipeline (Dat)

/-! ## Rows of the 8192 samples by block -/

/-- Sample `512 j + q`: row `q` of the `j`-th block of 512 samples (the block number read mod 16, so that the function is
    total). -/
def rowN (j : ℕ) (q : Fin 512) : Fin 8192 := ⟨512 * (j % 16) + q.val, by have := q.isLt; omega⟩

/-- The pair term of samples `r`, `s`: the hinge of their feature rows, counted where the column label of `r` and the row label
    of `s` differ. -/
def pairTerm (A : S8192x1024.Idx → EReal) (L0 : S8192x1.Idx → BitVec 32) (L1 : S1x8192.Idx → BitVec 32) (r s : Fin 8192) : EReal :=
  Cert.Spec.hinge (Cert.Spec.featRow A r) (Cert.Spec.featRow A s) (L0 (ix2 r (0 : Fin 1)) ≠ L1 (ix2 (0 : Fin 1) s))

/-- The hinge depends only on the two rows and the two labels. -/
theorem hinge_congr {x x' y y' : Cert.Spec.Row} {a a' b b' : BitVec 32} (hx : x = x') (hy : y = y') (ha : a = a') (hb : b = b') :
    Cert.Spec.hinge x y (a ≠ b) = Cert.Spec.hinge x' y' (a' ≠ b') := by
  subst hx hy ha hb; rfl

/-- A point's row sums over blocks that are rows `512 i …` and `512 j …` of one feature array, with the matching pieces of
    the two label arrays: for row `p`, the sum over the 512 samples of block `j` of the pair term with sample `512 i + p`. -/
theorem pay3_rows (A : S8192x1024.Idx → EReal) (L0 : S8192x1.Idx → BitVec 32) (L1 : S1x8192.Idx → BitVec 32)
    (x0 x1 : Vec Ideal S512x1024 .f32) (x2 : Vec Ideal S512x1 .i32) (x3 : Vec Ideal S1x512 .i32) (i j : ℕ)
    (h0 : ∀ (p : Fin 512) (d : Fin 1024), x0 (ix2 p d) = A (ix2 (rowN i p) d))
    (h1 : ∀ (q : Fin 512) (d : Fin 1024), x1 (ix2 q d) = A (ix2 (rowN j q) d))
    (h2 : ∀ p : Fin 512, x2 (ix2 p (0 : Fin 1)) = L0 (ix2 (rowN i p) (0 : Fin 1)))
    (h3 : ∀ q : Fin 512, x3 (ix2 (0 : Fin 1) q) = L1 (ix2 (0 : Fin 1) (rowN j q))) (p : Fin 512) :
    k1_pay3 (F := Ideal) x0 x1 x2 x3 (ix1 p) = ∑ q : Fin 512, pairTerm A L0 L1 (rowN i p) (rowN j q) := by
  refine (pay3_apply x0 x1 x2 x3 p).trans (Finset.sum_congr rfl fun q _ => ?_)
  exact hinge_congr (funext fun d => h0 p d) (funext fun d => h1 q d) (h2 p) (h3 q)

/-! ## The sixteen blocks of 512 samples are the 8192 samples -/

theorem sum_blocks (f : Fin 8192 → EReal) :
    ∑ j ∈ Finset.range 16, ∑ q : Fin 512, f (rowN j q) = ∑ s : Fin 8192, f s := by
  rw [Finset.sum_range (fun j => ∑ q : Fin 512, f (rowN j q)), ← Fintype.sum_prod_type']
  refine Fintype.sum_equiv (finProdFinEquiv : Fin 16 × Fin 512 ≃ Fin 8192) _ _ fun x => congrArg f (Fin.ext ?_)
  show 512 * (x.1.val % 16) + x.2.val = x.2.val + 512 * x.1.val
  have := x.1.isLt
  omega

/-! ## The blocks a point reads, as rows of the arrays the region finds -/

variable (V : (c : Dev nD) → (b : Ref sig .tc) → Buf (Elt Ideal) ((c : Thread nD τ).loc b))

/-- The index maps over the grid, point `t = 16 i + j`: the first feature window, the column labels' window and the output's
    window are at block `i`; the second feature window and the row labels' window at block `j`. -/
theorem idx_facts1 : ∀ t : Fin cfg1.N, win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 2) = t.val / 16 ∧ win1_2.index t (1 : Fin 2) = 0
    ∧ win1_3.index t (0 : Fin 2) = 0 ∧ win1_3.index t (1 : Fin 2) = t.val % 16
    ∧ win1_4.index t (0 : Fin 2) = t.val / 16 ∧ win1_4.index t (1 : Fin 2) = 0 :=
  (by decide +kernel : ∀ t : Fin grid1.N, _)

/-- The first feature block at point `t` is rows `512 (t / 16) …` of the feature array. -/
theorem blk0_apply (c : Dev nD) (t : Fin cfg1.N) (p : Fin 512) (d : Fin 1024) :
    (iblk1 V c 0 t : Vec Ideal S512x1024 .f32) (ix2 p d)
      = (V c main_arg0 : S8192x1024.Idx → EReal) (ix2 (rowN (t.val / 16) p) d) := by
  obtain ⟨e0, e1, -⟩ := idx_facts1 t
  have hN : t.val < 256 := lt_of_lt_of_eq t.isLt N_1
  unfold iblk1
  rw [View.read_apply]
  show V c main_arg0 _ = V c main_arg0 _
  congr 1
  funext a
  apply Fin.ext
  match a with
  | ⟨0, _⟩ => show win1_0.index t 0 * 512 + 1 * p.val = 512 * (t.val / 16 % 16) + p.val; rw [e0]; omega
  | ⟨1, _⟩ => show win1_0.index t 1 * 1024 + 1 * d.val = d.val; rw [e1]; omega

/-- The second feature block at point `t` is rows `512 (t % 16) …` of the same array. -/
theorem blk1_apply (c : Dev nD) (t : Fin cfg1.N) (q : Fin 512) (d : Fin 1024) :
    (iblk1 V c 1 t : Vec Ideal S512x1024 .f32) (ix2 q d)
      = (V c main_arg0 : S8192x1024.Idx → EReal) (ix2 (rowN (t.val % 16) q) d) := by
  obtain ⟨-, -, e2, e3, -⟩ := idx_facts1 t
  unfold iblk1
  rw [View.read_apply]
  show V c main_arg0 _ = V c main_arg0 _
  congr 1
  funext a
  apply Fin.ext
  match a with
  | ⟨0, _⟩ => show win1_1.index t 0 * 512 + 1 * q.val = 512 * (t.val % 16 % 16) + q.val; rw [e2]; omega
  | ⟨1, _⟩ => show win1_1.index t 1 * 1024 + 1 * d.val = d.val; rw [e3]; omega

/-- The column-label block at point `t` is entries `512 (t / 16) …` of the label column. -/
theorem blk2_apply (c : Dev nD) (t : Fin cfg1.N) (p : Fin 512) :
    (iblk1 V c 2 t : Vec Ideal S512x1 .i32) (ix2 p (0 : Fin 1))
      = (V c main_v0 : S8192x1.Idx → BitVec 32) (ix2 (rowN (t.val / 16) p) (0 : Fin 1)) := by
  obtain ⟨-, -, -, -, e4, e5, -⟩ := idx_facts1 t
  have hN : t.val < 256 := lt_of_lt_of_eq t.isLt N_1
  unfold iblk1
  rw [View.read_apply]
  show V c main_v0 _ = V c main_v0 _
  congr 1
  funext a
  apply Fin.ext
  match a with
  | ⟨0, _⟩ => show win1_2.index t 0 * 512 + 1 * p.val = 512 * (t.val / 16 % 16) + p.val; rw [e4]; omega
  | ⟨1, _⟩ => show win1_2.index t 1 * 1 + 1 * 0 = 0; rw [e5]

/-- The row-label block at point `t` is entries `512 (t % 16) …` of the label row. -/
theorem blk3_apply (c : Dev nD) (t : Fin cfg1.N) (q : Fin 512) :
    (iblk1 V c 3 t : Vec Ideal S1x512 .i32) (ix2 (0 : Fin 1) q)
      = (V c main_v1 : S1x8192.Idx → BitVec 32) (ix2 (0 : Fin 1) (rowN (t.val % 16) q)) := by
  obtain ⟨-, -, -, -, -, -, e6, e7, -⟩ := idx_facts1 t
  unfold iblk1
  rw [View.read_apply]
  show V c main_v1 _ = V c main_v1 _
  congr 1
  funext a
  apply Fin.ext
  match a with
  | ⟨0, _⟩ => show win1_3.index t 0 * 1 + 1 * 0 = 0; rw [e6]
  | ⟨1, _⟩ => show win1_3.index t 1 * 512 + 1 * q.val = 512 * (t.val % 16 % 16) + q.val; rw [e7]; omega

/-! ## The point's row sums, the accumulator -/

/-- The pair term over the arrays the region finds on core `c`. -/
abbrev pairV (c : Dev nD) (r s : Fin 8192) : EReal :=
  pairTerm (V c main_arg0 : S8192x1024.Idx → EReal) (V c main_v0 : S8192x1.Idx → BitVec 32) (V c main_v1 : S1x8192.Idx → BitVec 32) r s

/-- Point `t = 16 i + j` computes, for row `p`, the pair terms of sample `512 i + p` with the 512 samples of block `j`, added. -/
theorem rs1_apply (c : Dev nD) (t : Fin cfg1.N) (p : Fin 512) :
    rs1 V c t (ix1 p) = ∑ q : Fin 512, pairV V c (rowN (t.val / 16) p) (rowN (t.val % 16) q) :=
  pay3_rows (V c main_arg0) (V c main_v0) (V c main_v1) (iblk1 V c 0 t) (iblk1 V c 1 t) (iblk1 V c 2 t) (iblk1 V c 3 t)
    (t.val / 16) (t.val % 16) (blk0_apply V c t) (blk1_apply V c t) (blk2_apply V c t) (blk3_apply V c t) p

/-- After point `n = 16 i + j` row `p` of the accumulator is the pair terms of sample `512 i + p` with every sample of blocks
    `0 … j`, added: it restarts from zero at `j = 0` and each point adds its block's terms (sums of extended reals
    re-associate freely). -/
theorem acc1_apply (c : Dev nD) (n : ℕ) : ∀ (hn : n < cfg1.N) (p : Fin 512),
    (acc1 V c n hn : Vec Ideal S512x1 .f32) (ix2 p (0 : Fin 1))
      = ∑ j ∈ Finset.range (n % 16 + 1), ∑ q : Fin 512, pairV V c (rowN (n / 16) p) (rowN j q) := by
  induction n with
  | zero =>
    intro hn p
    rw [acc1_first V c ⟨0, hn⟩ rfl]
    refine (pay1_apply (rs1 V c ⟨0, hn⟩) (k1_pay2 (F := Ideal)) p).trans ?_
    rw [pay2_apply, zero_add, rs1_apply]
    exact (Finset.sum_range_one (fun j => ∑ q : Fin 512, pairV V c (rowN (0 / 16) p) (rowN j q))).symm
  | succ n ih =>
    intro hn p
    by_cases h : (n + 1) % 16 = 0
    · rw [acc1_first V c ⟨n + 1, hn⟩ h]
      refine (pay1_apply (rs1 V c ⟨n + 1, hn⟩) (k1_pay2 (F := Ideal)) p).trans ?_
      rw [pay2_apply, zero_add, rs1_apply]
      show ∑ q : Fin 512, pairV V c (rowN ((n + 1) / 16) p) (rowN ((n + 1) % 16) q) = _
      rw [h]
      exact (Finset.sum_range_one (fun j => ∑ q : Fin 512, pairV V c (rowN ((n + 1) / 16) p) (rowN j q))).symm
    · rw [acc1_next V c ⟨n + 1, hn⟩ h]
      refine (pay1_apply (rs1 V c ⟨n + 1, hn⟩) (acc1 V c n (Nat.lt_of_succ_lt hn)) p).trans ?_
      rw [ih (Nat.lt_of_succ_lt hn) p, rs1_apply]
      show _ + ∑ q : Fin 512, pairV V c (rowN ((n + 1) / 16) p) (rowN ((n + 1) % 16) q) = _
      have e1 : (n + 1) / 16 = n / 16 := by omega
      have e2 : (n + 1) % 16 = n % 16 + 1 := by omega
      rw [e1, e2, Finset.sum_range_succ _ (n % 16 + 1)]

/-! ## The output array -/

/-- What the output column ends holding: at row `r`, the pair terms of sample `r` with all 8192 samples, added. -/
def G1 (c : Dev nD) : S8192x1.Idx → EReal := fun i => ∑ s : Fin 8192, pairV V c ⟨(i 0).val, idx2_lt0 i⟩ s

/-- An accumulator holding all sixteen blocks' terms for the rows of block `i` is that block of the output column. -/
theorem acc_total (c : Dev nD) (acc : Vec Ideal S512x1 .f32) (i : ℕ)
    (hacc : ∀ p : Fin 512, acc (ix2 p (0 : Fin 1)) = ∑ j ∈ Finset.range 16, ∑ q : Fin 512, pairV V c (rowN i p) (rowN j q))
    (y : S512x1.Idx) (k : S8192x1.Idx) (hk : (k 0).val = 512 * (i % 16) + (y 0).val) : acc y = G1 V c k := by
  obtain ⟨p, u, rfl⟩ : ∃ (p : Fin 512) (u : Fin 1), y = ix2 p u := ⟨y 0, y 1, eq_ix2 y⟩
  obtain rfl : u = 0 := Subsingleton.elim _ _
  rw [hacc p, sum_blocks (fun s => pairV V c (rowN i p) s)]
  show _ = ∑ s : Fin 8192, pairV V c ⟨(k 0).val, idx2_lt0 k⟩ s
  have e : rowN i p = ⟨(k 0).val, idx2_lt0 k⟩ := Fin.ext hk.symm
  rw [e]

/-- What a flushing point (`t ≡ 15` mod 16) writes back is its block of that column. -/
theorem flushed1_eq (c : Dev nD) (t : Fin cfg1.N) (hf : (cfg1.win 4).flush t = true) :
    (dat1 (F := Ideal) V c).flushed 4 t = ((cfg1.win 4).blk t).view.read (Elt Ideal) (G1 V c) := by
  have h15 : t.val % 16 = 15 := (flush1_4 t).mp hf
  obtain ⟨-, -, -, -, -, -, -, -, e8, e9⟩ := idx_facts1 t
  have hN : t.val < 256 := lt_of_lt_of_eq t.isLt N_1
  show (cfg1.win 4).cut (grid1.coords t) ((dat1 (F := Ideal) V c).after 4 t) = _
  rw [after1_4]
  funext y
  rw [View.read_apply]
  show (acc1 V c t.val t.isLt : Vec Ideal S512x1 .f32) _ = G1 V c _
  refine acc_total V c (acc1 V c t.val t.isLt) (t.val / 16) (fun p => ?_) _ _ ?_
  · rw [acc1_apply V c t.val t.isLt p, h15]
  · show win1_4.index t 0 * 512 + 1 * (y 0).val = 512 * (t.val / 16 % 16) + (y 0).val
    rw [e8]; omega

/-- An index of the column is in point `t`'s block iff each coordinate is in the block's range. -/
theorem mem_blk1_4 (t : Fin cfg1.N) (i : S8192x1.Idx) :
    i ∈ ((cfg1.win 4).blk t).view.set ↔ ∀ a : Fin 2, win1_4.index t a * S512x1.size a ≤ (i a).val
      ∧ (i a).val < win1_4.index t a * S512x1.size a + S512x1.size a := by
  show i ∈ ((View.whole main_v21).slice (win1_4.rect t)).set ↔ _
  rw [View.set_slice_whole, Rect.mem_set_unit]
  exact Iff.rfl

/-- Row `r` lies in block `r / 512`, which the point `16 (r / 512) + 15` writes back. -/
theorem cover1 (i : S8192x1.Idx) : ∃ t : Fin cfg1.N, (cfg1.win 4).flush t = true ∧ i ∈ ((cfg1.win 4).blk t).view.set := by
  have hi0 : (i 0).val < 8192 := idx2_lt0 i
  have hi1 : (i 1).val < 1 := idx2_lt1 i
  have hlt : 16 * ((i 0).val / 512) + 15 < cfg1.N := by rw [show cfg1.N = 256 from N_1]; omega
  refine ⟨⟨16 * ((i 0).val / 512) + 15, hlt⟩, (flush1_4 _).mpr (by show (16 * ((i 0).val / 512) + 15) % 16 = 15; omega), ?_⟩
  obtain ⟨-, -, -, -, -, -, -, -, e8, e9⟩ := idx_facts1 ⟨16 * ((i 0).val / 512) + 15, hlt⟩
  have e8' : win1_4.index ⟨16 * ((i 0).val / 512) + 15, hlt⟩ 0 = (16 * ((i 0).val / 512) + 15) / 16 := e8
  rw [mem_blk1_4]
  intro a
  match a with
  | ⟨0, _⟩ =>
    show win1_4.index ⟨16 * ((i 0).val / 512) + 15, hlt⟩ 0 * 512 ≤ (i 0).val
      ∧ (i 0).val < win1_4.index ⟨16 * ((i 0).val / 512) + 15, hlt⟩ 0 * 512 + 512
    rw [e8']; omega
  | ⟨1, _⟩ =>
    show win1_4.index ⟨16 * ((i 0).val / 512) + 15, hlt⟩ 1 * 1 ≤ (i 1).val
      ∧ (i 1).val < win1_4.index ⟨16 * ((i 0).val / 512) + 15, hlt⟩ 1 * 1 + 1
    rw [e9]; omega

/-- THE VALUE THE REGION LEAVES: row `r` of its output column is the sum over all 8192 samples `s` of the hinge of the pair
    `(r, s)` of feature rows, counted where the column label of `r` and the row label of `s` differ. -/
theorem arr1_value (c : Dev nD) (r : Fin 8192) :
    ((dat1 (F := Ideal) V c).arrAt 4 cfg1.N : S8192x1.Idx → EReal) (ix2 r (0 : Fin 1))
      = ∑ s : Fin 8192, Cert.Spec.hinge (Cert.Spec.featRow (V c main_arg0) r) (Cert.Spec.featRow (V c main_arg0) s)
          ((V c main_v0 : S8192x1.Idx → BitVec 32) (ix2 r (0 : Fin 1)) ≠ (V c main_v1 : S1x8192.Idx → BitVec 32) (ix2 (0 : Fin 1) s)) :=
  congrFun ((dat1 (F := Ideal) V c).arrAt_eq_of_cover 4 (G1 V c) (flushed1_eq V c) cover1) (ix2 r (0 : Fin 1))

end Cert.KernelIdeal.H

end
-- ==== Proof.KI.HostRead.lean ====
/-
  The host side of the kernel program at the extended reals: what the operations between the two regions leave in the
  arrays the regions read, and the value the operations after the regions compute from what the regions wrote.
  The label column and the label row are reshapes of the label array; the padded centre table is the centre table
  followed by 24 rows of zeros, so that the one-hot sum over its 1024 rows picks the centre row of a label in
  [0, 1000); the result is the mean of the first region's column plus half the sum of the second region's column
  over the pair count.
-/
import proofs.«417645_j74594991997728_1_alg».proof.Proof.Gen.KernelIdeal.Regions
import proofs.«417645_j74594991997728_1_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

open scoped BigOperators

namespace Cert.KernelIdeal.H

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (outs : Outs (F := Ideal)) (c : Dev nD)

/-- The feature array as launched. -/
abbrev Fe : S8192x1024.Idx → EReal := m ((c : Thread nD τ).loc main_arg0)
/-- The label array as launched. -/
abbrev Le : S8192.Idx → BitVec 32 := m ((c : Thread nD τ).loc main_arg1)
/-- The centre table as launched. -/
abbrev Ce : S1000x1024.Idx → EReal := m ((c : Thread nD τ).loc main_arg2)

/-! ## The arguments between the items -/

/-- No item before the first region writes the feature array. -/
theorem V4_arg0 : V4 m c (Proc.devRef .tc main_arg0) = Fe m c :=
  (V4_of m c main_arg0 (by decide)).trans <| (V3_of m c main_arg0 (by decide)).trans <|
    (V2_of m c main_arg0 (by decide)).trans <| (V1_of m c main_arg0 (by decide)).trans rfl

/-- No item before the second region writes the feature array. -/
theorem V6_arg0 : V6 m outs c (Proc.devRef .tc main_arg0) = Fe m c :=
  (V6_of m outs c main_arg0 (by decide)).trans <| (V5_of m outs c main_arg0 (by decide)).trans <| V4_arg0 m c

/-! ## The label column and the label row -/

/-- After the first host stretch the label column is the label array cast to [8192, 1]. -/
theorem V1_v0_eq : (V1 m c (Proc.devRef .tc main_v0) : S8192x1.Idx → BitVec 32)
    = shapeCast S8192x1 (Le m c) shapeCasts_S8192_S8192x1 := by
  show StableHlo.after hostOps0 (V0 m c) (Proc.devRef .tc main_v0) = _
  after_results
  rfl

/-- After the first host stretch the label row is the label array cast to [1, 8192]. -/
theorem V1_v1_eq : (V1 m c (Proc.devRef .tc main_v1) : S1x8192.Idx → BitVec 32)
    = shapeCast S1x8192 (Le m c) shapeCasts_S8192_S1x8192 := by
  show StableHlo.after hostOps0 (V0 m c) (Proc.devRef .tc main_v1) = _
  after_results
  rfl

/-- An [n] array cast to [n, 1] reads, at (r, 0), the operand at r: both positions are r in row-major order. -/
theorem cast_col (x : S8192.Idx → BitVec 32) (r : Fin 8192) :
    shapeCast S8192x1 x shapeCasts_S8192_S8192x1 (ix2 r (0 : Fin 1)) = x (ix1 r) :=
  shapeCast_apply x _ _ _ (by
    rw [Shape.rowMajor_val_two, Shape.rowMajor_val_one]
    show r.val = r.val * 1 + 0
    omega)

/-- The label column the first region reads: entry (r, 0) is label r. -/
theorem V4_v0 (r : Fin 8192) : (V4 m c (Proc.devRef .tc main_v0) : S8192x1.Idx → BitVec 32) (ix2 r (0 : Fin 1))
    = (Le m c) (ix1 r) := by
  have e : V4 m c (Proc.devRef .tc main_v0) = V1 m c (Proc.devRef .tc main_v0) :=
    (V4_of m c main_v0 (by decide)).trans <| (V3_of m c main_v0 (by decide)).trans (V2_of m c main_v0 (by decide))
  refine (congrFun (e.trans (V1_v0_eq m c)) _).trans ?_
  exact cast_col _ r

/-- The label column the second region reads: entry (r, 0) is label r. -/
theorem V6_v0 (r : Fin 8192) : (V6 m outs c (Proc.devRef .tc main_v0) : S8192x1.Idx → BitVec 32) (ix2 r (0 : Fin 1))
    = (Le m c) (ix1 r) := by
  have e : V6 m outs c (Proc.devRef .tc main_v0) = V4 m c (Proc.devRef .tc main_v0) :=
    (V6_of m outs c main_v0 (by decide)).trans (V5_of m outs c main_v0 (by decide))
  exact (congrFun e _).trans (V4_v0 m c r)

/-- The label row the second region reads: entry (0, s) is label s. -/
theorem V6_v1 (s : Fin 8192) : (V6 m outs c (Proc.devRef .tc main_v1) : S1x8192.Idx → BitVec 32) (ix2 (0 : Fin 1) s)
    = (Le m c) (ix1 s) := by
  have e : V6 m outs c (Proc.devRef .tc main_v1) = V1 m c (Proc.devRef .tc main_v1) :=
    (V6_of m outs c main_v1 (by decide)).trans <| (V5_of m outs c main_v1 (by decide)).trans <|
      (V4_of m c main_v1 (by decide)).trans <| (V3_of m c main_v1 (by decide)).trans (V2_of m c main_v1 (by decide))
  refine (congrFun (e.trans (V1_v1_eq m c)) _).trans ?_
  exact shapeCast_a_1a_apply _ _ (0 : Fin 1) s

/-! ## The padded centre table -/

/-- Before the first region the padded table is the centre table padded by 24 rows of the zero word read signed. -/
theorem V4_v17_eq : (V4 m c (Proc.devRef .tc main_v17) : S1024x1024.Idx → EReal)
    = pad S1024x1024 ![0, 0] ![24, 0] ![0, 0] (Ce m c)
        (sitofp (F := Ideal) .f32 (constantI S_ 32 0#32)) pads_S1000x1024_S1024x1024_0240_000 h_S_ := by
  show StableHlo.after hostOps0_3 (V3 m c) (Proc.devRef .tc main_v17) = _
  after_results
  rfl

/-- A [1000, 1024] array padded below by 24 rows reads, at (k, d), the operand at (k, d) for k < 1000 and the padding
    value from row 1000 on: no low or interior padding, so a coordinate is its own source coordinate. -/
theorem pad_rows (x : S1000x1024.Idx → EReal) (v : S_.Idx → EReal) (k : Fin 1024) (d : Fin 1024) :
    pad S1024x1024 ![0, 0] ![24, 0] ![0, 0] x v pads_S1000x1024_S1024x1024_0240_000 h_S_ (ix2 k d)
      = if h : k.val < 1000 then x (ix2 ⟨k.val, h⟩ d) else v (Shape.Idx.first h_S_) := by
  unfold pad
  split_ifs with h1 h2 h2
  · refine congrArg x (funext fun a => Fin.ext ?_)
    match a with
    | ⟨0, _⟩ => show (k.val - 0) / (0 + 1) = k.val; simp
    | ⟨1, _⟩ => show (d.val - 0) / (0 + 1) = d.val; simp
  · exfalso
    have h3 : (k.val - 0) / (0 + 1) < 1000 := (h1 0).2.2
    simp at h3; omega
  · exfalso
    refine h1 fun a => ?_
    match a with
    | ⟨0, _⟩ =>
      show 0 ≤ k.val ∧ (k.val - 0) % (0 + 1) = 0 ∧ (k.val - 0) / (0 + 1) < 1000
      exact ⟨Nat.zero_le _, Nat.mod_one _, by simpa using h2⟩
    | ⟨1, _⟩ =>
      show 0 ≤ d.val ∧ (d.val - 0) % (0 + 1) = 0 ∧ (d.val - 0) / (0 + 1) < 1024
      exact ⟨Nat.zero_le _, Nat.mod_one _, by simpa using d.isLt⟩
  · rfl

/-- The padded centre table: the centre rows, then rows of zeros. -/
theorem V4_v17 (k : Fin 1024) (d : Fin 1024) : (V4 m c (Proc.devRef .tc main_v17) : S1024x1024.Idx → EReal) (ix2 k d)
    = (if h : k.val < 1000 then Ce m c (ix2 ⟨k.val, h⟩ d) else 0 : EReal) := by
  refine (congrFun (V4_v17_eq m c) _).trans ?_
  refine (pad_rows _ _ k d).trans ?_
  -- the padding value is the zero word read signed
  have hz : (sitofp (F := Ideal) .f32 (constantI S_ 32 0#32) : S_.Idx → EReal) (Shape.Idx.first h_S_) = 0 := by
    show (((0#32 : BitVec 32).toInt : ℝ) : EReal) = 0
    simp
  rw [hz]

/-- The one-hot sum over the padded table's rows, at a label in [0, 1000), is the centre row of that label: every row
    but row `label` is multiplied by zero, and row `label` lies among the centre rows. -/
theorem pick_pad (w : BitVec 32) (hw : 0 ≤ w.toInt ∧ w.toInt < 1000) :
    Cert.Spec.pick w (V4 m c (Proc.devRef .tc main_v17) : S1024x1024.Idx → EReal)
      = Cert.Spec.rowAt (Cert.Spec.cenRow (Ce m c)) w := by
  -- the word read unsigned is below 1000
  have hn : w.toNat < 1000 := by
    have hlt := w.isLt
    rw [BitVec.toInt_eq_toNat_cond] at hw
    split_ifs at hw with hc <;> omega
  funext d
  unfold Cert.Spec.pick Cert.Spec.rowAt Cert.Spec.cenRow
  rw [Finset.sum_eq_single (⟨w.toNat, by omega⟩ : Fin 1024)]
  · rw [if_pos (BitVec.eq_of_toNat_eq (by rw [BitVec.toNat_ofNat]; exact Nat.mod_eq_of_lt w.isLt)), one_mul, V4_v17, dif_pos hn]
    exact congrArg (fun k => Ce m c (ix2 k d))
      (Fin.ext (Nat.mod_eq_of_lt hn).symm)
  · intro k _ hk
    rw [if_neg, zero_mul]
    intro e
    apply hk
    apply Fin.ext
    have e' := congrArg BitVec.toNat e
    rw [BitVec.toNat_ofNat] at e'
    have hk' := k.isLt
    show k.val = w.toNat
    omega
  · intro h
    exact absurd (Finset.mem_univ _) h

/-! ## The operations after the regions -/

/-- The host stretch after the first region, over any contents: the mean of the first region's column. -/
theorem after1_v20 (W : Valuation τ sig (Elt Ideal)) :
    (StableHlo.after hostOps1 W (Proc.devRef .tc main_v20) : S_.Idx → EReal)
      = Host.divf (F := Ideal)
          (Host.reduceAdd (F := Ideal) (W (Proc.devRef .tc main_v18) : S8192x1.Idx → EReal)
            (constant (F := Ideal) S_ .f32 0x00000000#32) reducesTo_S8192x1_S_d0_1 h_S_)
          (constant (F := Ideal) S_ .f32 0x46000000#32) := by
  after_results

/-- The host stretch after the second region, over any contents: the mean term plus half the second region's column
    sum over the pair count. -/
theorem after2_v25 (W : Valuation τ sig (Elt Ideal)) :
    (StableHlo.after hostOps2 W (Proc.devRef .tc main_v25) : S_.Idx → EReal)
      = addf (F := Ideal) (W (Proc.devRef .tc main_v20) : S_.Idx → EReal)
          (mulf (F := Ideal) (constant (F := Ideal) S_ .f32 0x3F000000#32)
            (Host.divf (F := Ideal)
              (Host.reduceAdd (F := Ideal) (W (Proc.devRef .tc main_v21) : S8192x1.Idx → EReal)
                (constant (F := Ideal) S_ .f32 0x00000000#32) reducesTo_S8192x1_S_d0_1 h_S_)
              (W (Proc.devRef .tc main_v16) : S_.Idx → EReal))) := by
  after_results

/-- A sum over all of a [8192, 1] column, from the zero word, is the sum of its 8192 entries. -/
theorem sum_col (x : S8192x1.Idx → EReal) (j : S_.Idx) :
    Ideal.hostReduceAdd reducesTo_S8192x1_S_d0_1 x (Ideal.ofBits .f32 0x00000000#32) j
      = ∑ r : Fin 8192, x (ix2 r (0 : Fin 1)) := by
  rw [Ideal.hostReduceAdd_total reducesTo_S8192x1_S_d0_1 (fun b => b.elim0), Ideal.ofBits_zero_f32, zero_add, sum_idx2]
  exact Finset.sum_congr rfl fun r _ => Fin.sum_univ_one _

/-- The last operations over two columns whose entries are known: the first column's sum over 8192, plus one half
    times the second column's sum over the pair count. -/
theorem tail_value (x5 x7 : S8192x1.Idx → EReal) (npf : EReal) (intra : Fin 8192 → EReal)
    (adv : Fin 8192 → Fin 8192 → EReal)
    (h5 : ∀ r : Fin 8192, x5 (ix2 r (0 : Fin 1)) = intra r)
    (h7 : ∀ r : Fin 8192, x7 (ix2 r (0 : Fin 1)) = ∑ s : Fin 8192, adv r s) (j : S_.Idx) :
    addf (F := Ideal)
        (Host.divf (F := Ideal)
          (Host.reduceAdd (F := Ideal) x5 (constant (F := Ideal) S_ .f32 0x00000000#32) reducesTo_S8192x1_S_d0_1 h_S_)
          (constant (F := Ideal) S_ .f32 0x46000000#32))
        (mulf (F := Ideal) (constant (F := Ideal) S_ .f32 0x3F000000#32)
          (Host.divf (F := Ideal)
            (Host.reduceAdd (F := Ideal) x7 (constant (F := Ideal) S_ .f32 0x00000000#32) reducesTo_S8192x1_S_d0_1 h_S_)
            (fun _ => npf))) j
      = Ideal.div (∑ r, intra r) Cert.Spec.c8192 + Cert.Spec.half * Ideal.div (∑ r, ∑ s, adv r s) npf := by
  show Ideal.div (Ideal.hostReduceAdd reducesTo_S8192x1_S_d0_1 x5 (Ideal.ofBits .f32 0x00000000#32) j)
        (Ideal.ofBits .f32 0x46000000#32)
      + Ideal.ofBits .f32 0x3F000000#32
        * Ideal.div (Ideal.hostReduceAdd reducesTo_S8192x1_S_d0_1 x7 (Ideal.ofBits .f32 0x00000000#32) j) npf = _
  rw [sum_col, sum_col, Finset.sum_congr rfl fun r _ => h5 r, Finset.sum_congr rfl fun r _ => h7 r]
  rfl

/-- The program's result from what the two regions leave: when the first region's column holds the per-sample terms
    and the second region's column the per-sample hinge sums, both over the arrays the regions read, the result is
    the loss of the launch arrays and the pair count. -/
theorem kernel_value (np : BitVec 32) (hr : Cert.Spec.InRange (Le m c))
    (h5 : ∀ r : Fin 8192, (outs 5 main_v18 c : S8192x1.Idx → EReal) (ix2 r (0 : Fin 1))
      = Cert.Spec.intraRow (Cert.Spec.featRow (V4 m c (Proc.devRef .tc main_arg0)) r)
          (Cert.Spec.pick ((V4 m c (Proc.devRef .tc main_v0) : S8192x1.Idx → BitVec 32) (ix2 r (0 : Fin 1)))
            (V4 m c (Proc.devRef .tc main_v17))))
    (h7 : ∀ r : Fin 8192, (outs 7 main_v21 c : S8192x1.Idx → EReal) (ix2 r (0 : Fin 1))
      = ∑ s : Fin 8192, Cert.Spec.hinge (Cert.Spec.featRow (V6 m outs c (Proc.devRef .tc main_arg0)) r)
          (Cert.Spec.featRow (V6 m outs c (Proc.devRef .tc main_arg0)) s)
          ((V6 m outs c (Proc.devRef .tc main_v0) : S8192x1.Idx → BitVec 32) (ix2 r (0 : Fin 1))
            ≠ (V6 m outs c (Proc.devRef .tc main_v1) : S1x8192.Idx → BitVec 32) (ix2 (0 : Fin 1) s)))
    (hnp : (V3 m c (Proc.devRef .tc main_v16) : S_.Idx → EReal) = fun _ => (((np.toInt : ℝ)) : EReal)) :
    (V8 m outs c (Proc.devRef .tc main_v25) : S_.Idx → EReal)
      = fun _ => Cert.Spec.loss (Fe m c) (Le m c) (Ce m c) np := by
  -- the two regions' columns, entry by entry, over the launch arrays
  have e5 : ∀ r : Fin 8192, (outs 5 main_v18 c : S8192x1.Idx → EReal) (ix2 r (0 : Fin 1))
      = Cert.Spec.intraRow (Cert.Spec.featRow (Fe m c) r)
          (Cert.Spec.rowAt (Cert.Spec.cenRow (Ce m c)) (Cert.Spec.labAt (Le m c) r)) := by
    intro r
    rw [h5 r, V4_arg0 m c, V4_v0 m c r, pick_pad m c (Le m c (ix1 r)) (hr r)]
    rfl
  have e7 : ∀ r : Fin 8192, (outs 7 main_v21 c : S8192x1.Idx → EReal) (ix2 r (0 : Fin 1))
      = ∑ s : Fin 8192, Cert.Spec.hinge (Cert.Spec.featRow (Fe m c) r) (Cert.Spec.featRow (Fe m c) s)
          (Cert.Spec.labAt (Le m c) r ≠ Cert.Spec.labAt (Le m c) s) := by
    intro r
    rw [h7 r, V6_arg0 m outs c, V6_v0 m outs c r]
    simp only [V6_v1 m outs c]
    rfl
  -- the operands of the last stretch that earlier items wrote
  have e16 : (V7 m outs c (Proc.devRef .tc main_v16) : S_.Idx → EReal) = fun _ => (((np.toInt : ℝ)) : EReal) :=
    ((V7_of m outs c main_v16 (by decide)).trans <| (V6_of m outs c main_v16 (by decide)).trans <|
      (V5_of m outs c main_v16 (by decide)).trans (V4_of m c main_v16 (by decide))).trans hnp
  have e21 : (V7 m outs c (Proc.devRef .tc main_v21) : S8192x1.Idx → EReal) = outs 7 main_v21 c :=
    Function.update_self _ _ _
  have e18 : (V5 m outs c (Proc.devRef .tc main_v18) : S8192x1.Idx → EReal) = outs 5 main_v18 c :=
    Function.update_self _ _ _
  have e20 : (V7 m outs c (Proc.devRef .tc main_v20) : S_.Idx → EReal)
      = Host.divf (F := Ideal)
          (Host.reduceAdd (F := Ideal) (outs 5 main_v18 c : S8192x1.Idx → EReal)
            (constant (F := Ideal) S_ .f32 0x00000000#32) reducesTo_S8192x1_S_d0_1 h_S_)
          (constant (F := Ideal) S_ .f32 0x46000000#32) := by
    refine (V7_of m outs c main_v20 (by decide)).trans ?_
    refine (after1_v20 (V5 m outs c)).trans ?_
    rw [e18]
  refine (after2_v25 (V7 m outs c)).trans ?_
  rw [e20, e21, e16]
  funext j
  exact tail_value (outs 5 main_v18 c) (outs 7 main_v21 c) (((np.toInt : ℝ)) : EReal)
    (fun r => Cert.Spec.intraRow (Cert.Spec.featRow (Fe m c) r)
      (Cert.Spec.rowAt (Cert.Spec.cenRow (Ce m c)) (Cert.Spec.labAt (Le m c) r)))
    (fun r s => Cert.Spec.hinge (Cert.Spec.featRow (Fe m c) r) (Cert.Spec.featRow (Fe m c) s)
      (Cert.Spec.labAt (Le m c) r ≠ Cert.Spec.labAt (Le m c) s))
    e5 e7 j

end Cert.KernelIdeal.H

end
-- ==== Proof.lean ====
/-
  The certificate of the clamped-cosine centre loss: the word-level kernel program and its idealization run to the end
  leaving their arguments unchanged, the idealization is the program's own text read over the extended reals, and at
  that instance the kernel program and the reference end at the same value whenever every label lies in [0, 1000).
  Both programs compute, per sample r, the squared distance of feature row r to the centre row its label picks divided
  by exp of their clamped cosine similarity, averaged over the samples, plus half the sum over label-mismatched ordered
  pairs (r, s) of max(1/2 − cos(x_r, x_s), 0) divided by the number of such pairs (at least 1). The kernel program gets
  the centre row by a one-hot product with the zero-padded table (the gathered row, for a label in range), the pair sum
  tile by tile through a carried accumulator (a reassociation of one finite sum of extended reals), and the pair count as
  8192² − Σ_c count_c² (the direct count, for labels in range). No finiteness of the inputs is used.
-/
import proofs.«417645_j74594991997728_1_alg».proof.Defs
import proofs.«417645_j74594991997728_1_alg».proof.Proof.Gen.Kernel
import proofs.«417645_j74594991997728_1_alg».proof.Proof.Gen.KernelIdeal
import proofs.«417645_j74594991997728_1_alg».proof.Proof.Gen.ReferenceIdeal
import proofs.«417645_j74594991997728_1_alg».proof.Proof.Gen.ReferenceIdeal.Run
import proofs.«417645_j74594991997728_1_alg».proof.Proof.Gen.ReferenceIdeal.Read
import proofs.«417645_j74594991997728_1_alg».proof.Proof.Gen.Pre_finite_inputs
import proofs.«417645_j74594991997728_1_alg».proof.Proof.Spec
import proofs.«417645_j74594991997728_1_alg».proof.Proof.PreRange
import proofs.«417645_j74594991997728_1_alg».proof.Proof.Count
import proofs.«417645_j74594991997728_1_alg».proof.Proof.CountK
import proofs.«417645_j74594991997728_1_alg».proof.Proof.CountR
import proofs.«417645_j74594991997728_1_alg».proof.Proof.RefValue
import proofs.«417645_j74594991997728_1_alg».proof.Proof.K.Regs
import proofs.«417645_j74594991997728_1_alg».proof.Proof.KI.Regs
import proofs.«417645_j74594991997728_1_alg».proof.Proof.KI.RunValue
import proofs.«417645_j74594991997728_1_alg».proof.Proof.KI.Val0
import proofs.«417645_j74594991997728_1_alg».proof.Proof.KI.Val1
import proofs.«417645_j74594991997728_1_alg».proof.Proof.KI.HostRead
import Idealize.ShloMosaic.Adequacy
import Idealize.ShloMosaic.Init

noncomputable section

namespace Cert.Proof

open Idealize.ShloMosaic Idealize.ShloMosaic.TcCoe Idealize.SL.Sem

/-! ## The frames -/

/-- The word-level program: the two regions' records at the word instance. -/
theorem frame_k : Cert.frame_Kernel (hKernel := Cert.Kernel.Gen.facts) (hPre_finite_inputs := Cert.Pre_finite_inputs.Gen.facts) :=
  fun m ρ _ => Cert.Kernel.H.frame m ρ

/-- Its idealization: the same records at the ideal instance. -/
theorem frame_ki : Cert.frame_KernelIdeal (hKernelIdeal := Cert.KernelIdeal.Gen.facts) (hPre_finite_inputs := Cert.Pre_finite_inputs.Gen.facts) :=
  fun m ρ _ => Cert.KernelIdeal.H.frame m ρ

/-- The reference is a host program: its generated run names the result and keeps the arguments. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-! ## The value -/

/-- The value both runs end at, as a function of the three argument arrays: the loss of Spec.lean at the pair count
    of the labels. -/
def lossOf (f : (⟨Cert.ReferenceIdeal.S8192x1024, .f32⟩ : BufTy).Contents (Elt Ideal)) (l : (⟨Cert.ReferenceIdeal.S8192, .i32⟩ : BufTy).Contents (Elt Ideal))
    (c : (⟨Cert.ReferenceIdeal.S1000x1024, .f32⟩ : BufTy).Contents (Elt Ideal)) : (⟨Cert.ReferenceIdeal.S_, .f32⟩ : BufTy).Contents (Elt Ideal) :=
  fun _ => Cert.Spec.loss f l c (Cert.Count.pairWord l)

/-- The reference's result is `lossOf` of its arguments when the labels are in range: its stages read one by one, the
    gathered row the row the label names. -/
theorem ref_run (m' : (ℓ : Loc Cert.ReferenceIdeal.nD Cert.ReferenceIdeal.τ Cert.ReferenceIdeal.sig) → Buf (Elt Ideal) ℓ) (ρ' : Dev Cert.ReferenceIdeal.nD → PrngReg)
    (hr : ∀ c : Dev Cert.ReferenceIdeal.nD, Cert.Spec.InRange (m' ((c.tc : Thread Cert.ReferenceIdeal.nD Cert.ReferenceIdeal.τ).loc Cert.ReferenceIdeal.main_arg1))) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v47)
        = lossOf (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) :=
  (θ_run Cert.ReferenceIdeal.defs _ _).mono (fun _ h c => ⟨((h c).1.trans (Cert.RefValue.ref_run_value m' c)).trans
      (Cert.RefValue.ref_value _ _ _ _ (Cert.Count.ref_np _) (hr c)), (h c).2⟩)
    (Cert.ReferenceIdeal.Value.run (F := Ideal) m' ρ')

open Cert.KernelIdeal Cert.KernelIdeal.Gen Cert.KernelIdeal.H in
/-- What the kernel program's last host stretch computes is `lossOf` of the arguments when the labels are in range: region
    0's output array holds the per-sample terms (the one-hot product picks the label's centre row), region 1's the
    rows' hinge sums over all 8192 partners, and the pair count is the direct count. -/
theorem kernel_result (m : (ℓ : Loc nD τ sig) → Buf (Elt Ideal) ℓ) (c : Dev nD)
    (hr : Cert.Spec.InRange (m ((c : Thread nD τ).loc main_arg1))) :
    (Gen.V8 m (outs m) c (Proc.devRef .tc main_v25) : S_.Idx → EReal)
      = lossOf (m ((c : Thread nD τ).loc main_arg0)) (m ((c : Thread nD τ).loc main_arg1)) (m ((c : Thread nD τ).loc main_arg2)) :=
  kernel_value m (outs m) c (Cert.Count.pairWord (m ((c : Thread nD τ).loc main_arg1))) hr
    (fun r => by rw [outs5]; exact arr0_value (Vin0 m) c r)
    (fun r => by rw [outs7, V6_outs]; exact arr1_value (Vin1 m) c r)
    (Cert.Count.kernel_np m c hr)

open Cert.KernelIdeal Cert.KernelIdeal.Gen Cert.KernelIdeal.H in
/-- The idealized kernel program's run ends at `lossOf` of its arguments when the labels are in range. -/
theorem kernel_run (m : (ℓ : Loc nD τ sig) → Buf (Elt Ideal) ℓ) (ρ : Dev nD → PrngReg)
    (hr : ∀ c : Dev nD, Cert.Spec.InRange (m ((c : Thread nD τ).loc main_arg1))) :
    θ_run (defs (F := Ideal)) (onTc (τ := τ) (main (F := Ideal))) ⟨m, fun _ => 0, ρ⟩ (fun r => ∀ c : Dev nD,
      r.2.mem ((c.tc : Thread nD τ).loc main_v25)
        = lossOf (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (kernel_result m c (hr c)), (h c).2⟩) (run_named (F := Ideal) m ρ)

/-- The two idealized programs, from memories agreeing on the arguments with every label in range, end at the same
    value: `lossOf` of the arguments. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' hpre hagree
  haveI : Cert.Pre_finite_inputs.Facts := Cert.Pre_finite_inputs.Gen.facts
  have hr : ∀ c : Dev Cert.KernelIdeal.nD, Cert.Spec.InRange (m ((c.tc : Thread Cert.KernelIdeal.nD Cert.KernelIdeal.τ).loc Cert.KernelIdeal.main_arg1)) :=
    fun c => Cert.PreRange.inRange_of_pre _ _ _ (hpre c)
  refine ⟨fun c => lossOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    kernel_run m ρ hr, ?_⟩
  refine (θ_run Cert.ReferenceIdeal.defs _ _).mono (fun _ h c => ⟨(h c).1.trans ?_, (h c).2⟩)
    (ref_run m' ρ' (fun c => by rw [(hagree c).2.1]; exact hr c))
  rw [(hagree c).1, (hagree c).2.1, (hagree c).2.2]

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
